-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S_ : Shape := ⟨0, ![]⟩
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩

class Facts : Prop where
  reducesTo_S_S_d : S_.ReducesTo [] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S2x800000 : S_.BroadcastsInDim S2x800000 (![] : Fin 0 → Fin S2x800000.rank)
  reducesTo_S2x800000_S_d0_1 : S2x800000.ReducesTo [0, 1] S_

variable [Facts]

def fn_part3 {F : FTy → Type} [FloatOps F] (main_arg2 : IVec S2x800000 32) (main_v47 : IVec S_ 1) (main_v49 : IVec S2x800000 1) (main_c_19 : IVec S_ 32) : IVec S_ 1 :=
  let main_v50 : IVec S2x800000 32 := broadcastInDim S2x800000 ![] bcast_S_S2x800000 main_c_19
  let main_v51 : IVec S2x800000 1 := cmpi .slt main_arg2 main_v50
  let main_v52 : IVec S2x800000 1 := andi main_v49 main_v51
  let main_c_20 : IVec S_ 1 := constantI S_ 1 1#1
  let main_v53 : IVec S_ 1 := (fun x v => Host.reduce IntOp.andi x v reducesTo_S2x800000_S_d0_1 h_S_) main_v52 main_c_20
  let main_v54 : IVec S_ 1 := andi main_v47 main_v53
  main_v54

def fn_part2 {F : FTy → Type} [FloatOps F] (main_arg2 : IVec S2x800000 32) (main_arg9 : FVec F S128x1 .f32) (main_arg10 : FVec F S1 .f32) (main_v32 : IVec S_ 1) (main_v33 : FVec F S128 .f32) : IVec S_ 1 :=
  let main_cst_12 : FVec F S_ .f32 := constant S_ .f32 0x7F800000#32
  let main_v34 : FVec F S128 .f32 := broadcastInDim S128 ![] bcast_S_S128 main_cst_12
  let main_v35 : IVec S128 1 := cmpf .olt main_v33 main_v34
  let main_c_13 : IVec S_ 1 := constantI S_ 1 1#1
  let main_v36 : IVec S_ 1 := (fun x v => Host.reduce IntOp.andi x v reducesTo_S128_S_d0 h_S_) main_v35 main_c_13
  let main_v37 : IVec S_ 1 := andi main_v32 main_v36
  let main_v38 : FVec F S128x1 .f32 := Host.absf main_arg9
  let main_cst_14 : FVec F S_ .f32 := constant S_ .f32 0x7F800000#32
  let main_v39 : FVec F S128x1 .f32 := broadcastInDim S128x1 ![] bcast_S_S128x1 main_cst_14
  let main_v40 : IVec S128x1 1 := cmpf .olt main_v38 main_v39
  let main_c_15 : IVec S_ 1 := constantI S_ 1 1#1
  let main_v41 : IVec S_ 1 := (fun x v => Host.reduce IntOp.andi x v reducesTo_S128x1_S_d0_1 h_S_) main_v40 main_c_15
  let main_v42 : IVec S_ 1 := andi main_v37 main_v41
  let main_v43 : FVec F S1 .f32 := Host.absf main_arg10
  let main_cst_16 : FVec F S_ .f32 := constant S_ .f32 0x7F800000#32
  let main_v44 : FVec F S1 .f32 := broadcastInDim S1 ![] bcast_S_S1 main_cst_16
  let main_v45 : IVec S1 1 := cmpf .olt main_v43 main_v44
  let main_c_17 : IVec S_ 1 := constantI S_ 1 1#1
  let main_v46 : IVec S_ 1 := (fun x v => Host.reduce IntOp.andi x v reducesTo_S1_S_d0 h_S_) main_v45 main_c_17
  let main_v47 : IVec S_ 1 := andi main_v42 main_v46
  let main_c_18 : IVec S_ 32 := constantI S_ 32 0#32
  let main_v48 : IVec S2x800000 32 := broadcastInDim S2x800000 ![] bcast_S_S2x800000 main_c_18
  let main_v49 : IVec S2x800000 1 := cmpi .sge main_arg2 main_v48
  let main_c_19 : IVec S_ 32 := constantI S_ 32 50000#32
  fn_part3 (F := F) main_arg2 main_v47 main_v49 main_c_19

def fn_part1 {F : FTy → Type} [FloatOps F] (main_arg2 : IVec S2x800000 32) (main_arg5 : FVec F S128x128 .f32) (main_arg6 : FVec F S128 .f32) (main_arg7 : FVec F S256x128 .f32) (main_arg8 : FVec F S128 .f32) (main_arg9 : FVec F S128x1 .f32) (main_arg10 : FVec F S1 .f32) (main_v12 : IVec S_ 1) (main_v15 : IVec S128 1) (main_c_5 : IVec S_ 1) : IVec S_ 1 :=
  let main_v16 : IVec S_ 1 := (fun x v => Host.reduce IntOp.andi x v reducesTo_S128_S_d0 h_S_) main_v15 main_c_5
  let main_v17 : IVec S_ 1 := andi main_v12 main_v16
  let main_v18 : FVec F S128x128 .f32 := Host.absf main_arg5
  let main_cst_6 : FVec F S_ .f32 := constant S_ .f32 0x7F800000#32
  let main_v19 : FVec F S128x128 .f32 := broadcastInDim S128x128 ![] bcast_S_S128x128 main_cst_6
  let main_v20 : IVec S128x128 1 := cmpf .olt main_v18 main_v19
  let main_c_7 : IVec S_ 1 := constantI S_ 1 1#1
  let main_v21 : IVec S_ 1 := (fun x v => Host.reduce IntOp.andi x v reducesTo_S128x128_S_d0_1 h_S_) main_v20 main_c_7
  let main_v22 : IVec S_ 1 := andi main_v17 main_v21
  let main_v23 : FVec F S128 .f32 := Host.absf main_arg6
  let main_cst_8 : FVec F S_ .f32 := constant S_ .f32 0x7F800000#32
  let main_v24 : FVec F S128 .f32 := broadcastInDim S128 ![] bcast_S_S128 main_cst_8
  let main_v25 : IVec S128 1 := cmpf .olt main_v23 main_v24
  let main_c_9 : IVec S_ 1 := constantI S_ 1 1#1
  let main_v26 : IVec S_ 1 := (fun x v => Host.reduce IntOp.andi x v reducesTo_S128_S_d0 h_S_) main_v25 main_c_9
  let main_v27 : IVec S_ 1 := andi main_v22 main_v26
  let main_v28 : FVec F S256x128 .f32 := Host.absf main_arg7
  let main_cst_10 : FVec F S_ .f32 := constant S_ .f32 0x7F800000#32
  let main_v29 : FVec F S256x128 .f32 := broadcastInDim S256x128 ![] bcast_S_S256x128 main_cst_10
  let main_v30 : IVec S256x128 1 := cmpf .olt main_v28 main_v29
  let main_c_11 : IVec S_ 1 := constantI S_ 1 1#1
  let main_v31 : IVec S_ 1 := (fun x v => Host.reduce IntOp.andi x v reducesTo_S256x128_S_d0_1 h_S_) main_v30 main_c_11
  let main_v32 : IVec S_ 1 := andi main_v27 main_v31
  let main_v33 : FVec F S128 .f32 := Host.absf main_arg8
  fn_part2 (F := F) main_arg2 main_arg9 main_arg10 main_v32 main_v33

def fn {F : FTy → Type} [FloatOps F] (main_arg0 : FVec F S_ .f32) (main_arg1 : FVec F S50000x128 .f32) (main_arg2 : IVec S2x800000 32) (main_arg3 : FVec F S256x128 .f32) (main_arg4 : FVec F S128 .f32) (main_arg5 : FVec F S128x128 .f32) (main_arg6 : FVec F S128 .f32) (main_arg7 : FVec F S256x128 .f32) (main_arg8 : FVec F S128 .f32) (main_arg9 : FVec F S128x1 .f32) (main_arg10 : FVec F S1 .f32) : IVec S_ 1 :=
  let main_v0 : FVec F S_ .f32 := Host.absf main_arg0
  let main_cst : FVec F S_ .f32 := constant S_ .f32 0x7F800000#32
  let main_v1 : IVec S_ 1 := cmpf .olt main_v0 main_cst
  let main_c : IVec S_ 1 := constantI S_ 1 1#1
  let main_v2 : IVec S_ 1 := (fun x v => Host.reduce IntOp.andi x v reducesTo_S_S_d h_S_) main_v1 main_c
  let main_v3 : FVec F S50000x128 .f32 := Host.absf main_arg1
  let main_cst_0 : FVec F S_ .f32 := constant S_ .f32 0x7F800000#32
  let main_v4 : FVec F S50000x128 .f32 := broadcastInDim S50000x128 ![] bcast_S_S50000x128 main_cst_0
  let main_v5 : IVec S50000x128 1 := cmpf .olt main_v3 main_v4
  let main_c_1 : IVec S_ 1 := constantI S_ 1 1#1
  let main_v6 : IVec S_ 1 := (fun x v => Host.reduce IntOp.andi x v reducesTo_S50000x128_S_d0_1 h_S_) main_v5 main_c_1
  let main_v7 : IVec S_ 1 := andi main_v2 main_v6
  let main_v8 : FVec F S256x128 .f32 := Host.absf main_arg3
  let main_cst_2 : FVec F S_ .f32 := constant S_ .f32 0x7F800000#32
  let main_v9 : FVec F S256x128 .f32 := broadcastInDim S256x128 ![] bcast_S_S256x128 main_cst_2
  let main_v10 : IVec S256x128 1 := cmpf .olt main_v8 main_v9
  let main_c_3 : IVec S_ 1 := constantI S_ 1 1#1
  let main_v11 : IVec S_ 1 := (fun x v => Host.reduce IntOp.andi x v reducesTo_S256x128_S_d0_1 h_S_) main_v10 main_c_3
  let main_v12 : IVec S_ 1 := andi main_v7 main_v11
  let main_v13 : FVec F S128 .f32 := Host.absf main_arg4
  let main_cst_4 : FVec F S_ .f32 := constant S_ .f32 0x7F800000#32
  let main_v14 : FVec F S128 .f32 := broadcastInDim S128 ![] bcast_S_S128 main_cst_4
  let main_v15 : IVec S128 1 := cmpf .olt main_v13 main_v14
  let main_c_5 : IVec S_ 1 := constantI S_ 1 1#1
  fn_part1 (F := F) main_arg2 main_arg5 main_arg6 main_arg7 main_arg8 main_arg9 main_arg10 main_v12 main_v15 main_c_5
-- ==== Kernel.lean ====
abbrev S_ : Shape := ⟨0, ![]⟩
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S5000x128 : Shape := ⟨2, ![5000, 128]⟩
abbrev S5000 : Shape := ⟨1, ![5000]⟩
abbrev S5000x1 : Shape := ⟨2, ![5000, 1]⟩
abbrev S800000x1 : Shape := ⟨2, ![800000, 1]⟩
abbrev S1x1 : Shape := ⟨2, ![1, 1]⟩
abbrev S800000x128 : Shape := ⟨2, ![800000, 128]⟩
abbrev S1x128 : Shape := ⟨2, ![1, 128]⟩
abbrev S4000x128 : Shape := ⟨2, ![4000, 128]⟩
abbrev S4000x1 : Shape := ⟨2, ![4000, 1]⟩
abbrev S4000 : Shape := ⟨1, ![4000]⟩
abbrev S50000x1 : Shape := ⟨2, ![50000, 1]⟩

abbrev nBuf : Space → Nat
  | .hbm => 133
  | .vmem => 36
  | .smem => 0
  | _ => 0

abbrev hbmTy0_0 (i : Nat) : BufTy := match i % 128 with
  | 0 => ⟨S_, .f32⟩
  | 1 => ⟨S50000x128, .f32⟩
  | 2 => ⟨S2x800000, .i32⟩
  | 3 => ⟨S256x128, .f32⟩
  | 4 => ⟨S128, .f32⟩
  | 5 => ⟨S128x128, .f32⟩
  | 6 => ⟨S128, .f32⟩
  | 7 => ⟨S256x128, .f32⟩
  | 8 => ⟨S128, .f32⟩
  | 9 => ⟨S128x1, .f32⟩
  | 10 => ⟨S1, .f32⟩
  | 11 => ⟨S1x800000, .i32⟩
  | 12 => ⟨S800000, .i32⟩
  | 13 => ⟨S1x800000, .i32⟩
  | 14 => ⟨S800000, .i32⟩
  | 15 => ⟨S50000x128, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S1, .i32⟩
  | 25 => ⟨S_, .i32⟩
  | 26 => ⟨S800000x1, .i32⟩
  | 27 => ⟨S800000x1, .i1⟩
  | 28 => ⟨S1x1, .i32⟩
  | 29 => ⟨S800000x1, .i32⟩
  | 30 => ⟨S800000x1, .i1⟩
  | 31 => ⟨S800000x1, .i1⟩
  | 32 => ⟨S_, .i1⟩
  | 33 => ⟨S800000, .i1⟩
  | 34 => ⟨S800000x128, .f32⟩
  | 35 => ⟨S800000x128, .i1⟩
  | 36 => ⟨S_, .f32⟩
  | 37 => ⟨S800000x128, .f32⟩
  | 38 => ⟨S800000x128, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S1, .i32⟩
  | 48 => ⟨S_, .i32⟩
  | 49 => ⟨S800000x1, .i32⟩
  | 50 => ⟨S800000x1, .i1⟩
  | 51 => ⟨S1x1, .i32⟩
  | 52 => ⟨S800000x1, .i32⟩
  | 53 => ⟨S800000x1, .i1⟩
  | 54 => ⟨S800000x1, .i1⟩
  | 55 => ⟨S_, .i1⟩
  | 56 => ⟨S800000, .i1⟩
  | 57 => ⟨S800000x128, .f32⟩
  | 58 => ⟨S800000x128, .i1⟩
  | 59 => ⟨S_, .f32⟩
  | 60 => ⟨S800000x128, .f32⟩
  | 61 => ⟨S800000x128, .f32⟩
  | 62 => ⟨S128x128, .f32⟩
  | 63 => ⟨S128x128, .f32⟩
  | 64 => ⟨S1x128, .f32⟩
  | 65 => ⟨S1x128, .f32⟩
  | 66 => ⟨S800000x128, .f32⟩
  | 67 => ⟨S_, .f32⟩
  | 68 => ⟨S50000x128, .f32⟩
  | 69 => ⟨S800000x1, .i32⟩
  | 70 => ⟨S50000x128, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S1, .i32⟩
  | 80 => ⟨S_, .i32⟩
  | 81 => ⟨S800000x1, .i32⟩
  | 82 => ⟨S800000x1, .i1⟩
  | 83 => ⟨S1x1, .i32⟩
  | 84 => ⟨S800000x1, .i32⟩
  | 85 => ⟨S800000x1, .i1⟩
  | 86 => ⟨S800000x1, .i1⟩
  | 87 => ⟨S_, .i1⟩
  | 88 => ⟨S800000, .i1⟩
  | 89 => ⟨S800000x128, .f32⟩
  | 90 => ⟨S800000x128, .i1⟩
  | 91 => ⟨S_, .f32⟩
  | 92 => ⟨S800000x128, .f32⟩
  | 93 => ⟨S800000x128, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S1, .i32⟩
  | 103 => ⟨S_, .i32⟩
  | 104 => ⟨S800000x1, .i32⟩
  | 105 => ⟨S800000x1, .i1⟩
  | 106 => ⟨S1x1, .i32⟩
  | 107 => ⟨S800000x1, .i32⟩
  | 108 => ⟨S800000x1, .i1⟩
  | 109 => ⟨S800000x1, .i1⟩
  | 110 => ⟨S_, .i1⟩
  | 111 => ⟨S800000, .i1⟩
  | 112 => ⟨S800000x128, .f32⟩
  | 113 => ⟨S800000x128, .i1⟩
  | 114 => ⟨S_, .f32⟩
  | 115 => ⟨S800000x128, .f32⟩
  | 116 => ⟨S800000x128, .f32⟩
  | 117 => ⟨S128x128, .f32⟩
  | 118 => ⟨S128x128, .f32⟩
  | 119 => ⟨S1x128, .f32⟩
  | 120 => ⟨S1x1, .f32⟩
  | 121 => ⟨S800000x128, .f32⟩
  | 122 => ⟨S_, .f32⟩
  | 123 => ⟨S50000x128, .f32⟩
  | 124 => ⟨S800000x1, .i32⟩
  | 125 => ⟨S50000x128, .f32⟩
  | 126 => ⟨S_, .f32⟩
  | 127 => ⟨S800000x1, .f32⟩
  | _ => ⟨S_, .f32⟩

abbrev hbmTy0_1 (i : Nat) : BufTy := match i % 128 with
  | 0 => ⟨S_, .f32⟩
  | 1 => ⟨S50000x1, .f32⟩
  | 2 => ⟨S800000x1, .i32⟩
  | 3 => ⟨S50000x1, .f32⟩
  | 4 => ⟨S50000x128, .f32⟩
  | _ => ⟨S_, .f32⟩

abbrev hbmTy (i : Nat) : BufTy := match i / 128 with
  | 0 => hbmTy0_0 i
  | 1 => hbmTy0_1 i
  | _ => ⟨S_, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S128x128, .f32⟩
  | .local _ .vmem, ⟨12, _⟩ => ⟨S1x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S128x128, .f32⟩
  | .local _ .vmem, ⟨24, _⟩ => ⟨S128x128, .f32⟩
  | .local _ .vmem, ⟨25, _⟩ => ⟨S1x128, .f32⟩
  | .local _ .vmem, ⟨26, _⟩ => ⟨S128x1, .f32⟩
  | .local _ .vmem, ⟨27, _⟩ => ⟨S1x1, .f32⟩
  | .local _ .vmem, ⟨28, _⟩ => ⟨S4000x128, .f32⟩
  | .local _ .vmem, ⟨29, _⟩ => ⟨S4000x128, .f32⟩
  | .local _ .vmem, ⟨30, _⟩ => ⟨S5000x128, .f32⟩
  | .local _ .vmem, ⟨31, _⟩ => ⟨S5000x128, .f32⟩
  | .local _ .vmem, ⟨32, _⟩ => ⟨S5000x1, .f32⟩
  | .local _ .vmem, ⟨33, _⟩ => ⟨S5000x1, .f32⟩
  | .local _ .vmem, ⟨34, _⟩ => ⟨S5000x128, .f32⟩
  | .local _ .vmem, ⟨35, _⟩ => ⟨S5000x128, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v5 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_cst : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_call2_c : Ref sig .tc := ⟨.hbm, 71, rfl⟩
abbrev main_call2_v0 : Ref sig .tc := ⟨.hbm, 72, rfl⟩
abbrev main_call2_v1 : Ref sig .tc := ⟨.hbm, 73, rfl⟩
abbrev main_call2_c_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_c_1 : Ref sig .tc := ⟨.hbm, 79, rfl⟩
abbrev main_call2_c_2 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_c_3 : Ref sig .tc := ⟨.hbm, 87, rfl⟩
abbrev main_call2_v12 : Ref sig .tc := ⟨.hbm, 88, rfl⟩
abbrev main_call2_v13 : Ref sig .tc := ⟨.hbm, 89, rfl⟩
abbrev main_call2_v14 : Ref sig .tc := ⟨.hbm, 90, rfl⟩
abbrev main_call2_cst : Ref sig .tc := ⟨.hbm, 91, rfl⟩
abbrev main_call2_v15 : Ref sig .tc := ⟨.hbm, 92, rfl⟩
abbrev main_v15 : Ref sig .tc := ⟨.hbm, 93, rfl⟩
abbrev main_call3_c : Ref sig .tc := ⟨.hbm, 94, rfl⟩
abbrev main_call3_v0 : Ref sig .tc := ⟨.hbm, 95, rfl⟩
abbrev main_call3_v1 : Ref sig .tc := ⟨.hbm, 96, rfl⟩
abbrev main_call3_c_0 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_v5 : Ref sig .tc := ⟨.hbm, 101, rfl⟩
abbrev main_call3_c_1 : Ref sig .tc := ⟨.hbm, 102, rfl⟩
abbrev main_call3_c_2 : Ref sig .tc := ⟨.hbm, 103, rfl⟩
abbrev main_call3_v6 : Ref sig .tc := ⟨.hbm, 104, rfl⟩
abbrev main_call3_v7 : Ref sig .tc := ⟨.hbm, 105, rfl⟩
abbrev main_call3_v8 : Ref sig .tc := ⟨.hbm, 106, rfl⟩
abbrev main_call3_v9 : Ref sig .tc := ⟨.hbm, 107, rfl⟩
abbrev main_call3_v10 : Ref sig .tc := ⟨.hbm, 108, rfl⟩
abbrev main_call3_v11 : Ref sig .tc := ⟨.hbm, 109, rfl⟩
abbrev main_call3_c_3 : Ref sig .tc := ⟨.hbm, 110, rfl⟩
abbrev main_call3_v12 : Ref sig .tc := ⟨.hbm, 111, rfl⟩
abbrev main_call3_v13 : Ref sig .tc := ⟨.hbm, 112, rfl⟩
abbrev main_call3_v14 : Ref sig .tc := ⟨.hbm, 113, rfl⟩
abbrev main_call3_cst : Ref sig .tc := ⟨.hbm, 114, rfl⟩
abbrev main_call3_v15 : Ref sig .tc := ⟨.hbm, 115, rfl⟩
abbrev main_v16 : Ref sig .tc := ⟨.hbm, 116, rfl⟩
abbrev main_v17 : Ref sig .tc := ⟨.hbm, 117, rfl⟩
abbrev main_v18 : Ref sig .tc := ⟨.hbm, 118, rfl⟩
abbrev main_v19 : Ref sig .tc := ⟨.hbm, 119, rfl⟩
abbrev main_v20 : Ref sig .tc := ⟨.hbm, 120, rfl⟩
abbrev main_v21 : Ref sig .tc := ⟨.hbm, 121, rfl⟩
abbrev main_cst_0 : Ref sig .tc := ⟨.hbm, 122, rfl⟩
abbrev main_v22 : Ref sig .tc := ⟨.hbm, 123, rfl⟩
abbrev main_v23 : Ref sig .tc := ⟨.hbm, 124, rfl⟩
abbrev main_v24 : Ref sig .tc := ⟨.hbm, 125, rfl⟩
abbrev main_cst_1 : Ref sig .tc := ⟨.hbm, 126, rfl⟩
abbrev main_v25 : Ref sig .tc := ⟨.hbm, 127, rfl⟩
abbrev main_cst_2 : Ref sig .tc := ⟨.hbm, 128, rfl⟩
abbrev main_v26 : Ref sig .tc := ⟨.hbm, 129, rfl⟩
abbrev main_v27 : Ref sig .tc := ⟨.hbm, 130, rfl⟩
abbrev main_v28 : Ref sig .tc := ⟨.hbm, 131, rfl⟩
abbrev main_v29 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg7_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg9_0 : Ref sig .tc := ⟨.vmem, 28, rfl⟩
abbrev cc2_stg9_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28
abbrev cc2_sem9_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S4000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x128_S5000x128_0_0 : ∀ a, (![0, 0] : Fin 2 → Nat) a + S5000x128.size a ≤ S5000x128.size a
  h_S5000x128 : 0 < S5000x128.numel
  reduces_S5000x128_S5000 : S5000x128.Reduces [1] S5000
  shapeCasts_S5000_S5000x1 : S5000.ShapeCasts S5000x1
  broadcasts_S5000x1_S5000x128 : S5000x1.Broadcasts S5000x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  slices_S256x128_S128x128_0_0 : S256x128.Slices ![0, 0] S128x128
  slices_S256x128_S128x128_128_0 : S256x128.Slices ![128, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S50000x128 : S_.BroadcastsInDim S50000x128 (![] : Fin 0 → Fin S50000x128.rank)
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  reduces_S4000x128_S4000 : S4000x128.Reduces [1] S4000
  shapeCasts_S4000_S4000x1 : S4000.ShapeCasts S4000x1
  broadcasts_S4000x1_S4000x128 : S4000x1.Broadcasts S4000x128
  bcast_S_S50000x1 : S_.BroadcastsInDim S50000x1 (![] : Fin 0 → Fin S50000x1.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  gather_S50000x128_S800000x1_S800000x128_1_0_n_n_0_1_1128_wf : GatherDims.WF S50000x128 S800000x1 S800000x128 [1] [0] [] [0] [] 1 ![1, 128]
  dot_S4000x128_S128x128_S4000x128_1_0_0_1_n_n_wf : DotDims.WF S4000x128 S128x128 S4000x128 [1] [0] [0] [1] [] []
  scatter_S50000x128_S800000x1_S800000x128_1_0_0_1_wf : ScatterDims.WF S50000x128 S800000x1 S800000x128 [1] [0] [0] 1
  dot_S4000x128_S128x1_S4000x1_1_0_0_1_n_n_wf : DotDims.WF S4000x128 S128x1 S4000x1 [1] [0] [0] [1] [] []
  scatter_S50000x1_S800000x1_S800000x1_1_0_0_1_wf : ScatterDims.WF S50000x1 S800000x1 S800000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S800000x128.size a
  hwx1_0 : ∀ i : grid1.Coords, EltTy.bits .f32 = 32 ∨ (Rect.block (s := S800000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S800000x128.size a
  hwx1_1 : ∀ i : grid1.Coords, EltTy.bits .f32 = 32 ∨ (Rect.block (s := S800000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S800000x128.size a
  hwx1_7 : ∀ i : grid1.Coords, EltTy.bits .f32 = 32 ∨ (Rect.block (s := S800000x128) S4000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S800000x128.size a
  hwx2_0 : ∀ i : grid2.Coords, EltTy.bits .f32 = 32 ∨ (Rect.block (s := S800000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S800000x128.size a
  hwx2_1 : ∀ i : grid2.Coords, EltTy.bits .f32 = 32 ∨ (Rect.block (s := S800000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S800000x128.size a
  hwx2_2 : ∀ i : grid2.Coords, EltTy.bits .f32 = 32 ∨ (Rect.block (s := S800000x128) S4000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S800000x128.size a
  hwx2_3 : ∀ i : grid2.Coords, EltTy.bits .f32 = 32 ∨ (Rect.block (s := S800000x128) S4000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x1.size a ≤ S128x1.size a
  hwx2_7 : ∀ i : grid2.Coords, EltTy.bits .f32 = 32 ∨ (Rect.block (s := S128x1) S128x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S4000x128.size a ≤ S800000x128.size a
  hwx2_9 : ∀ i : grid2.Coords, EltTy.bits .f32 = 32 ∨ (Rect.block (s := S800000x128) S4000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v5) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v11) S4000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v15) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v6) S4000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v17) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v18) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v19) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg9) S128x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v20) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v21) S4000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v24) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v29) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S_ : Shape := ⟨0, ![]⟩
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S50000 : Shape := ⟨1, ![50000]⟩
abbrev S50000x1 : Shape := ⟨2, ![50000, 1]⟩
abbrev S800000x1 : Shape := ⟨2, ![800000, 1]⟩
abbrev S800000x128 : Shape := ⟨2, ![800000, 128]⟩
abbrev S800000x256 : Shape := ⟨2, ![800000, 256]⟩
abbrev S1x128 : Shape := ⟨2, ![1, 128]⟩
abbrev S1x1 : Shape := ⟨2, ![1, 1]⟩

abbrev nBuf : Space → Nat
  | .hbm => 126
  | .vmem => 0
  | .smem => 0
  | _ => 0

abbrev bufTy : (tb : Table) → Fin (tcTables nBuf tb) → BufTy
  | .hbm, ⟨0, _⟩ => ⟨S_, .f32⟩
  | .hbm, ⟨1, _⟩ => ⟨S50000x128, .f32⟩
  | .hbm, ⟨2, _⟩ => ⟨S2x800000, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S50000x128, .f32⟩
  | .hbm, ⟨16, _⟩ => ⟨S_, .f32⟩
  | .hbm, ⟨17, _⟩ => ⟨S50000, .f32⟩
  | .hbm, ⟨18, _⟩ => ⟨S50000x1, .f32⟩
  | .hbm, ⟨19, _⟩ => ⟨S50000x1, .f32⟩
  | .hbm, ⟨20, _⟩ => ⟨S_, .f32⟩
  | .hbm, ⟨21, _⟩ => ⟨S50000x1, .f32⟩
  | .hbm, ⟨22, _⟩ => ⟨S50000x1, .f32⟩
  | .hbm, ⟨23, _⟩ => ⟨S50000x128, .f32⟩
  | .hbm, ⟨24, _⟩ => ⟨S50000x128, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S800000x256, .f32⟩
  | .hbm, ⟨44, _⟩ => ⟨S800000x128, .f32⟩
  | .hbm, ⟨45, _⟩ => ⟨S1x128, .f32⟩
  | .hbm, ⟨46, _⟩ => ⟨S800000x128, .f32⟩
  | .hbm, ⟨47, _⟩ => ⟨S800000x128, .f32⟩
  | .hbm, ⟨48, _⟩ => ⟨S_, .f32⟩
  | .hbm, ⟨49, _⟩ => ⟨S800000x128, .f32⟩
  | .hbm, ⟨50, _⟩ => ⟨S800000x128, .f32⟩
  | .hbm, ⟨51, _⟩ => ⟨S800000x128, .f32⟩
  | .hbm, ⟨52, _⟩ => ⟨S1x128, .f32⟩
  | .hbm, ⟨53, _⟩ => ⟨S800000x128, .f32⟩
  | .hbm, ⟨54, _⟩ => ⟨S800000x128, .f32⟩
  | .hbm, ⟨55, _⟩ => ⟨S_, .f32⟩
  | .hbm, ⟨56, _⟩ => ⟨S800000x128, .f32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x128, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S800000x128, .f32⟩
  | .hbm, ⟨80, _⟩ => ⟨S800000x256, .f32⟩
  | .hbm, ⟨81, _⟩ => ⟨S800000x128, .f32⟩
  | .hbm, ⟨82, _⟩ => ⟨S1x128, .f32⟩
  | .hbm, ⟨83, _⟩ => ⟨S800000x128, .f32⟩
  | .hbm, ⟨84, _⟩ => ⟨S800000x128, .f32⟩
  | .hbm, ⟨85, _⟩ => ⟨S_, .f32⟩
  | .hbm, ⟨86, _⟩ => ⟨S800000x128, .f32⟩
  | .hbm, ⟨87, _⟩ => ⟨S800000x128, .f32⟩
  | .hbm, ⟨88, _⟩ => ⟨S800000x1, .f32⟩
  | .hbm, ⟨89, _⟩ => ⟨S1x1, .f32⟩
  | .hbm, ⟨90, _⟩ => ⟨S800000x1, .f32⟩
  | .hbm, ⟨91, _⟩ => ⟨S800000x1, .f32⟩
  | .hbm, ⟨92, _⟩ => ⟨S800000x128, .f32⟩
  | .hbm, ⟨93, _⟩ => ⟨S_, .f32⟩
  | .hbm, ⟨94, _⟩ => ⟨S800000, .f32⟩
  | .hbm, ⟨95, _⟩ => ⟨S800000x1, .f32⟩
  | .hbm, ⟨96, _⟩ => ⟨S800000x128, .f32⟩
  | .hbm, ⟨97, _⟩ => ⟨S800000x128, .f32⟩
  | .hbm, ⟨98, _⟩ => ⟨S800000x128, .f32⟩
  | .hbm, ⟨99, _⟩ => ⟨S800000x128, .f32⟩
  | .hbm, ⟨100, _⟩ => ⟨S800000x128, .f32⟩
  | .hbm, ⟨101, _⟩ => ⟨S_, .f32⟩
  | .hbm, ⟨102, _⟩ => ⟨S50000x128, .f32⟩
  | .hbm, ⟨103, _⟩ => ⟨S800000x1, .i32⟩
  | .hbm, ⟨104, _⟩ => ⟨S50000x128, .f32⟩
  | .hbm, ⟨105, _⟩ => ⟨S_, .f32⟩
  | .hbm, ⟨106, _⟩ => ⟨S800000x1, .f32⟩
  | .hbm, ⟨107, _⟩ => ⟨S_, .f32⟩
  | .hbm, ⟨108, _⟩ => ⟨S50000x1, .f32⟩
  | .hbm, ⟨109, _⟩ => ⟨S800000x1, .i32⟩
  | .hbm, ⟨110, _⟩ => ⟨S50000x1, .f32⟩
  | .hbm, ⟨111, _⟩ => ⟨S_, .f32⟩
  | .hbm, ⟨112, _⟩ => ⟨S50000x1, .f32⟩
  | .hbm, ⟨113, _⟩ => ⟨S50000x1, .f32⟩
  | .hbm, ⟨114, _⟩ => ⟨S50000x128, .f32⟩
  | .hbm, ⟨115, _⟩ => ⟨S50000x128, .f32⟩
  | .hbm, ⟨116, _⟩ => ⟨S50000x128, .f32⟩
  | .hbm, ⟨117, _⟩ => ⟨S_, .f32⟩
  | .hbm, ⟨118, _⟩ => ⟨S50000, .f32⟩
  | .hbm, ⟨119, _⟩ => ⟨S50000x1, .f32⟩
  | .hbm, ⟨120, _⟩ => ⟨S50000x1, .f32⟩
  | .hbm, ⟨121, _⟩ => ⟨S_, .f32⟩
  | .hbm, ⟨122, _⟩ => ⟨S50000x1, .f32⟩
  | .hbm, ⟨123, _⟩ => ⟨S50000x1, .f32⟩
  | .hbm, ⟨124, _⟩ => ⟨S50000x128, .f32⟩
  | .hbm, ⟨125, _⟩ => ⟨S50000x128, .f32⟩
  | _, _ => ⟨S_, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_call0_v2 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_1 : Ref sig .tc := ⟨.hbm, 34, rfl⟩
abbrev main_v16 : Ref sig .tc := ⟨.hbm, 35, rfl⟩
abbrev main_v17 : Ref sig .tc := ⟨.hbm, 36, rfl⟩
abbrev main_c_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call1_cst : Ref sig .tc := ⟨.hbm, 48, rfl⟩
abbrev main_call1_v0 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call2_cst : Ref sig .tc := ⟨.hbm, 55, rfl⟩
abbrev main_call2_v0 : Ref sig .tc := ⟨.hbm, 56, rfl⟩
abbrev main_v33 : Ref sig .tc := ⟨.hbm, 57, rfl⟩
abbrev main_cst_3 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_4 : Ref sig .tc := ⟨.hbm, 62, rfl⟩
abbrev main_v37 : Ref sig .tc := ⟨.hbm, 63, rfl⟩
abbrev main_v38 : Ref sig .tc := ⟨.hbm, 64, rfl⟩
abbrev main_c_5 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_6 : Ref sig .tc := ⟨.hbm, 71, rfl⟩
abbrev main_v44 : Ref sig .tc := ⟨.hbm, 72, rfl⟩
abbrev main_v45 : Ref sig .tc := ⟨.hbm, 73, rfl⟩
abbrev main_c_7 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_call3_cst : Ref sig .tc := ⟨.hbm, 85, rfl⟩
abbrev main_call3_v0 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_8 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_9 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_10 : Ref sig .tc := ⟨.hbm, 105, rfl⟩
abbrev main_v72 : Ref sig .tc := ⟨.hbm, 106, rfl⟩
abbrev main_cst_11 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_12 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_call4_v0 : Ref sig .tc := ⟨.hbm, 116, rfl⟩
abbrev main_call4_cst : Ref sig .tc := ⟨.hbm, 117, rfl⟩
abbrev main_call4_v1 : Ref sig .tc := ⟨.hbm, 118, rfl⟩
abbrev main_call4_v2 : Ref sig .tc := ⟨.hbm, 119, rfl⟩
abbrev main_v80 : Ref sig .tc := ⟨.hbm, 120, rfl⟩
abbrev main_cst_13 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x128_S800000_d1 : S800000x128.ReducesTo [1] S800000
  bcast_S800000x1_S800000x128_0_1 : S800000x1.BroadcastsInDim S800000x128 (![0, 1] : Fin 2 → Fin S800000x128.rank)
  bcast_S_S800000x1 : S_.BroadcastsInDim S800000x1 (![] : Fin 0 → Fin S800000x1.rank)
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S800000x128_S128x1_S800000x1_1_0_0_1_n_n_wf : DotDims.WF S800000x128 S128x1 S800000x1 [1] [0] [0] [1] [] []
  scatter_S50000x1_S800000x1_S800000x1_1_0_0_1_wf : ScatterDims.WF S50000x1 S800000x1 S800000x1 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

class Facts : Prop extends Facts₀ where

variable [Facts]
-- ==== Proof.RefRun1.lean ====
/-
  The reference program as a list of operations, cut into seven stretches in program order (a cut stands before each
  concatenate): @main is the line of the seven stretches one after the other; every operation touches TensorCore
  references only and determines its results.
-/
import proofs.«420050_j76647986365056_1_alg».proof.Proof.Gen.ReferenceIdeal
import Idealize.ShloMosaic.Lib.StableHlo.Run

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- Stretch 1 of @main: operations 1 … 14 in program order. -/
def s1 : List (HloOp τ sig (Elt F)) :=
  [ unary main_arg2 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg2 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    TRef.binary (TRef.of (T := ⟨S50000x128, .f32⟩) main_arg1) (TRef.of (T := ⟨S50000x128, .f32⟩) main_arg1) (TRef.of (T := ⟨S50000x128, .f32⟩) main_call0_v0) mulf,
    TRef.nullary (TRef.of (T := ⟨S_, .f32⟩) main_call0_cst) (constant S_ .f32 0x00000000#32),
    TRef.binary (TRef.of (T := ⟨S50000x128, .f32⟩) main_call0_v0) (TRef.of (T := ⟨S_, .f32⟩) main_call0_cst) (TRef.of (T := ⟨S50000, .f32⟩) main_call0_v1) (fun x v => Host.reduceAdd x v reducesTo_S50000x128_S50000_d1 h_S_),
    TRef.unary (TRef.of (T := ⟨S50000, .f32⟩) main_call0_v1) (TRef.of (T := ⟨S50000x1, .f32⟩) main_call0_v2) (broadcastInDim S50000x1 ![0] bcast_S50000_S50000x1_0),
    TRef.unary (TRef.of (T := ⟨S50000x1, .f32⟩) main_call0_v2) (TRef.of (T := ⟨S50000x1, .f32⟩) main_v4) Host.sqrt,
    nullary main_cst (constant S_ .f32 0x322BCC77#32),
    unary main_cst main_v5 (broadcastInDim S50000x1 ![] bcast_S_S50000x1 : (⟨S_, .f32⟩ : BufTy).Contents (Elt F) → (⟨S50000x1, .f32⟩ : BufTy).Contents (Elt F)),
    binary main_v4 main_v5 main_v6 (addf : (⟨S50000x1, .f32⟩ : BufTy).Contents (Elt F) → (⟨S50000x1, .f32⟩ : BufTy).Contents (Elt F) → (⟨S50000x1, .f32⟩ : BufTy).Contents (Elt F)),
    unary main_v6 main_v7 (broadcastInDim S50000x128 ![0, 1] bcast_S50000x1_S50000x128_0_1 : (⟨S50000x1, .f32⟩ : BufTy).Contents (Elt F) → (⟨S50000x128, .f32⟩ : BufTy).Contents (Elt F)),
    binary main_arg1 main_v7 main_v8 (Host.divf : (⟨S50000x128, .f32⟩ : BufTy).Contents (Elt F) → (⟨S50000x128, .f32⟩ : BufTy).Contents (Elt F) → (⟨S50000x128, .f32⟩ : BufTy).Contents (Elt F)) ]
theorem s1_sub : (s1 (F := F)).Forall fun op => op.bufs ⊆ tcRefs τ sig :=
  ⟨unary_bufs_sub .., reshape_bufs_sub .., unary_bufs_sub .., reshape_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
theorem s1_fresh : (s1 (F := F)).Forall fun op => op.fresh = ∅ :=
  ⟨rfl, rfl, rfl, rfl, rfl, rfl, rfl, rfl, rfl, rfl, rfl, rfl, rfl, rfl⟩

/-- Stretch 2 of @main: operations 15 … 32 in program order. -/
def s2 : List (HloOp τ sig (Elt F)) :=
  [ nullary main_c (constantI S_ 32 0#32),
    unary main_c main_v9 (broadcastInDim S800000 ![] bcast_S_S800000 : (⟨S_, .i32⟩ : BufTy).Contents (Elt F) → (⟨S800000, .i32⟩ : BufTy).Contents (Elt F)),
    binary main_v1 main_v9 main_v10 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v11 (broadcastInDim S800000 ![] bcast_S_S800000 : (⟨S_, .i32⟩ : BufTy).Contents (Elt F) → (⟨S800000, .i32⟩ : BufTy).Contents (Elt F)),
    binary main_v1 main_v11 main_v12 (addi : (⟨S800000, .i32⟩ : BufTy).Contents (Elt F) → (⟨S800000, .i32⟩ : BufTy).Contents (Elt F) → (⟨S800000, .i32⟩ : BufTy).Contents (Elt F)),
    ternary main_v10 main_v12 main_v1 main_v13 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v13 main_v14 (broadcastInDim S800000x1 ![0] bcast_S800000_S800000x1_0 : (⟨S800000, .i32⟩ : BufTy).Contents (Elt F) → (⟨S800000x1, .i32⟩ : BufTy).Contents (Elt F)),
    binary main_v8 main_v14 main_v15 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_1 (constantI S_ 32 0#32),
    unary main_c_1 main_v16 (broadcastInDim S800000 ![] bcast_S_S800000 : (⟨S_, .i32⟩ : BufTy).Contents (Elt F) → (⟨S800000, .i32⟩ : BufTy).Contents (Elt F)),
    binary main_v3 main_v16 main_v17 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v18 (broadcastInDim S800000 ![] bcast_S_S800000 : (⟨S_, .i32⟩ : BufTy).Contents (Elt F) → (⟨S800000, .i32⟩ : BufTy).Contents (Elt F)),
    binary main_v3 main_v18 main_v19 (addi : (⟨S800000, .i32⟩ : BufTy).Contents (Elt F) → (⟨S800000, .i32⟩ : BufTy).Contents (Elt F) → (⟨S800000, .i32⟩ : BufTy).Contents (Elt F)),
    ternary main_v17 main_v19 main_v3 main_v20 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v20 main_v21 (broadcastInDim S800000x1 ![0] bcast_S800000_S800000x1_0 : (⟨S800000, .i32⟩ : BufTy).Contents (Elt F) → (⟨S800000x1, .i32⟩ : BufTy).Contents (Elt F)),
    binary main_v8 main_v21 main_v22 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ]
theorem s2_sub : (s2 (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem s2_fresh : (s2 (F := F)).Forall fun op => op.fresh = ∅ :=
  ⟨rfl, rfl, rfl, rfl, rfl, rfl, rfl, rfl, rfl, rfl, rfl, rfl, rfl, rfl, rfl, rfl, rfl, rfl⟩

/-- Stretch 3 of @main: operations 33 … 47 in program order. -/
def s3 : List (HloOp τ sig (Elt F)) :=
  [ binary main_v15 main_v22 main_v23 ((fun a b => concatenate S800000x256 1 [⟨S800000x128, a⟩, ⟨S800000x128, b⟩] concatenates_S800000x128_S800000x128_S800000x256_d1) : (⟨S800000x128, .f32⟩ : BufTy).Contents (Elt F) → (⟨S800000x128, .f32⟩ : BufTy).Contents (Elt F) → (⟨S800000x256, .f32⟩ : BufTy).Contents (Elt F)),
    binary main_v23 main_arg3 main_v24 ((fun l r => Host.dotGeneral dot_S800000x256_S256x128_S800000x128_1_0_0_1_n_n none l r) : (⟨S800000x256, .f32⟩ : BufTy).Contents (Elt F) → (⟨S256x128, .f32⟩ : BufTy).Contents (Elt F) → (⟨S800000x128, .f32⟩ : BufTy).Contents (Elt F)),
    unary main_arg4 main_v25 (broadcastInDim S1x128 ![1] bcast_S128_S1x128_1 : (⟨S128, .f32⟩ : BufTy).Contents (Elt F) → (⟨S1x128, .f32⟩ : BufTy).Contents (Elt F)),
    unary main_v25 main_v26 (broadcastInDim S800000x128 ![0, 1] bcast_S1x128_S800000x128_0_1 : (⟨S1x128, .f32⟩ : BufTy).Contents (Elt F) → (⟨S800000x128, .f32⟩ : BufTy).Contents (Elt F)),
    binary main_v24 main_v26 main_v27 (addf : (⟨S800000x128, .f32⟩ : BufTy).Contents (Elt F) → (⟨S800000x128, .f32⟩ : BufTy).Contents (Elt F) → (⟨S800000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S800000x128, .f32⟩) main_call1_v0) (broadcastInDim S800000x128 ![] bcast_S_S800000x128),
    TRef.binary (TRef.of (T := ⟨S800000x128, .f32⟩) main_v27) (TRef.of (T := ⟨S800000x128, .f32⟩) main_call1_v0) (TRef.of (T := ⟨S800000x128, .f32⟩) main_v28) maximumf,
    binary main_v28 main_arg5 main_v29 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    unary main_arg6 main_v30 (broadcastInDim S1x128 ![1] bcast_S128_S1x128_1 : (⟨S128, .f32⟩ : BufTy).Contents (Elt F) → (⟨S1x128, .f32⟩ : BufTy).Contents (Elt F)),
    unary main_v30 main_v31 (broadcastInDim S800000x128 ![0, 1] bcast_S1x128_S800000x128_0_1 : (⟨S1x128, .f32⟩ : BufTy).Contents (Elt F) → (⟨S800000x128, .f32⟩ : BufTy).Contents (Elt F)),
    binary main_v29 main_v31 main_v32 (addf : (⟨S800000x128, .f32⟩ : BufTy).Contents (Elt F) → (⟨S800000x128, .f32⟩ : BufTy).Contents (Elt F) → (⟨S800000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S800000x128, .f32⟩) main_call2_v0) (broadcastInDim S800000x128 ![] bcast_S_S800000x128),
    TRef.binary (TRef.of (T := ⟨S800000x128, .f32⟩) main_v32) (TRef.of (T := ⟨S800000x128, .f32⟩) main_call2_v0) (TRef.of (T := ⟨S800000x128, .f32⟩) main_v33) maximumf ]
theorem s3_sub : (s3 (F := F)).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩
theorem s3_fresh : (s3 (F := F)).Forall fun op => op.fresh = ∅ :=
  ⟨rfl, rfl, rfl, rfl, rfl, rfl, rfl, rfl, rfl, rfl, rfl, rfl, rfl, rfl, rfl⟩

/-- Stretch 4 of @main: operations 48 … 51 in program order. -/
def s4 : List (HloOp τ sig (Elt F)) :=
  [ nullary main_cst_3 (constant S_ .f32 0x00000000#32),
    unary main_cst_3 main_v34 (broadcastInDim S50000x128 ![] bcast_S_S50000x128 : (⟨S_, .f32⟩ : BufTy).Contents (Elt F) → (⟨S50000x128, .f32⟩ : BufTy).Contents (Elt F)),
    unary main_v1 main_v35 (broadcastInDim S800000x1 ![0] bcast_S800000_S800000x1_0 : (⟨S800000, .i32⟩ : BufTy).Contents (Elt F) → (⟨S800000x1, .i32⟩ : BufTy).Contents (Elt F)),
    ternary main_v34 main_v35 main_v33 main_v36 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]
theorem s4_sub : (s4 (F := F)).Forall fun op => op.bufs ⊆ tcRefs τ sig :=
  ⟨nullary_bufs_sub .., unary_bufs_sub .., unary_bufs_sub .., ternary_bufs_sub ..⟩
theorem s4_fresh : (s4 (F := F)).Forall fun op => op.fresh = ∅ :=
  ⟨rfl, rfl, rfl, rfl⟩

/-- Stretch 5 of @main: operations 52 … 69 in program order. -/
def s5 : List (HloOp τ sig (Elt F)) :=
  [ nullary main_c_4 (constantI S_ 32 0#32),
    unary main_c_4 main_v37 (broadcastInDim S800000 ![] bcast_S_S800000 : (⟨S_, .i32⟩ : BufTy).Contents (Elt F) → (⟨S800000, .i32⟩ : BufTy).Contents (Elt F)),
    binary main_v1 main_v37 main_v38 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v39 (broadcastInDim S800000 ![] bcast_S_S800000 : (⟨S_, .i32⟩ : BufTy).Contents (Elt F) → (⟨S800000, .i32⟩ : BufTy).Contents (Elt F)),
    binary main_v1 main_v39 main_v40 (addi : (⟨S800000, .i32⟩ : BufTy).Contents (Elt F) → (⟨S800000, .i32⟩ : BufTy).Contents (Elt F) → (⟨S800000, .i32⟩ : BufTy).Contents (Elt F)),
    ternary main_v38 main_v40 main_v1 main_v41 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v41 main_v42 (broadcastInDim S800000x1 ![0] bcast_S800000_S800000x1_0 : (⟨S800000, .i32⟩ : BufTy).Contents (Elt F) → (⟨S800000x1, .i32⟩ : BufTy).Contents (Elt F)),
    binary main_v36 main_v42 main_v43 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_c_6 (constantI S_ 32 0#32),
    unary main_c_6 main_v44 (broadcastInDim S800000 ![] bcast_S_S800000 : (⟨S_, .i32⟩ : BufTy).Contents (Elt F) → (⟨S800000, .i32⟩ : BufTy).Contents (Elt F)),
    binary main_v3 main_v44 main_v45 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v46 (broadcastInDim S800000 ![] bcast_S_S800000 : (⟨S_, .i32⟩ : BufTy).Contents (Elt F) → (⟨S800000, .i32⟩ : BufTy).Contents (Elt F)),
    binary main_v3 main_v46 main_v47 (addi : (⟨S800000, .i32⟩ : BufTy).Contents (Elt F) → (⟨S800000, .i32⟩ : BufTy).Contents (Elt F) → (⟨S800000, .i32⟩ : BufTy).Contents (Elt F)),
    ternary main_v45 main_v47 main_v3 main_v48 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v48 main_v49 (broadcastInDim S800000x1 ![0] bcast_S800000_S800000x1_0 : (⟨S800000, .i32⟩ : BufTy).Contents (Elt F) → (⟨S800000x1, .i32⟩ : BufTy).Contents (Elt F)),
    binary main_v36 main_v49 main_v50 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ]
theorem s5_sub : (s5 (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
theorem s5_fresh : (s5 (F := F)).Forall fun op => op.fresh = ∅ :=
  ⟨rfl, rfl, rfl, rfl, rfl, rfl, rfl, rfl, rfl, rfl, rfl, rfl, rfl, rfl, rfl, rfl, rfl, rfl⟩

/-- Stretch 6 of @main: operations 70 … 90 in program order. -/
def s6 : List (HloOp τ sig (Elt F)) :=
  [ binary main_v43 main_v50 main_v51 ((fun a b => concatenate S800000x256 1 [⟨S800000x128, a⟩, ⟨S800000x128, b⟩] concatenates_S800000x128_S800000x128_S800000x256_d1) : (⟨S800000x128, .f32⟩ : BufTy).Contents (Elt F) → (⟨S800000x128, .f32⟩ : BufTy).Contents (Elt F) → (⟨S800000x256, .f32⟩ : BufTy).Contents (Elt F)),
    binary main_v51 main_arg7 main_v52 ((fun l r => Host.dotGeneral dot_S800000x256_S256x128_S800000x128_1_0_0_1_n_n none l r) : (⟨S800000x256, .f32⟩ : BufTy).Contents (Elt F) → (⟨S256x128, .f32⟩ : BufTy).Contents (Elt F) → (⟨S800000x128, .f32⟩ : BufTy).Contents (Elt F)),
    unary main_arg8 main_v53 (broadcastInDim S1x128 ![1] bcast_S128_S1x128_1 : (⟨S128, .f32⟩ : BufTy).Contents (Elt F) → (⟨S1x128, .f32⟩ : BufTy).Contents (Elt F)),
    unary main_v53 main_v54 (broadcastInDim S800000x128 ![0, 1] bcast_S1x128_S800000x128_0_1 : (⟨S1x128, .f32⟩ : BufTy).Contents (Elt F) → (⟨S800000x128, .f32⟩ : BufTy).Contents (Elt F)),
    binary main_v52 main_v54 main_v55 (addf : (⟨S800000x128, .f32⟩ : BufTy).Contents (Elt F) → (⟨S800000x128, .f32⟩ : BufTy).Contents (Elt F) → (⟨S800000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S800000x128, .f32⟩) main_call3_v0) (broadcastInDim S800000x128 ![] bcast_S_S800000x128),
    TRef.binary (TRef.of (T := ⟨S800000x128, .f32⟩) main_v55) (TRef.of (T := ⟨S800000x128, .f32⟩) main_call3_v0) (TRef.of (T := ⟨S800000x128, .f32⟩) main_v56) maximumf,
    binary main_v56 main_arg9 main_v57 ((fun l r => Host.dotGeneral dot_S800000x128_S128x1_S800000x1_1_0_0_1_n_n none l r) : (⟨S800000x128, .f32⟩ : BufTy).Contents (Elt F) → (⟨S128x1, .f32⟩ : BufTy).Contents (Elt F) → (⟨S800000x1, .f32⟩ : BufTy).Contents (Elt F)),
    unary main_arg10 main_v58 (broadcastInDim S1x1 ![1] bcast_S1_S1x1_1 : (⟨S1, .f32⟩ : BufTy).Contents (Elt F) → (⟨S1x1, .f32⟩ : BufTy).Contents (Elt F)),
    unary main_v58 main_v59 (broadcastInDim S800000x1 ![0, 1] bcast_S1x1_S800000x1_0_1 : (⟨S1x1, .f32⟩ : BufTy).Contents (Elt F) → (⟨S800000x1, .f32⟩ : BufTy).Contents (Elt F)),
    binary main_v57 main_v59 main_v60 (addf : (⟨S800000x1, .f32⟩ : BufTy).Contents (Elt F) → (⟨S800000x1, .f32⟩ : BufTy).Contents (Elt F) → (⟨S800000x1, .f32⟩ : BufTy).Contents (Elt F)),
    binary main_v15 main_v22 main_v61 (mulf : (⟨S800000x128, .f32⟩ : BufTy).Contents (Elt F) → (⟨S800000x128, .f32⟩ : BufTy).Contents (Elt F) → (⟨S800000x128, .f32⟩ : BufTy).Contents (Elt F)),
    nullary main_cst_8 (constant S_ .f32 0x00000000#32),
    binary main_v61 main_cst_8 main_v62 ((fun x v => Host.reduceAdd x v reducesTo_S800000x128_S800000_d1 h_S_) : (⟨S800000x128, .f32⟩ : BufTy).Contents (Elt F) → (⟨S_, .f32⟩ : BufTy).Contents (Elt F) → (⟨S800000, .f32⟩ : BufTy).Contents (Elt F)),
    unary main_v62 main_v63 (broadcastInDim S800000x1 ![0] bcast_S800000_S800000x1_0 : (⟨S800000, .f32⟩ : BufTy).Contents (Elt F) → (⟨S800000x1, .f32⟩ : BufTy).Contents (Elt F)),
    unary main_v63 main_v64 (broadcastInDim S800000x128 ![0, 1] bcast_S800000x1_S800000x128_0_1 : (⟨S800000x1, .f32⟩ : BufTy).Contents (Elt F) → (⟨S800000x128, .f32⟩ : BufTy).Contents (Elt F)),
    binary main_v64 main_v15 main_v65 (mulf : (⟨S800000x128, .f32⟩ : BufTy).Contents (Elt F) → (⟨S800000x128, .f32⟩ : BufTy).Contents (Elt F) → (⟨S800000x128, .f32⟩ : BufTy).Contents (Elt F)),
    binary main_v22 main_v65 main_v66 (subf : (⟨S800000x128, .f32⟩ : BufTy).Contents (Elt F) → (⟨S800000x128, .f32⟩ : BufTy).Contents (Elt F) → (⟨S800000x128, .f32⟩ : BufTy).Contents (Elt F)),
    unary main_v60 main_v67 (broadcastInDim S800000x128 ![0, 1] bcast_S800000x1_S800000x128_0_1 : (⟨S800000x1, .f32⟩ : BufTy).Contents (Elt F) → (⟨S800000x128, .f32⟩ : BufTy).Contents (Elt F)),
    binary main_v67 main_v66 main_v68 (mulf : (⟨S800000x128, .f32⟩ : BufTy).Contents (Elt F) → (⟨S800000x128, .f32⟩ : BufTy).Contents (Elt F) → (⟨S800000x128, .f32⟩ : BufTy).Contents (Elt F)) ]
theorem s6_sub : (s6 (F := F)).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., nullary_bufs_sub .., binary_bufs_sub .., unary_bufs_sub .., unary_bufs_sub .., binary_bufs_sub .., binary_bufs_sub .., unary_bufs_sub .., binary_bufs_sub ..⟩
theorem s6_fresh : (s6 (F := F)).Forall fun op => op.fresh = ∅ :=
  ⟨rfl, rfl, rfl, rfl, rfl, rfl, rfl, rfl, rfl, rfl, rfl, rfl, rfl, rfl, rfl, rfl, rfl, rfl, rfl, rfl, rfl⟩

/-- Stretch 7 of @main: operations 91 … 115 in program order. -/
def s7 : List (HloOp τ sig (Elt F)) :=
  [ nullary main_cst_9 (constant S_ .f32 0x00000000#32),
    unary main_cst_9 main_v69 (broadcastInDim S50000x128 ![] bcast_S_S50000x128 : (⟨S_, .f32⟩ : BufTy).Contents (Elt F) → (⟨S50000x128, .f32⟩ : BufTy).Contents (Elt F)),
    unary main_v1 main_v70 (broadcastInDim S800000x1 ![0] bcast_S800000_S800000x1_0 : (⟨S800000, .i32⟩ : BufTy).Contents (Elt F) → (⟨S800000x1, .i32⟩ : BufTy).Contents (Elt F)),
    ternary main_v69 main_v70 main_v68 main_v71 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_10 (constant S_ .f32 0x3F800000#32),
    unary main_cst_10 main_v72 (broadcastInDim S800000x1 ![] bcast_S_S800000x1 : (⟨S_, .f32⟩ : BufTy).Contents (Elt F) → (⟨S800000x1, .f32⟩ : BufTy).Contents (Elt F)),
    nullary main_cst_11 (constant S_ .f32 0x00000000#32),
    unary main_cst_11 main_v73 (broadcastInDim S50000x1 ![] bcast_S_S50000x1 : (⟨S_, .f32⟩ : BufTy).Contents (Elt F) → (⟨S50000x1, .f32⟩ : BufTy).Contents (Elt F)),
    unary main_v1 main_v74 (broadcastInDim S800000x1 ![0] bcast_S800000_S800000x1_0 : (⟨S800000, .i32⟩ : BufTy).Contents (Elt F) → (⟨S800000x1, .i32⟩ : BufTy).Contents (Elt F)),
    ternary main_v73 main_v74 main_v72 main_v75 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    nullary main_cst_12 (constant S_ .f32 0x3F800000#32),
    unary main_cst_12 main_v76 (broadcastInDim S50000x1 ![] bcast_S_S50000x1 : (⟨S_, .f32⟩ : BufTy).Contents (Elt F) → (⟨S50000x1, .f32⟩ : BufTy).Contents (Elt F)),
    binary main_v75 main_v76 main_v77 (maximumf : (⟨S50000x1, .f32⟩ : BufTy).Contents (Elt F) → (⟨S50000x1, .f32⟩ : BufTy).Contents (Elt F) → (⟨S50000x1, .f32⟩ : BufTy).Contents (Elt F)),
    unary main_v77 main_v78 (broadcastInDim S50000x128 ![0, 1] bcast_S50000x1_S50000x128_0_1 : (⟨S50000x1, .f32⟩ : BufTy).Contents (Elt F) → (⟨S50000x128, .f32⟩ : BufTy).Contents (Elt F)),
    binary main_v71 main_v78 main_v79 (Host.divf : (⟨S50000x128, .f32⟩ : BufTy).Contents (Elt F) → (⟨S50000x128, .f32⟩ : BufTy).Contents (Elt F) → (⟨S50000x128, .f32⟩ : BufTy).Contents (Elt F)),
    TRef.binary (TRef.of (T := ⟨S50000x128, .f32⟩) main_v79) (TRef.of (T := ⟨S50000x128, .f32⟩) main_v79) (TRef.of (T := ⟨S50000x128, .f32⟩) main_call4_v0) mulf,
    TRef.nullary (TRef.of (T := ⟨S_, .f32⟩) main_call4_cst) (constant S_ .f32 0x00000000#32),
    TRef.binary (TRef.of (T := ⟨S50000x128, .f32⟩) main_call4_v0) (TRef.of (T := ⟨S_, .f32⟩) main_call4_cst) (TRef.of (T := ⟨S50000, .f32⟩) main_call4_v1) (fun x v => Host.reduceAdd x v reducesTo_S50000x128_S50000_d1 h_S_),
    TRef.unary (TRef.of (T := ⟨S50000, .f32⟩) main_call4_v1) (TRef.of (T := ⟨S50000x1, .f32⟩) main_call4_v2) (broadcastInDim S50000x1 ![0] bcast_S50000_S50000x1_0),
    TRef.unary (TRef.of (T := ⟨S50000x1, .f32⟩) main_call4_v2) (TRef.of (T := ⟨S50000x1, .f32⟩) main_v80) Host.sqrt,
    nullary main_cst_13 (constant S_ .f32 0x322BCC77#32),
    unary main_cst_13 main_v81 (broadcastInDim S50000x1 ![] bcast_S_S50000x1 : (⟨S_, .f32⟩ : BufTy).Contents (Elt F) → (⟨S50000x1, .f32⟩ : BufTy).Contents (Elt F)),
    binary main_v80 main_v81 main_v82 (addf : (⟨S50000x1, .f32⟩ : BufTy).Contents (Elt F) → (⟨S50000x1, .f32⟩ : BufTy).Contents (Elt F) → (⟨S50000x1, .f32⟩ : BufTy).Contents (Elt F)),
    unary main_v82 main_v83 (broadcastInDim S50000x128 ![0, 1] bcast_S50000x1_S50000x128_0_1 : (⟨S50000x1, .f32⟩ : BufTy).Contents (Elt F) → (⟨S50000x128, .f32⟩ : BufTy).Contents (Elt F)),
    binary main_v79 main_v83 main_v84 (Host.divf : (⟨S50000x128, .f32⟩ : BufTy).Contents (Elt F) → (⟨S50000x128, .f32⟩ : BufTy).Contents (Elt F) → (⟨S50000x128, .f32⟩ : BufTy).Contents (Elt F)) ]
theorem s7_sub : (s7 (F := F)).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
theorem s7_fresh : (s7 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

/-- @main's 115 operations: the seven stretches in order. -/
def ops : List (HloOp τ sig (Elt F)) := s1 ++ (s2 ++ (s3 ++ (s4 ++ (s5 ++ (s6 ++ s7)))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops (F := F)).Forall fun op => op.bufs ⊆ tcRefs τ sig :=
  List.forall_append.mpr ⟨s1_sub, List.forall_append.mpr ⟨s2_sub, List.forall_append.mpr ⟨s3_sub, List.forall_append.mpr ⟨s4_sub,
    List.forall_append.mpr ⟨s5_sub, List.forall_append.mpr ⟨s6_sub, s7_sub⟩⟩⟩⟩⟩⟩

theorem ops_fresh : ∀ op ∈ (ops (F := F)), op.fresh = ∅ :=
  List.forall_iff_forall_mem.mp (List.forall_append.mpr ⟨s1_fresh, List.forall_append.mpr ⟨s2_fresh, List.forall_append.mpr ⟨s3_fresh,
    List.forall_append.mpr ⟨s4_fresh, List.forall_append.mpr ⟨s5_fresh, List.forall_append.mpr ⟨s6_fresh, s7_fresh⟩⟩⟩⟩⟩⟩)

end Cert.ReferenceIdeal.RunH

end
-- ==== Proof.RefRun.lean ====
/-
  The reference program's run, stated over the stages: every weakly fair execution of @main terminates with the result
  buffer holding the last stage of the argument arrays, one operation after another, and the argument arrays unchanged.
  The operation list is cut into short stretches; across a stretch each buffer a later stretch reads holds its stage of
  the arguments, given that the buffers the stretch reads hold theirs.
-/
import proofs.«420050_j76647986365056_1_alg».proof.Proof.RefRead
import proofs.«420050_j76647986365056_1_alg».proof.Proof.RefRun1
import Idealize.ShloMosaic.Lib.StableHlo.Run
import Idealize.ShloMosaic.Lib.Pipeline.Frame

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

variable (x0 : (⟨S_, .f32⟩ : BufTy).Contents (Elt F)) (x1 : (⟨S50000x128, .f32⟩ : BufTy).Contents (Elt F)) (x2 : (⟨S2x800000, .i32⟩ : BufTy).Contents (Elt F)) (x3 : (⟨S256x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S256x128, .f32⟩ : BufTy).Contents (Elt F)) (x8 : (⟨S128, .f32⟩ : BufTy).Contents (Elt F)) (x9 : (⟨S128x1, .f32⟩ : BufTy).Contents (Elt F)) (x10 : (⟨S1, .f32⟩ : BufTy).Contents (Elt F))

/-- The eleven argument buffers hold `x0 … x10`. -/
structure Args (V : Valuation τ sig (Elt F)) : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7
  a8 : V (Proc.devRef .tc main_arg8) = x8
  a9 : V (Proc.devRef .tc main_arg9) = x9
  a10 : V (Proc.devRef .tc main_arg10) = x10

variable {x0} {x1} {x2} {x3} {x4} {x5} {x6} {x7} {x8} {x9} {x10}

set_option maxHeartbeats 4000000 in
/-- Across stretch 1: the arguments stay, and each buffer a later stretch reads holds its stage of the arguments. -/
theorem step1 (V : Valuation τ sig (Elt F)) (hA : Args x0 x1 x2 x3 x4 x5 x6 x7 x8 x9 x10 V) :
    Args x0 x1 x2 x3 x4 x5 x6 x7 x8 x9 x10 (after s1 V)
      ∧ after s1 V (Proc.devRef .tc main_v1) = ReadP.val_main_v1 (F := F) x2
      ∧ after s1 V (Proc.devRef .tc main_v3) = ReadP.val_main_v3 (F := F) x2
      ∧ after s1 V (Proc.devRef .tc main_v8) = ReadP.val_main_v8 (F := F) x1 := by
  obtain ⟨a0, a1, a2, a3, a4, a5, a6, a7, a8, a9, a10⟩ := hA
  refine ⟨⟨?_, ?_, ?_, ?_, ?_, ?_, ?_, ?_, ?_, ?_, ?_⟩, ?_, ?_, ?_⟩
  · unfold s1; after_results; exact a0
  · unfold s1; after_results; exact a1
  · unfold s1; after_results; exact a2
  · unfold s1; after_results; exact a3
  · unfold s1; after_results; exact a4
  · unfold s1; after_results; exact a5
  · unfold s1; after_results; exact a6
  · unfold s1; after_results; exact a7
  · unfold s1; after_results; exact a8
  · unfold s1; after_results; exact a9
  · unfold s1; after_results; exact a10
  · unfold s1; after_results; rw [a2]; rfl
  · unfold s1; after_results; rw [a2]; rfl
  · unfold s1; after_results; rw [a1]; rfl

set_option maxHeartbeats 4000000 in
/-- Across stretch 2: the arguments stay, and each buffer a later stretch reads holds its stage of the arguments. -/
theorem step2 (V : Valuation τ sig (Elt F)) (hA : Args x0 x1 x2 x3 x4 x5 x6 x7 x8 x9 x10 V) (h1 : V (Proc.devRef .tc main_v1) = ReadP.val_main_v1 (F := F) x2) (h3 : V (Proc.devRef .tc main_v3) = ReadP.val_main_v3 (F := F) x2) (h8 : V (Proc.devRef .tc main_v8) = ReadP.val_main_v8 (F := F) x1) :
    Args x0 x1 x2 x3 x4 x5 x6 x7 x8 x9 x10 (after s2 V)
      ∧ after s2 V (Proc.devRef .tc main_v1) = ReadP.val_main_v1 (F := F) x2
      ∧ after s2 V (Proc.devRef .tc main_v3) = ReadP.val_main_v3 (F := F) x2
      ∧ after s2 V (Proc.devRef .tc main_v15) = ReadP.val_main_v15 (F := F) x1 x2
      ∧ after s2 V (Proc.devRef .tc main_v22) = ReadP.val_main_v22 (F := F) x1 x2 := by
  obtain ⟨a0, a1, a2, a3, a4, a5, a6, a7, a8, a9, a10⟩ := hA
  refine ⟨⟨?_, ?_, ?_, ?_, ?_, ?_, ?_, ?_, ?_, ?_, ?_⟩, ?_, ?_, ?_, ?_⟩
  · unfold s2; after_results; exact a0
  · unfold s2; after_results; exact a1
  · unfold s2; after_results; exact a2
  · unfold s2; after_results; exact a3
  · unfold s2; after_results; exact a4
  · unfold s2; after_results; exact a5
  · unfold s2; after_results; exact a6
  · unfold s2; after_results; exact a7
  · unfold s2; after_results; exact a8
  · unfold s2; after_results; exact a9
  · unfold s2; after_results; exact a10
  · unfold s2; after_results; exact h1
  · unfold s2; after_results; exact h3
  · unfold s2; after_results; rw [h8, h1]; rfl
  · unfold s2; after_results; rw [h8, h3]; rfl

set_option maxHeartbeats 4000000 in
/-- Across stretch 3: the arguments stay, and each buffer a later stretch reads holds its stage of the arguments. -/
theorem step3 (V : Valuation τ sig (Elt F)) (hA : Args x0 x1 x2 x3 x4 x5 x6 x7 x8 x9 x10 V) (h1 : V (Proc.devRef .tc main_v1) = ReadP.val_main_v1 (F := F) x2) (h3 : V (Proc.devRef .tc main_v3) = ReadP.val_main_v3 (F := F) x2) (h15 : V (Proc.devRef .tc main_v15) = ReadP.val_main_v15 (F := F) x1 x2) (h22 : V (Proc.devRef .tc main_v22) = ReadP.val_main_v22 (F := F) x1 x2) :
    Args x0 x1 x2 x3 x4 x5 x6 x7 x8 x9 x10 (after s3 V)
      ∧ after s3 V (Proc.devRef .tc main_v1) = ReadP.val_main_v1 (F := F) x2
      ∧ after s3 V (Proc.devRef .tc main_v3) = ReadP.val_main_v3 (F := F) x2
      ∧ after s3 V (Proc.devRef .tc main_v15) = ReadP.val_main_v15 (F := F) x1 x2
      ∧ after s3 V (Proc.devRef .tc main_v22) = ReadP.val_main_v22 (F := F) x1 x2
      ∧ after s3 V (Proc.devRef .tc main_v33) = ReadP.val_main_v33 (F := F) x1 x2 x3 x4 x5 x6 := by
  obtain ⟨a0, a1, a2, a3, a4, a5, a6, a7, a8, a9, a10⟩ := hA
  refine ⟨⟨?_, ?_, ?_, ?_, ?_, ?_, ?_, ?_, ?_, ?_, ?_⟩, ?_, ?_, ?_, ?_, ?_⟩
  · unfold s3; after_results; exact a0
  · unfold s3; after_results; exact a1
  · unfold s3; after_results; exact a2
  · unfold s3; after_results; exact a3
  · unfold s3; after_results; exact a4
  · unfold s3; after_results; exact a5
  · unfold s3; after_results; exact a6
  · unfold s3; after_results; exact a7
  · unfold s3; after_results; exact a8
  · unfold s3; after_results; exact a9
  · unfold s3; after_results; exact a10
  · unfold s3; after_results; exact h1
  · unfold s3; after_results; exact h3
  · unfold s3; after_results; exact h15
  · unfold s3; after_results; exact h22
  · unfold s3; after_results; rw [h15, h22, a3, a4, a5, a6]; rfl

set_option maxHeartbeats 4000000 in
/-- Across stretch 4: the arguments stay, and each buffer a later stretch reads holds its stage of the arguments. -/
theorem step4 (V : Valuation τ sig (Elt F)) (hA : Args x0 x1 x2 x3 x4 x5 x6 x7 x8 x9 x10 V) (h1 : V (Proc.devRef .tc main_v1) = ReadP.val_main_v1 (F := F) x2) (h3 : V (Proc.devRef .tc main_v3) = ReadP.val_main_v3 (F := F) x2) (h15 : V (Proc.devRef .tc main_v15) = ReadP.val_main_v15 (F := F) x1 x2) (h22 : V (Proc.devRef .tc main_v22) = ReadP.val_main_v22 (F := F) x1 x2) (h33 : V (Proc.devRef .tc main_v33) = ReadP.val_main_v33 (F := F) x1 x2 x3 x4 x5 x6) :
    Args x0 x1 x2 x3 x4 x5 x6 x7 x8 x9 x10 (after s4 V)
      ∧ after s4 V (Proc.devRef .tc main_v1) = ReadP.val_main_v1 (F := F) x2
      ∧ after s4 V (Proc.devRef .tc main_v3) = ReadP.val_main_v3 (F := F) x2
      ∧ after s4 V (Proc.devRef .tc main_v15) = ReadP.val_main_v15 (F := F) x1 x2
      ∧ after s4 V (Proc.devRef .tc main_v22) = ReadP.val_main_v22 (F := F) x1 x2
      ∧ after s4 V (Proc.devRef .tc main_v36) = ReadP.val_main_v36 (F := F) x1 x2 x3 x4 x5 x6 := by
  obtain ⟨a0, a1, a2, a3, a4, a5, a6, a7, a8, a9, a10⟩ := hA
  refine ⟨⟨?_, ?_, ?_, ?_, ?_, ?_, ?_, ?_, ?_, ?_, ?_⟩, ?_, ?_, ?_, ?_, ?_⟩
  · unfold s4; after_results; exact a0
  · unfold s4; after_results; exact a1
  · unfold s4; after_results; exact a2
  · unfold s4; after_results; exact a3
  · unfold s4; after_results; exact a4
  · unfold s4; after_results; exact a5
  · unfold s4; after_results; exact a6
  · unfold s4; after_results; exact a7
  · unfold s4; after_results; exact a8
  · unfold s4; after_results; exact a9
  · unfold s4; after_results; exact a10
  · unfold s4; after_results; exact h1
  · unfold s4; after_results; exact h3
  · unfold s4; after_results; exact h15
  · unfold s4; after_results; exact h22
  · unfold s4; after_results; rw [h1, h33]; rfl

set_option maxHeartbeats 4000000 in
/-- Across stretch 5: the arguments stay, and each buffer a later stretch reads holds its stage of the arguments. -/
theorem step5 (V : Valuation τ sig (Elt F)) (hA : Args x0 x1 x2 x3 x4 x5 x6 x7 x8 x9 x10 V) (h1 : V (Proc.devRef .tc main_v1) = ReadP.val_main_v1 (F := F) x2) (h3 : V (Proc.devRef .tc main_v3) = ReadP.val_main_v3 (F := F) x2) (h15 : V (Proc.devRef .tc main_v15) = ReadP.val_main_v15 (F := F) x1 x2) (h22 : V (Proc.devRef .tc main_v22) = ReadP.val_main_v22 (F := F) x1 x2) (h36 : V (Proc.devRef .tc main_v36) = ReadP.val_main_v36 (F := F) x1 x2 x3 x4 x5 x6) :
    Args x0 x1 x2 x3 x4 x5 x6 x7 x8 x9 x10 (after s5 V)
      ∧ after s5 V (Proc.devRef .tc main_v1) = ReadP.val_main_v1 (F := F) x2
      ∧ after s5 V (Proc.devRef .tc main_v15) = ReadP.val_main_v15 (F := F) x1 x2
      ∧ after s5 V (Proc.devRef .tc main_v22) = ReadP.val_main_v22 (F := F) x1 x2
      ∧ after s5 V (Proc.devRef .tc main_v43) = ReadP.val_main_v43 (F := F) x1 x2 x3 x4 x5 x6
      ∧ after s5 V (Proc.devRef .tc main_v50) = ReadP.val_main_v50 (F := F) x1 x2 x3 x4 x5 x6 := by
  obtain ⟨a0, a1, a2, a3, a4, a5, a6, a7, a8, a9, a10⟩ := hA
  refine ⟨⟨?_, ?_, ?_, ?_, ?_, ?_, ?_, ?_, ?_, ?_, ?_⟩, ?_, ?_, ?_, ?_, ?_⟩
  · unfold s5; after_results; exact a0
  · unfold s5; after_results; exact a1
  · unfold s5; after_results; exact a2
  · unfold s5; after_results; exact a3
  · unfold s5; after_results; exact a4
  · unfold s5; after_results; exact a5
  · unfold s5; after_results; exact a6
  · unfold s5; after_results; exact a7
  · unfold s5; after_results; exact a8
  · unfold s5; after_results; exact a9
  · unfold s5; after_results; exact a10
  · unfold s5; after_results; exact h1
  · unfold s5; after_results; exact h15
  · unfold s5; after_results; exact h22
  · unfold s5; after_results; rw [h36, h1]; rfl
  · unfold s5; after_results; rw [h36, h3]; rfl

set_option maxHeartbeats 4000000 in
/-- Across stretch 6: the arguments stay, and each buffer a later stretch reads holds its stage of the arguments. -/
theorem step6 (V : Valuation τ sig (Elt F)) (hA : Args x0 x1 x2 x3 x4 x5 x6 x7 x8 x9 x10 V) (h1 : V (Proc.devRef .tc main_v1) = ReadP.val_main_v1 (F := F) x2) (h15 : V (Proc.devRef .tc main_v15) = ReadP.val_main_v15 (F := F) x1 x2) (h22 : V (Proc.devRef .tc main_v22) = ReadP.val_main_v22 (F := F) x1 x2) (h43 : V (Proc.devRef .tc main_v43) = ReadP.val_main_v43 (F := F) x1 x2 x3 x4 x5 x6) (h50 : V (Proc.devRef .tc main_v50) = ReadP.val_main_v50 (F := F) x1 x2 x3 x4 x5 x6) :
    Args x0 x1 x2 x3 x4 x5 x6 x7 x8 x9 x10 (after s6 V)
      ∧ after s6 V (Proc.devRef .tc main_v1) = ReadP.val_main_v1 (F := F) x2
      ∧ after s6 V (Proc.devRef .tc main_v68) = ReadP.val_main_v68 (F := F) x1 x2 x3 x4 x5 x6 x7 x8 x9 x10 := by
  obtain ⟨a0, a1, a2, a3, a4, a5, a6, a7, a8, a9, a10⟩ := hA
  refine ⟨⟨?_, ?_, ?_, ?_, ?_, ?_, ?_, ?_, ?_, ?_, ?_⟩, ?_, ?_⟩
  · unfold s6; after_results; exact a0
  · unfold s6; after_results; exact a1
  · unfold s6; after_results; exact a2
  · unfold s6; after_results; exact a3
  · unfold s6; after_results; exact a4
  · unfold s6; after_results; exact a5
  · unfold s6; after_results; exact a6
  · unfold s6; after_results; exact a7
  · unfold s6; after_results; exact a8
  · unfold s6; after_results; exact a9
  · unfold s6; after_results; exact a10
  · unfold s6; after_results; exact h1
  · unfold s6; after_results; rw [h43, h50, a7, a8, a9, a10, h15, h22]; rfl

set_option maxHeartbeats 4000000 in
/-- Across stretch 7: the arguments stay, and each buffer a later stretch reads holds its stage of the arguments. -/
theorem step7 (V : Valuation τ sig (Elt F)) (hA : Args x0 x1 x2 x3 x4 x5 x6 x7 x8 x9 x10 V) (h1 : V (Proc.devRef .tc main_v1) = ReadP.val_main_v1 (F := F) x2) (h68 : V (Proc.devRef .tc main_v68) = ReadP.val_main_v68 (F := F) x1 x2 x3 x4 x5 x6 x7 x8 x9 x10) :
    Args x0 x1 x2 x3 x4 x5 x6 x7 x8 x9 x10 (after s7 V)
      ∧ after s7 V (Proc.devRef .tc main_v84) = ReadP.val_main_v84 (F := F) x1 x2 x3 x4 x5 x6 x7 x8 x9 x10 := by
  obtain ⟨a0, a1, a2, a3, a4, a5, a6, a7, a8, a9, a10⟩ := hA
  refine ⟨⟨?_, ?_, ?_, ?_, ?_, ?_, ?_, ?_, ?_, ?_, ?_⟩, ?_⟩
  · unfold s7; after_results; exact a0
  · unfold s7; after_results; exact a1
  · unfold s7; after_results; exact a2
  · unfold s7; after_results; exact a3
  · unfold s7; after_results; exact a4
  · unfold s7; after_results; exact a5
  · unfold s7; after_results; exact a6
  · unfold s7; after_results; exact a7
  · unfold s7; after_results; exact a8
  · unfold s7; after_results; exact a9
  · unfold s7; after_results; exact a10
  · unfold s7; after_results; rw [h68, h1]; rfl

/-- Across the whole list: the arguments stay and the result buffer holds the last stage of the arguments. -/
theorem run_ops (V : Valuation τ sig (Elt F)) (hA : Args x0 x1 x2 x3 x4 x5 x6 x7 x8 x9 x10 V) :
    Args x0 x1 x2 x3 x4 x5 x6 x7 x8 x9 x10 (after ops V) ∧ after ops V (Proc.devRef .tc main_v84) = ReadP.val_main_v84 (F := F) x1 x2 x3 x4 x5 x6 x7 x8 x9 x10 := by
  unfold ops
  rw [after_append, after_append, after_append, after_append, after_append, after_append]
  obtain ⟨A1, h1, h3, h8⟩ := step1 V hA
  obtain ⟨A2, h1, h3, h15, h22⟩ := step2 _ A1 h1 h3 h8
  obtain ⟨A3, h1, h3, h15, h22, h33⟩ := step3 _ A2 h1 h3 h15 h22
  obtain ⟨A4, h1, h3, h15, h22, h36⟩ := step4 _ A3 h1 h3 h15 h22 h33
  obtain ⟨A5, h1, h15, h22, h43, h50⟩ := step5 _ A4 h1 h3 h15 h22 h36
  obtain ⟨A6, h1, h68⟩ := step6 _ A5 h1 h15 h22 h43 h50
  exact step7 _ A6 h1 h68

/-- On every device, from any memory with zero counters: @main terminates with the result at the last stage of the
    arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v84) = Cert.ReferenceIdeal.ReadP.val_main_v84 (F := F) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => by
      obtain ⟨⟨a0, a1, a2, a3, a4, a5, a6, a7, a8, a9, a10⟩, h84⟩ :=
        run_ops (x0 := (m ((c.tc : Thread nD τ).loc main_arg0))) (x1 := (m ((c.tc : Thread nD τ).loc main_arg1))) (x2 := (m ((c.tc : Thread nD τ).loc main_arg2))) (x3 := (m ((c.tc : Thread nD τ).loc main_arg3))) (x4 := (m ((c.tc : Thread nD τ).loc main_arg4))) (x5 := (m ((c.tc : Thread nD τ).loc main_arg5)))
          (x6 := (m ((c.tc : Thread nD τ).loc main_arg6))) (x7 := (m ((c.tc : Thread nD τ).loc main_arg7))) (x8 := (m ((c.tc : Thread nD τ).loc main_arg8))) (x9 := (m ((c.tc : Thread nD τ).loc main_arg9))) (x10 := (m ((c.tc : Thread nD τ).loc main_arg10)))
          (launchContents m c) ⟨rfl, rfl, rfl, rfl, rfl, rfl, rfl, rfl, rfl, rfl, rfl⟩
      exact ⟨(h c main_v84).trans h84, (h c main_arg0).trans a0, (h c main_arg1).trans a1, (h c main_arg2).trans a2,
        (h c main_arg3).trans a3, (h c main_arg4).trans a4, (h c main_arg5).trans a5, (h c main_arg6).trans a6,
        (h c main_arg7).trans a7, (h c main_arg8).trans a8, (h c main_arg9).trans a9, (h c main_arg10).trans a10⟩)
    (run_seq scopedRefs_eq scopedSems_eq defs main (fun _ => ops) main_eq (fun _ => ops_sub) m ρ (fun _ => ops_fresh))

end Cert.ReferenceIdeal.RunH

end
-- ==== Proof.Rows.lean ====
/-
  Curvature-damped message passing on a graph, row by row, on the extended reals.

  Every stage of the computation acts on rows of 128 numbers, one row per node or per edge:

  * `unitRow`: a row divided by its Euclidean length plus a small constant;
  * `hiddenRow`: one rectified layer over the two halves of a concatenated row,
    `max (a · Wa + b · Wb + bias) 0`, the weight of the concatenation split into its top and bottom halves;
  * `curvRow`: a second rectified layer on top of it (the pre-aggregation curvature of an edge);
  * `curvScalar`: a second layer with ONE output column and no rectification (the curvature of an edge);
  * `edgeRow`: the damped message of an edge, `curv · (hj − ⟨hi, hj⟩ · hi)`;
  * `meanUnitRow`: a summed row divided by `max count 1`, then made a unit row.

  The whole-array forms apply a row function to every row of arrays of any number of rows; a block of consecutive rows
  of the result is the same function of the same block of rows of the operands.
-/
import Idealize.ShloMosaic.PureOps.Ideal
import Idealize.ShloMosaic.PureOps.Ideal.Laws
import Idealize.ShloMosaic.Lib.ValueIdx

noncomputable section

namespace Cert.Curv

open Idealize.ShloMosaic Idealize.ShloMosaic.ValueIdx
open scoped BigOperators

/-- A row of 128 extended reals. -/
abbrev Row := Fin 128 → EReal

/-- The small constant added to a row's length: the f32 nearest 1e-8, at its exact binary value. -/
abbrev eps : EReal := Ideal.ofBits .f32 0x322BCC77#32

/-- The f32 one. -/
abbrev one : EReal := Ideal.ofBits .f32 0x3F800000#32

/-- A row divided by (its Euclidean length plus `eps`). -/
def unitRow (x : Row) : Row := fun d => Ideal.div (x d) (Ideal.sqrt (∑ k : Fin 128, x k * x k) + eps)

/-- One rectified layer over the two halves `a`, `b` of a concatenated row. -/
def hiddenRow (wa wb : Fin 128 → Fin 128 → EReal) (bias : Row) (a b : Row) : Row :=
  fun k => max (((∑ l : Fin 128, a l * wa l k) + ∑ l : Fin 128, b l * wb l k) + bias k) 0

/-- Two rectified layers: the pre-aggregation curvature row of an edge. -/
def curvRow (wa wb : Fin 128 → Fin 128 → EReal) (b1 : Row) (w2 : Fin 128 → Fin 128 → EReal) (b2 : Row) (a b : Row) : Row :=
  fun j => max ((∑ k : Fin 128, hiddenRow wa wb b1 a b k * w2 k j) + b2 j) 0

/-- A rectified layer, then one output column without rectification: the curvature of an edge. -/
def curvScalar (wa wb : Fin 128 → Fin 128 → EReal) (b1 : Row) (w2 : Fin 128 → EReal) (b2 : EReal) (a b : Row) : EReal :=
  (∑ k : Fin 128, hiddenRow wa wb b1 a b k * w2 k) + b2

/-- The damped message of an edge: its curvature times `hj − ⟨hi, hj⟩ · hi`. -/
def edgeRow (wa wb : Fin 128 → Fin 128 → EReal) (b1 : Row) (w2 : Fin 128 → EReal) (b2 : EReal) (ci cj hi hj : Row) : Row :=
  fun d => curvScalar wa wb b1 w2 b2 ci cj * (hj d - (∑ k : Fin 128, hi k * hj k) * hi d)

/-- A summed row divided by `max count 1`, then made a unit row. -/
def meanUnitRow (s : Row) (cnt : EReal) : Row := unitRow fun d => Ideal.div (s d) (max cnt one)

/-! ## Whole arrays, any number of rows -/

variable {n : Nat}

/-- Row `r` of an `n × 128` array. -/
abbrev rowOf (x : (⟨2, ![n, 128]⟩ : Shape).Idx → EReal) (r : Fin n) : Row := fun k => x (ix2 r k)

/-- A `128 × 128` array as a function of two coordinates. -/
abbrev mat (w : (⟨2, ![128, 128]⟩ : Shape).Idx → EReal) : Fin 128 → Fin 128 → EReal := fun l k => w (ix2 l k)

/-- The one row of a `1 × 128` array. -/
abbrev row1 (b : (⟨2, ![1, 128]⟩ : Shape).Idx → EReal) : Row := fun k => b (ix2 (0 : Fin 1) k)

/-- The one column of a `128 × 1` array. -/
abbrev col1 (w : (⟨2, ![128, 1]⟩ : Shape).Idx → EReal) : Fin 128 → EReal := fun k => w (ix2 k (0 : Fin 1))

/-- Every row made a unit row. -/
def unitRows (x : (⟨2, ![n, 128]⟩ : Shape).Idx → EReal) : (⟨2, ![n, 128]⟩ : Shape).Idx → EReal :=
  fun i => unitRow (rowOf x (i 0 : Fin n)) (i 1 : Fin 128)

/-- The pre-aggregation curvature of every edge. -/
def curvRows (hi hj : (⟨2, ![n, 128]⟩ : Shape).Idx → EReal) (wa wb : (⟨2, ![128, 128]⟩ : Shape).Idx → EReal)
    (b1 : (⟨2, ![1, 128]⟩ : Shape).Idx → EReal) (w2 : (⟨2, ![128, 128]⟩ : Shape).Idx → EReal)
    (b2 : (⟨2, ![1, 128]⟩ : Shape).Idx → EReal) : (⟨2, ![n, 128]⟩ : Shape).Idx → EReal :=
  fun i => curvRow (mat wa) (mat wb) (row1 b1) (mat w2) (row1 b2) (rowOf hi (i 0 : Fin n)) (rowOf hj (i 0 : Fin n)) (i 1 : Fin 128)

/-- The damped message of every edge. -/
def edgeRows (ci cj hi hj : (⟨2, ![n, 128]⟩ : Shape).Idx → EReal) (wa wb : (⟨2, ![128, 128]⟩ : Shape).Idx → EReal)
    (b1 : (⟨2, ![1, 128]⟩ : Shape).Idx → EReal) (w2 : (⟨2, ![128, 1]⟩ : Shape).Idx → EReal)
    (b2 : (⟨2, ![1, 1]⟩ : Shape).Idx → EReal) : (⟨2, ![n, 128]⟩ : Shape).Idx → EReal :=
  fun i => edgeRow (mat wa) (mat wb) (row1 b1) (col1 w2) (b2 (ix2 (0 : Fin 1) (0 : Fin 1)))
    (rowOf ci (i 0 : Fin n)) (rowOf cj (i 0 : Fin n)) (rowOf hi (i 0 : Fin n)) (rowOf hj (i 0 : Fin n)) (i 1 : Fin 128)

/-- Every node's summed row divided by `max count 1` and made a unit row. -/
def meanUnitRows (s : (⟨2, ![n, 128]⟩ : Shape).Idx → EReal) (cnt : (⟨2, ![n, 1]⟩ : Shape).Idx → EReal) :
    (⟨2, ![n, 128]⟩ : Shape).Idx → EReal :=
  fun i => meanUnitRow (rowOf s (i 0 : Fin n)) (cnt (ix2 (i 0 : Fin n) (0 : Fin 1))) (i 1 : Fin 128)

theorem unitRows_apply (x : (⟨2, ![n, 128]⟩ : Shape).Idx → EReal) (r : Fin n) (d : Fin 128) :
    unitRows x (ix2 r d) = unitRow (rowOf x r) d := rfl

theorem curvRows_apply (hi hj : (⟨2, ![n, 128]⟩ : Shape).Idx → EReal) (wa wb : (⟨2, ![128, 128]⟩ : Shape).Idx → EReal)
    (b1 : (⟨2, ![1, 128]⟩ : Shape).Idx → EReal) (w2 : (⟨2, ![128, 128]⟩ : Shape).Idx → EReal)
    (b2 : (⟨2, ![1, 128]⟩ : Shape).Idx → EReal) (r : Fin n) (d : Fin 128) :
    curvRows hi hj wa wb b1 w2 b2 (ix2 r d)
      = curvRow (mat wa) (mat wb) (row1 b1) (mat w2) (row1 b2) (rowOf hi r) (rowOf hj r) d := rfl

theorem edgeRows_apply (ci cj hi hj : (⟨2, ![n, 128]⟩ : Shape).Idx → EReal) (wa wb : (⟨2, ![128, 128]⟩ : Shape).Idx → EReal)
    (b1 : (⟨2, ![1, 128]⟩ : Shape).Idx → EReal) (w2 : (⟨2, ![128, 1]⟩ : Shape).Idx → EReal)
    (b2 : (⟨2, ![1, 1]⟩ : Shape).Idx → EReal) (r : Fin n) (d : Fin 128) :
    edgeRows ci cj hi hj wa wb b1 w2 b2 (ix2 r d)
      = edgeRow (mat wa) (mat wb) (row1 b1) (col1 w2) (b2 (ix2 (0 : Fin 1) (0 : Fin 1)))
          (rowOf ci r) (rowOf cj r) (rowOf hi r) (rowOf hj r) d := rfl

theorem meanUnitRows_apply (s : (⟨2, ![n, 128]⟩ : Shape).Idx → EReal) (cnt : (⟨2, ![n, 1]⟩ : Shape).Idx → EReal)
    (r : Fin n) (d : Fin 128) :
    meanUnitRows s cnt (ix2 r d) = meanUnitRow (rowOf s r) (cnt (ix2 r (0 : Fin 1))) d := rfl

/-- A sum over the 256 positions of a concatenated row is the sum over its first half plus the sum over its second. -/
theorem sum_halves (f : Fin 256 → EReal) :
    ∑ l : Fin 256, f l = (∑ l : Fin 128, f (Fin.castAdd 128 l)) + ∑ l : Fin 128, f (Fin.natAdd 128 l) :=
  Fin.sum_univ_add (fun l : Fin (128 + 128) => f l)

end Cert.Curv

end
-- ==== Proof.LibDenseLayer.lean ====
/-
  One dense layer followed by rectification, at the ideal values.

  For a matrix `a` of `B` rows and `K` columns and a weight matrix `w` of `N` rows and `K` columns the layer is

      denseRelu a w (r, n) = max (Σ_k a (r, k) · w (n, k)) 0 ,

  i.e. `relu (a · wᵀ)`.  Row `r` of the result depends on row `r` of `a` alone, and column `n` on row `n` of `w`
  alone (`denseRelu_congr`): a block of rows of the result is the layer of that block of rows.

  Two printed spellings of it are read to this form.  Both contract ONE axis, of extent `K`, and the sum over the
  contraction index is re-indexed to `Fin K` through its one coordinate (`contraction_sum`):

  * a kernel's matrix product accumulated into the zero splat, the weight's SECOND axis contracted, then the
    maximum with the zero splat (`matmul_relu_eq`);
  * the host's `dot_general` of `a` with the TRANSPOSE of `w` (so the transpose's FIRST axis is contracted), then the
    maximum with the broadcast zero constant (`dot_transpose_relu_eq`).

  What the two need of the dimension numbers is stated as hypotheses on the operand index maps, coordinate by
  coordinate; for a literal record each is decided by unfolding.  Only `0 + x = x` is used of the arithmetic, so
  both hold at the infinities too.
-/
import Idealize.ShloMosaic.PureOps.Ideal.Laws
import Idealize.ShloMosaic.Lib.ValueIdx
import Idealize.ShloMosaic.Lib.Pipeline.Value

noncomputable section

namespace Cert.Lib

open Idealize.ShloMosaic Idealize.ShloMosaic.ValueIdx
open scoped BigOperators

/-- `relu (a · wᵀ)` on extended reals: entry `(r, n)` is `max (Σ_k a (r, k) · w (n, k)) 0`. -/
def denseRelu {B K N : Nat} (a : (⟨2, ![B, K]⟩ : Shape).Idx → EReal) (w : (⟨2, ![N, K]⟩ : Shape).Idx → EReal) :
    (⟨2, ![B, N]⟩ : Shape).Idx → EReal :=
  fun i => max (∑ k : Fin K, a (ix2 (i 0 : Fin B) k) * w (ix2 (i 1 : Fin N) k)) 0

theorem denseRelu_apply {B K N : Nat} (a : (⟨2, ![B, K]⟩ : Shape).Idx → EReal) (w : (⟨2, ![N, K]⟩ : Shape).Idx → EReal)
    (r : Fin B) (n : Fin N) : denseRelu a w (ix2 r n) = max (∑ k : Fin K, a (ix2 r k) * w (ix2 n k)) 0 := rfl

/-- An entry of the layer depends on one row of each operand: equal rows give equal entries, whatever the two
    operands' other rows (and numbers of rows) are. -/
theorem denseRelu_congr {B B' K N N' : Nat} (a : (⟨2, ![B, K]⟩ : Shape).Idx → EReal) (a' : (⟨2, ![B', K]⟩ : Shape).Idx → EReal)
    (w : (⟨2, ![N, K]⟩ : Shape).Idx → EReal) (w' : (⟨2, ![N', K]⟩ : Shape).Idx → EReal)
    (r : Fin B) (r' : Fin B') (n : Fin N) (n' : Fin N')
    (ha : ∀ k : Fin K, a (ix2 r k) = a' (ix2 r' k)) (hw : ∀ k : Fin K, w (ix2 n k) = w' (ix2 n' k)) :
    denseRelu a w (ix2 r n) = denseRelu a' w' (ix2 r' n') := by
  rw [denseRelu_apply, denseRelu_apply]
  exact congrArg (fun t => max t 0) (Finset.sum_congr rfl fun k _ => by rw [ha k, hw k])

/-- A ONE-AXIS CONTRACTION AS A SUM OVER `Fin K`: if at the result index `j` the two operands, read at the operand
    indices of the contraction position `q`, are `L` and `R` of `q`'s one coordinate, the contraction's sum is
    `Σ_k L k · R k`. -/
theorem contraction_sum {sl sr so : Shape} (d : DotDims sl sr so) (K : Nat) (hrk : d.contr.rank = 1)
    (hsz : d.contr.size ⟨0, by omega⟩ = K) (lhs : sl.Idx → EReal) (rhs : sr.Idx → EReal) (j : so.Idx) (L R : Fin K → EReal)
    (hl : ∀ q : d.contr.Idx, lhs (d.lhsIdx j q) = L ((q ⟨0, by omega⟩).cast hsz))
    (hr : ∀ q : d.contr.Idx, rhs (d.rhsIdx j q) = R ((q ⟨0, by omega⟩).cast hsz)) :
    ∑ q : d.contr.Idx, lhs (d.lhsIdx j q) * rhs (d.rhsIdx j q) = ∑ k : Fin K, L k * R k :=
  (Finset.sum_congr rfl fun q _ => by rw [hl q, hr q]; rfl).trans
    (Equiv.sum_comp (contrEquiv1 d K hrk hsz) fun k => L k * R k)

section Kernel
variable {B K N : Nat} {φ₁ φ₂ : FTy} (d : DotDims ⟨2, ![B, K]⟩ ⟨2, ![N, K]⟩ ⟨2, ![B, N]⟩)
  (hrk : d.contr.rank = 1) (hsz : d.contr.size ⟨0, by omega⟩ = K)
  (hl0 : ∀ (j : (⟨2, ![B, N]⟩ : Shape).Idx) (q : d.contr.Idx), (d.lhsIdx j q 0).val = (j 0).val)
  (hl1 : ∀ (j : (⟨2, ![B, N]⟩ : Shape).Idx) (q : d.contr.Idx), (d.lhsIdx j q 1).val = (q ⟨0, by omega⟩).val)
  (hr0 : ∀ (j : (⟨2, ![B, N]⟩ : Shape).Idx) (q : d.contr.Idx), (d.rhsIdx j q 0).val = (j 1).val)
  (hr1 : ∀ (j : (⟨2, ![B, N]⟩ : Shape).Idx) (q : d.contr.Idx), (d.rhsIdx j q 1).val = (q ⟨0, by omega⟩).val)

include hrk hsz hl0 hl1 hr0 hr1 in
/-- THE KERNEL'S LAYER: the product of `a` (rows × `K`) with `w` (columns × `K`, its second axis contracted)
    accumulated into the zero splat, then the maximum with the zero splat, is `denseRelu a w`. -/
theorem matmul_relu_eq (a : FVec Ideal ⟨2, ![B, K]⟩ φ₁) (w : FVec Ideal ⟨2, ![N, K]⟩ φ₂) :
    maximumf (matmul d none a w (constant ⟨2, ![B, N]⟩ .f32 0x00000000#32))
        (broadcast ⟨2, ![B, N]⟩ (Scalar.ofBits (F := Ideal) .f32 0x00000000#32))
      = denseRelu a w := by
  funext j
  show max (FloatOps.matmul d none a w (constant ⟨2, ![B, N]⟩ .f32 0x00000000#32) j) (Ideal.ofBits .f32 0x00000000#32) = _
  rw [Ideal.matmul_constant_zero_apply, Ideal.ofBits_zero_f32,
    contraction_sum d K hrk hsz a w j (fun k => a (ix2 (j 0 : Fin B) k)) (fun k => w (ix2 (j 1 : Fin N) k))
      (fun q => congrArg a (funext fun ax => Fin.ext (by
        match ax with
        | ⟨0, _⟩ => exact hl0 j q
        | ⟨1, _⟩ => exact hl1 j q)))
      (fun q => congrArg w (funext fun ax => Fin.ext (by
        match ax with
        | ⟨0, _⟩ => exact hr0 j q
        | ⟨1, _⟩ => exact hr1 j q)))]
  rfl

end Kernel

section Host
variable {B K N : Nat} {φ₁ φ₂ : FTy} (d : DotDims ⟨2, ![B, K]⟩ ⟨2, ![K, N]⟩ ⟨2, ![B, N]⟩)
  (hrk : d.contr.rank = 1) (hsz : d.contr.size ⟨0, by omega⟩ = K)
  (hl0 : ∀ (j : (⟨2, ![B, N]⟩ : Shape).Idx) (q : d.contr.Idx), (d.lhsIdx j q 0).val = (j 0).val)
  (hl1 : ∀ (j : (⟨2, ![B, N]⟩ : Shape).Idx) (q : d.contr.Idx), (d.lhsIdx j q 1).val = (q ⟨0, by omega⟩).val)
  (hr0 : ∀ (j : (⟨2, ![B, N]⟩ : Shape).Idx) (q : d.contr.Idx), (d.rhsIdx j q 0).val = (q ⟨0, by omega⟩).val)
  (hr1 : ∀ (j : (⟨2, ![B, N]⟩ : Shape).Idx) (q : d.contr.Idx), (d.rhsIdx j q 1).val = (j 1).val)

include hrk hsz hl0 hl1 hr0 hr1 in
/-- THE HOST'S LAYER: `dot_general` of `a` (rows × `K`) with the transpose of `w` (`K` × columns, its first axis
    contracted), then the maximum with the zero constant broadcast, is `denseRelu a w`. -/
theorem dot_transpose_relu_eq (ht : (⟨2, ![N, K]⟩ : Shape).Transposes [1, 0] ⟨2, ![K, N]⟩)
    (hb : (⟨0, ![]⟩ : Shape).BroadcastsInDim ⟨2, ![B, N]⟩ (![] : Fin 0 → Fin 2))
    (a : FVec Ideal ⟨2, ![B, K]⟩ φ₁) (w : FVec Ideal ⟨2, ![N, K]⟩ φ₂) :
    maximumf (Host.dotGeneral d none a (transpose ⟨2, ![K, N]⟩ [1, 0] w ht))
        (broadcastInDim ⟨2, ![B, N]⟩ ![] hb (constant (F := Ideal) ⟨0, ![]⟩ .f32 0x00000000#32))
      = denseRelu a w := by
  funext j
  show max (FloatOps.dotGeneral d none .single a (transpose ⟨2, ![K, N]⟩ [1, 0] w ht) j) (Ideal.ofBits .f32 0x00000000#32) = _
  rw [Ideal.dotGeneral_apply, Ideal.ofBits_zero_f32,
    contraction_sum d K hrk hsz a (transpose ⟨2, ![K, N]⟩ [1, 0] w ht) j (fun k => a (ix2 (j 0 : Fin B) k))
      (fun k => w (ix2 (j 1 : Fin N) k))
      (fun q => congrArg a (funext fun ax => Fin.ext (by
        match ax with
        | ⟨0, _⟩ => exact hl0 j q
        | ⟨1, _⟩ => exact hl1 j q)))
      (fun q => transpose_apply [1, 0] w ht (d.rhsIdx j q) (ix2 (j 1 : Fin N) ((q ⟨0, by omega⟩).cast hsz)) (fun b => by
        match b with
        | ⟨0, _⟩ => exact (hr0 j q).symm
        | ⟨1, _⟩ => exact (hr1 j q).symm))]
  rfl

end Host

end Cert.Lib

end
-- ==== Proof.Body0.lean ====
/-
  The row-normalizing kernel's body on a block of 5000 rows: every row divided by its length plus the small constant.
-/
import proofs.«420050_j76647986365056_1_alg».proof.Proof.Gen.KernelIdeal.Skeleton
import proofs.«420050_j76647986365056_1_alg».proof.Proof.Rows
import proofs.«420050_j76647986365056_1_alg».proof.Proof.LibDenseLayer
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Cert.Curv Idealize.ShloMosaic Idealize.ShloMosaic.ValueIdx
open scoped BigOperators

/-- A column `[a, 1]` broadcast to `[a, b]` reads, at `(p, c)`, the column's entry of row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`, whatever the unit coordinate. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the lanes of a `5000 × 128` block, at row `r`, is the sum of that row's 128 entries. -/
private theorem laneSum_apply (src : FVec Ideal S5000x128 .f32) (h : S5000x128.Reduces [1] S5000)
    (hφ : FKind.Formats .f32) (hacc : (0x00000000#32 : BitVec 32) = FKind.add.neutral .f32 hφ) (r : Fin 5000) :
    multiReduction .add [1] S5000 src 0x00000000#32 h hφ hacc (ix1 r) = ∑ k : Fin 128, src (ix2 r k) := by
  refine (Ideal.multiReduction_add_single src 0x00000000#32 h hφ hacc (ix1 r)).trans ?_
  show (∑ k : Fin 128, src (h.lift (ix1 r) k)) = _
  refine Finset.sum_congr rfl fun k _ => congrArg src ?_
  funext c
  refine Fin.ext ?_
  match c with
  | ⟨0, _⟩ => rfl
  | ⟨1, _⟩ => rfl

/-- The body's one stored value is the block with every row made a unit row. -/
theorem pay0_eq (x : Vec Ideal S5000x128 .f32) : k0_pay1 (F := Ideal) x = unitRows (n := 5000) x := by
  funext i
  obtain ⟨r, d, rfl⟩ : ∃ (r : Fin 5000) (d : Fin 128), i = ix2 r d := ⟨i 0, i 1, eq_ix2 i⟩
  rw [unitRows_apply]
  unfold unitRow k0_pay1
  show Ideal.div (x (ix2 r d)) (broadcastTo S5000x128 _ broadcasts_S5000x1_S5000x128 (ix2 r d)) = _
  refine congrArg (Ideal.div (x (ix2 r d))) ?_
  refine (broadcastTo_a1_ab_apply _ _ r d).trans ?_
  show Ideal.sqrt (shapeCast S5000x1 _ shapeCasts_S5000_S5000x1 (ix2 r (0 : Fin 1))) + eps = _
  refine congrArg (fun t => Ideal.sqrt t + eps) ?_
  refine (shapeCast_a_a1_apply _ _ r 0).trans ?_
  refine (laneSum_apply _ _ _ _ r).trans ?_
  rfl

end Cert.KernelIdeal.Body

end
-- ==== Proof.Region0.lean ====
/-
  The row-normalizing pallas_call over its grid of 10 blocks of 5000 rows: block `t` of the result array is the body's
  value on block `t` of the input, the blocks tile the array, and the body is row-wise — so the array after the run is
  every row of the input made a unit row.
-/
import proofs.«420050_j76647986365056_1_alg».proof.Proof.Gen.KernelIdeal.Frame
import proofs.«420050_j76647986365056_1_alg».proof.Proof.Body0
import proofs.«420050_j76647986365056_1_alg».proof.Proof.Rows
import Idealize.ShloMosaic.PureOps.Ideal
import Idealize.ShloMosaic.Lib.ValueIdx
import Idealize.ShloMosaic.Lib.Pipeline.Value

set_option maxRecDepth 16384

noncomputable section

namespace Cert.KernelIdeal.Region

open Cert.KernelIdeal Cert.KernelIdeal.Gen Cert.Curv
open Idealize.ShloMosaic Idealize.ShloMosaic.TcCoe Idealize.ShloMosaic.ValueIdx Idealize.SL.Sem

/- The TensorCore's buffer contents when the region is entered, whatever they are. -/
variable (V : (c : Dev nD) → (b : Ref sig .tc) → Buf (Elt Ideal) ((c : Thread nD τ).loc b))

/-- The offsets of an access to a whole staging buffer are zero on both axes. -/
private theorem zero_offsets : (![0, 0] : Fin 2 → Nat) = fun _ => 0 := funext fun a => by fin_cases a <;> rfl

/-- At point `t` both windows sit at block `t` of rows and at the one block of columns. -/
private theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `y` of the input block at point `t` is row `5000 t + y` of the node array. -/
private theorem block_read (c : Dev nD) (t : Fin cfg0.N) (y : Fin 5000) (k : Fin 128) (h : t.val * 5000 + y.val < 50000) :
    iblk0 V c 0 t (ix2 y k) = (V c main_arg1 : S50000x128.Idx → EReal) (ix2 ⟨t.val * 5000 + y.val, h⟩ k) := by
  obtain ⟨e0, e1, -, -⟩ := block_index t
  show (V c main_arg1 : S50000x128.Idx → EReal) (((cfg0.win 0).blk t).view.emb (ix2 y k)) = _
  congr 1
  funext a
  apply Fin.ext
  match a with
  | ⟨0, _⟩ => show win0_0.index t (0 : Fin 2) * 5000 + 1 * y.val = t.val * 5000 + y.val; rw [e0]; omega
  | ⟨1, _⟩ => show win0_0.index t (1 : Fin 2) * 128 + 1 * k.val = k.val; rw [e1]; omega

/-- What point `t` writes back is block `t` of the array of unit rows. -/
private theorem flushed_eq (c : Dev nD) (t : Fin cfg0.N) :
    (dat0 V c).flushed 1 t = ((cfg0.win 1).blk t).view.read (Elt Ideal) (unitRows (n := 50000) (V c main_arg1)) := by
  show (cfg0.win 1).cut (grid0.coords t) ((dat0 V c).after 1 t) = _
  rw [after0_1]
  unfold out0_1
  rw [View.canon_unit_zero zero_offsets]
  simp only [View.ld_unit_zero (S := S5000x128) zero_offsets]
  rw [Body.pay0_eq]
  funext y
  obtain ⟨r, d, rfl⟩ : ∃ (r : Fin 5000) (d : Fin 128), y = ix2 r d := ⟨y 0, y 1, eq_ix2 y⟩
  have ht : t.val < 10 := t.isLt
  have hr : t.val * 5000 + r.val < 50000 := by have := r.isLt; omega
  have hemb : ((cfg0.win 1).blk t).view.emb (ix2 r d) = (ix2 ⟨t.val * 5000 + r.val, hr⟩ d : S50000x128.Idx) := by
    obtain ⟨-, -, e0, e1⟩ := block_index t
    funext a
    apply Fin.ext
    match a with
    | ⟨0, _⟩ => show win0_1.index t (0 : Fin 2) * 5000 + 1 * r.val = t.val * 5000 + r.val; rw [e0]; omega
    | ⟨1, _⟩ => show win0_1.index t (1 : Fin 2) * 128 + 1 * d.val = d.val; rw [e1]; omega
  show unitRows (n := 5000) (iblk0 V c 0 t) (ix2 r d)
    = unitRows (n := 50000) (V c main_arg1) (((cfg0.win 1).blk t).view.emb (ix2 r d))
  rw [hemb, unitRows_apply, unitRows_apply]
  have hrow : rowOf (n := 5000) (iblk0 V c 0 t) r = rowOf (n := 50000) (V c main_arg1) ⟨t.val * 5000 + r.val, hr⟩ :=
    funext fun k => block_read V c t r k hr
  rw [hrow]

/-- An index of the array is in point `t`'s block iff each coordinate is in the block's range on its axis. -/
private theorem mem_blk (t : Fin cfg0.N) (i : S50000x128.Idx) :
    i ∈ ((cfg0.win 1).blk t).view.set ↔ ∀ a : Fin 2, win0_1.index t a * S5000x128.size a ≤ (i a).val ∧ (i a).val < win0_1.index t a * S5000x128.size a + S5000x128.size a := by
  show i ∈ ((View.whole main_v4).slice (win0_1.rect t)).set ↔ _
  rw [View.set_slice_whole, Rect.mem_set_unit]
  exact Iff.rfl

/-- Every row of the array lies in the block of the point `row / 5000`. -/
private theorem covered (i : S50000x128.Idx) :
    ∃ t : Fin cfg0.N, (cfg0.win 1).flush t = true ∧ i ∈ ((cfg0.win 1).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, e0, e1⟩ := block_index t
  have ht : t.val = (i 0).val / 5000 := rfl
  refine ⟨t, flush0_1 t, ?_⟩
  rw [mem_blk]
  intro a
  match a with
  | ⟨0, _⟩ => show win0_1.index t (0 : Fin 2) * 5000 ≤ (i 0).val ∧ (i 0).val < win0_1.index t (0 : Fin 2) * 5000 + 5000; rw [e0, ht]; omega
  | ⟨1, _⟩ => show win0_1.index t (1 : Fin 2) * 128 ≤ (i 1).val ∧ (i 1).val < win0_1.index t (1 : Fin 2) * 128 + 128; rw [e1]; omega

/-- The result array after the region: the entry contents of the node array, every row a unit row. -/
theorem region0 (c : Dev nD) : (dat0 V c).arrAt 1 cfg0.N = unitRows (n := 50000) (V c main_arg1) :=
  (dat0 V c).arrAt_eq_of_cover 1 (unitRows (n := 50000) (V c main_arg1)) (fun t _ => flushed_eq V c t) covered

end Cert.KernelIdeal.Region

end
-- ==== Proof.Body1.lean ====
/-
  The first curvature kernel's body on a block of 4000 edges: two rectified layers over the rows of the edges' two end
  nodes, the first layer's weight given as the top and bottom halves of the concatenated layer's.
-/
import proofs.«420050_j76647986365056_1_alg».proof.Proof.Gen.KernelIdeal.Skeleton
import proofs.«420050_j76647986365056_1_alg».proof.Proof.Rows
import proofs.«420050_j76647986365056_1_alg».proof.Proof.LibDenseLayer
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Cert.Curv Idealize.ShloMosaic Idealize.ShloMosaic.ValueIdx
open scoped BigOperators

/-! ## The product of a 4000 × 128 block with a 128 × 128 weight

The product contracts the block's second axis with the weight's first. The four facts below say which coordinate of
the result index or of the contraction position each operand coordinate is. -/

/-- The left operand's row is the result's row. -/
private theorem lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl

/-- The left operand's column is the contraction position. -/
private theorem lhs_col (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q

/-- The weight's row is the contraction position. -/
private theorem rhs_row (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q

/-- The weight's column is the result's column. -/
private theorem rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The product accumulated into the zero splat, at row `r` and column `j`: the sum over the 128 contraction positions
    of the block's row times the weight's column. -/
private theorem product_apply {φ₁ φ₂ : FTy} (x : FVec Ideal S4000x128 φ₁) (w : FVec Ideal S128x128 φ₂) (r : Fin 4000) (j : Fin 128) :
    matmul dot_S4000x128_S128x128_S4000x128_1_0_0_1_n_n none x w (constant S4000x128 .f32 0x00000000#32) (ix2 r j)
      = ∑ k : Fin 128, x (ix2 r k) * w (ix2 k j) := by
  show FloatOps.matmul dot_S4000x128_S128x128_S4000x128_1_0_0_1_n_n none x w (constant S4000x128 .f32 0x00000000#32) (ix2 r j) = _
  rw [Ideal.matmul_constant_zero_apply]
  exact Cert.Lib.contraction_sum dot_S4000x128_S128x128_S4000x128_1_0_0_1_n_n 128 rfl rfl x w (ix2 r j)
    (fun k => x (ix2 r k)) (fun k => w (ix2 k j))
    (fun q => congrArg x (funext fun a => Fin.ext (by
      match a with
      | ⟨0, _⟩ => exact lhs_row _ _
      | ⟨1, _⟩ => exact lhs_col _ _)))
    (fun q => congrArg w (funext fun a => Fin.ext (by
      match a with
      | ⟨0, _⟩ => exact rhs_row _ _
      | ⟨1, _⟩ => exact rhs_col _ _)))

/-- A bias row broadcast over the 4000 rows reads, at any row, the bias at the column. -/
private theorem bias_apply (b : FVec Ideal S1x128 .f32) (h : S1x128.Broadcasts S4000x128) (r : Fin 4000) (j : Fin 128) :
    broadcastTo S4000x128 b h (ix2 r j) = b (ix2 (0 : Fin 1) j) :=
  broadcastTo_apply b h (ix2 r j) (ix2 (0 : Fin 1) j) (fun a => by
    match a with
    | ⟨0, _⟩ => rfl
    | ⟨1, _⟩ => rfl)

/-! ## One rectified layer on a block -/

/-- A product with a weight, plus the broadcast bias row, rectified: at row `r` and column `j`. -/
private theorem layer_apply (h : FVec Ideal S4000x128 .f32) (w b : _) (hb : FTy.bits .bf16 < FTy.bits .f32)
    (hc : S1x128.ShapeCasts S1x128) (hbr : S1x128.Broadcasts S4000x128) (r : Fin 4000) (j : Fin 128) :
    maximumf (addf (matmul dot_S4000x128_S128x128_S4000x128_1_0_0_1_n_n none (truncf .bf16 h hb) (truncf (φ := .f32) .bf16 w hb)
        (constant S4000x128 .f32 0x00000000#32)) (broadcastTo S4000x128 (shapeCast S1x128 b hc) hbr))
        (broadcast S4000x128 (Scalar.ofBits (F := Ideal) .f32 0x00000000#32)) (ix2 r j)
      = max ((∑ k : Fin 128, h (ix2 r k) * w (ix2 k j)) + b (ix2 (0 : Fin 1) j)) 0 := by
  rw [shapeCast_self]
  show max (matmul dot_S4000x128_S128x128_S4000x128_1_0_0_1_n_n none (truncf .bf16 h hb) (truncf (φ := .f32) .bf16 w hb)
        (constant S4000x128 .f32 0x00000000#32) (ix2 r j) + broadcastTo S4000x128 b hbr (ix2 r j)) (Ideal.ofBits .f32 0x00000000#32) = _
  rw [product_apply, bias_apply, Ideal.ofBits_zero_f32]
  rfl

/-- The first layer, over the two end nodes' blocks and the two halves of the weight: at row `r` and column `k` it is
    the hidden row of the two rows. -/
private theorem hidden_apply (a b : FVec Ideal S4000x128 .f32) (wa wb : FVec Ideal S128x128 .f32) (bias : FVec Ideal S1x128 .f32)
    (hb : FTy.bits .bf16 < FTy.bits .f32) (h1 : S4000x128.ShapeCasts S4000x128) (h2 : S128x128.ShapeCasts S128x128)
    (hc : S1x128.ShapeCasts S1x128) (hbr : S1x128.Broadcasts S4000x128) (r : Fin 4000) (k : Fin 128) :
    maximumf (addf (addf
          (matmul dot_S4000x128_S128x128_S4000x128_1_0_0_1_n_n none (truncf .bf16 (shapeCast S4000x128 a h1) hb)
            (truncf .bf16 (shapeCast S128x128 wa h2) hb) (constant S4000x128 .f32 0x00000000#32))
          (matmul dot_S4000x128_S128x128_S4000x128_1_0_0_1_n_n none (truncf .bf16 (shapeCast S4000x128 b h1) hb)
            (truncf .bf16 (shapeCast S128x128 wb h2) hb) (constant S4000x128 .f32 0x00000000#32)))
          (broadcastTo S4000x128 (shapeCast S1x128 bias hc) hbr))
        (broadcast S4000x128 (Scalar.ofBits (F := Ideal) .f32 0x00000000#32)) (ix2 r k)
      = hiddenRow (mat wa) (mat wb) (row1 bias) (rowOf a r) (rowOf b r) k := by
  rw [shapeCast_self, shapeCast_self, shapeCast_self, shapeCast_self, shapeCast_self]
  show max ((matmul dot_S4000x128_S128x128_S4000x128_1_0_0_1_n_n none (truncf .bf16 a hb) (truncf .bf16 wa hb)
          (constant S4000x128 .f32 0x00000000#32) (ix2 r k)
        + matmul dot_S4000x128_S128x128_S4000x128_1_0_0_1_n_n none (truncf .bf16 b hb) (truncf .bf16 wb hb)
          (constant S4000x128 .f32 0x00000000#32) (ix2 r k))
        + broadcastTo S4000x128 bias hbr (ix2 r k)) (Ideal.ofBits .f32 0x00000000#32) = _
  rw [product_apply, product_apply, bias_apply, Ideal.ofBits_zero_f32]
  rfl

/-- The body's one stored value is the block of pre-aggregation curvature rows. -/
theorem pay1_eq (x0 x1 : Vec Ideal S4000x128 .f32) (x2 x3 : Vec Ideal S128x128 .f32) (x4 : Vec Ideal S1x128 .f32)
    (x5 : Vec Ideal S128x128 .f32) (x6 : Vec Ideal S1x128 .f32) :
    k1_pay1 (F := Ideal) x0 x1 x2 x3 x4 x5 x6 = curvRows (n := 4000) x0 x1 x2 x3 x4 x5 x6 := by
  funext i
  obtain ⟨r, d, rfl⟩ : ∃ (r : Fin 4000) (d : Fin 128), i = ix2 r d := ⟨i 0, i 1, eq_ix2 i⟩
  rw [curvRows_apply]
  unfold k1_pay1
  refine (layer_apply _ x5 x6 _ _ _ r d).trans ?_
  exact congrArg (fun t => max (t + x6 (ix2 (0 : Fin 1) d)) 0)
    (Finset.sum_congr rfl fun k _ => congrArg (· * x5 (ix2 k d)) (hidden_apply x0 x1 x2 x3 x4 _ _ _ _ _ r k))

end Cert.KernelIdeal.Body

end
-- ==== Proof.Region1.lean ====
/-
  The first curvature pallas_call over its grid of 200 blocks of 4000 edges: the two edge arrays move block by block with
  the result, the five weight and bias arrays are whole at every point, and the body is row-wise — so the array after
  the run is the curvature rows of all 800000 edges.
-/
import proofs.«420050_j76647986365056_1_alg».proof.Proof.Gen.KernelIdeal.Frame
import proofs.«420050_j76647986365056_1_alg».proof.Proof.Body1
import proofs.«420050_j76647986365056_1_alg».proof.Proof.Rows
import Idealize.ShloMosaic.PureOps.Ideal
import Idealize.ShloMosaic.Lib.ValueIdx
import Idealize.ShloMosaic.Lib.Pipeline.Value

set_option maxRecDepth 16384

noncomputable section

namespace Cert.KernelIdeal.Region

open Cert.KernelIdeal Cert.KernelIdeal.Gen Cert.Curv
open Idealize.ShloMosaic Idealize.ShloMosaic.TcCoe Idealize.ShloMosaic.ValueIdx Idealize.SL.Sem

/- The TensorCore's buffer contents when the region is entered, whatever they are. -/
variable (V : (c : Dev nD) → (b : Ref sig .tc) → Buf (Elt Ideal) ((c : Thread nD τ).loc b))

/-- The zero offsets of a whole-buffer access. -/
private theorem zero_off1 : (![0, 0] : Fin 2 → Nat) = fun _ => 0 := funext fun a => by fin_cases a <;> rfl

private theorem point_lt1 (t : Fin cfg1.N) : t.val < 200 := t.isLt.trans_eq N_1

/-- The printed index maps over the grid: the two edge arrays and the result move with the point along the rows,
    the weights and biases stay at block (0, 0). -/
private theorem index_maps1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `y` of the first edge array's block at point `t` is row `4000 t + y` of the array. -/
private theorem blk1_0 (c : Dev nD) (t : Fin cfg1.N) (y : Fin 4000) (k : Fin 128) :
    (iblk1 V c 0 t : Vec Ideal S4000x128 .f32) (ix2 y k)
      = (V c main_v5 : S800000x128.Idx → EReal) (ix2 ⟨t.val * 4000 + y.val, by have := point_lt1 t; omega⟩ k) := by
  obtain ⟨e0, e1, -⟩ := index_maps1 t
  show V c main_v5 (((cfg1.win 0).blk t).view.emb (ix2 y k)) = _
  congr 1
  funext a
  apply Fin.ext
  match a with
  | ⟨0, _⟩ => show win1_0.index t (0 : Fin 2) * 4000 + 1 * y.val = t.val * 4000 + y.val; omega
  | ⟨1, _⟩ => show win1_0.index t (1 : Fin 2) * 128 + 1 * k.val = k.val; omega

/-- Row `y` of the second edge array's block at point `t` is row `4000 t + y` of the array. -/
private theorem blk1_1 (c : Dev nD) (t : Fin cfg1.N) (y : Fin 4000) (k : Fin 128) :
    (iblk1 V c 1 t : Vec Ideal S4000x128 .f32) (ix2 y k)
      = (V c main_v6 : S800000x128.Idx → EReal) (ix2 ⟨t.val * 4000 + y.val, by have := point_lt1 t; omega⟩ k) := by
  obtain ⟨-, -, e0, e1, -⟩ := index_maps1 t
  show V c main_v6 (((cfg1.win 1).blk t).view.emb (ix2 y k)) = _
  congr 1
  funext a
  apply Fin.ext
  match a with
  | ⟨0, _⟩ => show win1_1.index t (0 : Fin 2) * 4000 + 1 * y.val = t.val * 4000 + y.val; omega
  | ⟨1, _⟩ => show win1_1.index t (1 : Fin 2) * 128 + 1 * k.val = k.val; omega

/-- A whole window's block at any point is its array. -/
private theorem blk1_2 (c : Dev nD) (t : Fin cfg1.N) :
    (iblk1 V c 2 t : Vec Ideal S128x128 .f32) = (V c main_v7 : S128x128.Idx → EReal) := by
  obtain ⟨-, -, -, -, e0, e1, -⟩ := index_maps1 t
  funext j
  show V c main_v7 (((cfg1.win 2).blk t).view.emb j) = _
  congr 1
  funext a
  apply Fin.ext
  match a with
  | ⟨0, _⟩ => show win1_2.index t (0 : Fin 2) * 128 + 1 * (j 0).val = (j 0).val; omega
  | ⟨1, _⟩ => show win1_2.index t (1 : Fin 2) * 128 + 1 * (j 1).val = (j 1).val; omega

private theorem blk1_3 (c : Dev nD) (t : Fin cfg1.N) :
    (iblk1 V c 3 t : Vec Ideal S128x128 .f32) = (V c main_v8 : S128x128.Idx → EReal) := by
  obtain ⟨-, -, -, -, -, -, e0, e1, -⟩ := index_maps1 t
  funext j
  show V c main_v8 (((cfg1.win 3).blk t).view.emb j) = _
  congr 1
  funext a
  apply Fin.ext
  match a with
  | ⟨0, _⟩ => show win1_3.index t (0 : Fin 2) * 128 + 1 * (j 0).val = (j 0).val; omega
  | ⟨1, _⟩ => show win1_3.index t (1 : Fin 2) * 128 + 1 * (j 1).val = (j 1).val; omega

private theorem blk1_4 (c : Dev nD) (t : Fin cfg1.N) :
    (iblk1 V c 4 t : Vec Ideal S1x128 .f32) = (V c main_v9 : S1x128.Idx → EReal) := by
  obtain ⟨-, -, -, -, -, -, -, -, e0, e1, -⟩ := index_maps1 t
  funext j
  show V c main_v9 (((cfg1.win 4).blk t).view.emb j) = _
  congr 1
  funext a
  apply Fin.ext
  match a with
  | ⟨0, _⟩ => show win1_4.index t (0 : Fin 2) * 1 + 1 * (j 0).val = (j 0).val; omega
  | ⟨1, _⟩ => show win1_4.index t (1 : Fin 2) * 128 + 1 * (j 1).val = (j 1).val; omega

private theorem blk1_5 (c : Dev nD) (t : Fin cfg1.N) :
    (iblk1 V c 5 t : Vec Ideal S128x128 .f32) = (V c main_arg5 : S128x128.Idx → EReal) := by
  obtain ⟨-, -, -, -, -, -, -, -, -, -, e0, e1, -⟩ := index_maps1 t
  funext j
  show V c main_arg5 (((cfg1.win 5).blk t).view.emb j) = _
  congr 1
  funext a
  apply Fin.ext
  match a with
  | ⟨0, _⟩ => show win1_5.index t (0 : Fin 2) * 128 + 1 * (j 0).val = (j 0).val; omega
  | ⟨1, _⟩ => show win1_5.index t (1 : Fin 2) * 128 + 1 * (j 1).val = (j 1).val; omega

private theorem blk1_6 (c : Dev nD) (t : Fin cfg1.N) :
    (iblk1 V c 6 t : Vec Ideal S1x128 .f32) = (V c main_v10 : S1x128.Idx → EReal) := by
  obtain ⟨-, -, -, -, -, -, -, -, -, -, -, -, e0, e1, -⟩ := index_maps1 t
  funext j
  show V c main_v10 (((cfg1.win 6).blk t).view.emb j) = _
  congr 1
  funext a
  apply Fin.ext
  match a with
  | ⟨0, _⟩ => show win1_6.index t (0 : Fin 2) * 1 + 1 * (j 0).val = (j 0).val; omega
  | ⟨1, _⟩ => show win1_6.index t (1 : Fin 2) * 128 + 1 * (j 1).val = (j 1).val; omega

/-- Where the result window's block at point `t` puts its row `y`: at row `4000 t + y` of the array. -/
private theorem emb1_7 (t : Fin cfg1.N) (y : Fin 4000) (k : Fin 128) :
    (((cfg1.win 7).blk t).view.emb (ix2 y k) : S800000x128.Idx)
      = ix2 ⟨t.val * 4000 + y.val, by have := point_lt1 t; omega⟩ k := by
  obtain ⟨-, -, -, -, -, -, -, -, -, -, -, -, -, -, e0, e1⟩ := index_maps1 t
  funext a
  apply Fin.ext
  match a with
  | ⟨0, _⟩ => show win1_7.index t (0 : Fin 2) * 4000 + 1 * y.val = t.val * 4000 + y.val; omega
  | ⟨1, _⟩ => show win1_7.index t (1 : Fin 2) * 128 + 1 * k.val = k.val; omega

/-- What point `t` writes back is block `t` of the curvature rows of the whole arrays. -/
private theorem flushed1_7 (c : Dev nD) (t : Fin cfg1.N) :
    (dat1 V c).flushed 7 t = ((cfg1.win 7).blk t).view.read (Elt Ideal)
      (curvRows (n := 800000) (V c main_v5) (V c main_v6) (V c main_v7) (V c main_v8) (V c main_v9) (V c main_arg5) (V c main_v10)) := by
  show (cfg1.win 7).cut (grid1.coords t) ((dat1 V c).after 7 t) = _
  rw [after1_7]
  unfold out1_7
  rw [View.canon_unit_zero zero_off1]
  simp only [View.ld_unit_zero (S := S4000x128) zero_off1, View.ld_unit_zero (S := S128x128) zero_off1,
    View.ld_unit_zero (S := S1x128) zero_off1]
  rw [Body.pay1_eq]
  funext y
  obtain ⟨p, q, rfl⟩ : ∃ (p : Fin 4000) (q : Fin 128), (y : S4000x128.Idx) = ix2 p q := ⟨_, _, eq_ix2 y⟩
  show curvRows (n := 4000) (iblk1 V c 0 t) (iblk1 V c 1 t) (iblk1 V c 2 t) (iblk1 V c 3 t) (iblk1 V c 4 t) (iblk1 V c 5 t)
      (iblk1 V c 6 t) (ix2 p q)
    = curvRows (n := 800000) (V c main_v5) (V c main_v6) (V c main_v7) (V c main_v8) (V c main_v9) (V c main_arg5) (V c main_v10)
      (((cfg1.win 7).blk t).view.emb (ix2 p q))
  rw [emb1_7, curvRows_apply, curvRows_apply, blk1_2 V c t, blk1_3 V c t, blk1_4 V c t, blk1_5 V c t, blk1_6 V c t]
  have r0 : rowOf (n := 4000) (iblk1 V c 0 t) p
      = rowOf (n := 800000) (V c main_v5) ⟨t.val * 4000 + p.val, by have := point_lt1 t; omega⟩ :=
    funext fun k => blk1_0 V c t p k
  have r1 : rowOf (n := 4000) (iblk1 V c 1 t) p
      = rowOf (n := 800000) (V c main_v6) ⟨t.val * 4000 + p.val, by have := point_lt1 t; omega⟩ :=
    funext fun k => blk1_1 V c t p k
  rw [r0, r1]

/-- An index of the result array is in point `t`'s block iff each coordinate is in the block's range on its axis. -/
private theorem mem_blk1_7 (t : Fin cfg1.N) (i : S800000x128.Idx) :
    i ∈ ((cfg1.win 7).blk t).view.set ↔ ∀ a : Fin 2, win1_7.index t a * S4000x128.size a ≤ (i a).val
      ∧ (i a).val < win1_7.index t a * S4000x128.size a + S4000x128.size a := by
  show i ∈ ((View.whole main_v11).slice (win1_7.rect t)).set ↔ _
  rw [View.set_slice_whole, Rect.mem_set_unit]
  exact Iff.rfl

/-- Every index of the result array is in the block of the point its row falls in, row `r` in point `r / 4000`. -/
private theorem all_covered1 (i : S800000x128.Idx) :
    ∃ t : Fin cfg1.N, (cfg1.win 7).flush t = true ∧ i ∈ ((cfg1.win 7).blk t).view.set := by
  have hi0 : (i 0).val < 800000 := (i 0).isLt
  have hi1 : (i 1).val < 128 := (i 1).isLt
  have ht : (i 0).val / 4000 < cfg1.N := by rw [show cfg1.N = 200 from N_1]; omega
  obtain ⟨-, -, -, -, -, -, -, -, -, -, -, -, -, -, e0, e1⟩ := index_maps1 ⟨(i 0).val / 4000, ht⟩
  refine ⟨⟨(i 0).val / 4000, ht⟩, flush1_7 _, ?_⟩
  rw [mem_blk1_7]
  intro a
  match a with
  | ⟨0, _⟩ =>
    show win1_7.index ⟨(i 0).val / 4000, ht⟩ (0 : Fin 2) * 4000 ≤ (i 0).val
      ∧ (i 0).val < win1_7.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win1_7.index ⟨(i 0).val / 4000, ht⟩ (1 : Fin 2) * 128 ≤ (i 1).val
      ∧ (i 1).val < win1_7.index ⟨(i 0).val / 4000, ht⟩ (1 : Fin 2) * 128 + 128
    rw [e1]; omega

/-- The result array after the region. -/
theorem region1 (c : Dev nD) : (dat1 V c).arrAt 7 cfg1.N
    = curvRows (n := 800000) (V c main_v5) (V c main_v6) (V c main_v7) (V c main_v8) (V c main_v9) (V c main_arg5) (V c main_v10) :=
  (dat1 V c).arrAt_eq_of_cover 7 _ (fun t _ => flushed1_7 V c t) all_covered1

end Cert.KernelIdeal.Region

end
-- ==== Proof.KernelTerm.lean ====
/-
  The kernel program's result as ONE function of its argument arrays.

  Between its four row-wise stages the program moves rows by node index: `takeRows` fetches, for every edge, the row
  of its end node (a negative index counting from the end, a row outside the table replaced by a fill value), and
  `segSum` adds every edge's row into the row of its source node; `segCount` counts the edges of each source node.
  The weights of the concatenated layers are cut into their top and bottom halves, the biases laid out as one row.
-/
import proofs.«420050_j76647986365056_1_alg».proof.Proof.Gen.KernelIdeal
import proofs.«420050_j76647986365056_1_alg».proof.Proof.Rows

noncomputable section

namespace Cert.KernelIdeal.Term

open Cert.KernelIdeal Cert.KernelIdeal.Gen Cert.Curv Idealize.ShloMosaic

variable {F : FTy → Type} [FloatOps F]

/-- The edges' source nodes: row 0 of the edge list. -/
def srcOf (e : IVec S2x800000 32) : IVec S800000 32 :=
  shapeCast S800000 (extractStridedSlice S1x800000 ![0, 0] e slices_S2x800000_S1x800000_0_0) shapeCasts_S1x800000_S800000

/-- The edges' target nodes: row 1 of the edge list. -/
def dstOf (e : IVec S2x800000 32) : IVec S800000 32 :=
  shapeCast S800000 (extractStridedSlice S1x800000 ![1, 0] e slices_S2x800000_S1x800000_1_0) shapeCasts_S1x800000_S800000

/-- A node index with a negative value counted from the end, as a column of start indices. -/
def wrapIdx (i : IVec S800000 32) : IVec S800000x1 32 :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 50000#32))) i)

/-- Whether each start index names a row of the table: `0 ≤ j ≤ 49999`. -/
def inRange (j : IVec S800000x1 32) : IVec S800000 1 :=
  Host.reduce IntOp.andi
    (andi (cmpi .sge j (broadcastInDim S800000x1 ![] bcast_S_S800000x1 (constantI S_ 32 0#32)))
      (cmpi .sle j (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- For every edge the table's row at its node index, a fill value where the index names no row. -/
def takeRows (X : FVec F S50000x128 .f32) (i : IVec S800000 32) : FVec F S800000x128 .f32 :=
  select (broadcastInDim S800000x128 ![0] bcast_S800000_S800000x128_0 (inRange (wrapIdx i)))
    (Host.gather gather_S50000x128_S800000x1_S800000x128_1_0_n_n_0_1_1128 X (wrapIdx i))
    (broadcastInDim S800000x128 ![] bcast_S_S800000x128 (constant S_ .f32 0x7FC00000#32))

/-- Every edge's row added into the row of its node. -/
def segSum (i : IVec S800000 32) (u : FVec F S800000x128 .f32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 i) u

/-- The number of edges of each node. -/
def segCount (i : IVec S800000 32) : FVec F S50000x1 .f32 :=
  Host.scatterAdd scatter_S50000x1_S800000x1_S800000x1_1_0_0_1
    (broadcastInDim S50000x1 ![] bcast_S_S50000x1 (constant S_ .f32 0x00000000#32))
    (broadcastInDim S800000x1 ![0] bcast_S800000_S800000x1_0 i)
    (broadcastInDim S800000x1 ![] bcast_S_S800000x1 (constant S_ .f32 0x3F800000#32))

/-- The top half (rows 0–127) of a concatenated layer's weight. -/
def topHalf (w : FVec F S256x128 .f32) : FVec F S128x128 .f32 :=
  extractStridedSlice S128x128 ![0, 0] w slices_S256x128_S128x128_0_0

/-- Its bottom half (rows 128–255). -/
def botHalf (w : FVec F S256x128 .f32) : FVec F S128x128 .f32 :=
  extractStridedSlice S128x128 ![128, 0] w slices_S256x128_S128x128_128_0

/-- A bias laid out as one row. -/
def asRow (b : FVec F S128 .f32) : FVec F S1x128 .f32 := shapeCast S1x128 b shapeCasts_S128_S1x128

/-- The one-number bias laid out as a 1 × 1 array. -/
def asOne (b : FVec F S1 .f32) : FVec F S1x1 .f32 := shapeCast S1x1 b shapeCasts_S1_S1x1

/-- The normalized node rows. -/
def nodes (H : FVec Ideal S50000x128 .f32) : FVec Ideal S50000x128 .f32 := unitRows (n := 50000) H

/-- The pre-aggregation curvature of every edge. -/
def curvPre (H : FVec Ideal S50000x128 .f32) (e : IVec S2x800000 32) (w11 : FVec Ideal S256x128 .f32) (b11 : FVec Ideal S128 .f32)
    (w12 : FVec Ideal S128x128 .f32) (b12 : FVec Ideal S128 .f32) : FVec Ideal S800000x128 .f32 :=
  curvRows (n := 800000) (takeRows (nodes H) (srcOf e)) (takeRows (nodes H) (dstOf e)) (topHalf w11) (botHalf w11) (asRow b11) w12 (asRow b12)

/-- The curvature rows summed at each source node. -/
def curvSum (H : FVec Ideal S50000x128 .f32) (e : IVec S2x800000 32) (w11 : FVec Ideal S256x128 .f32) (b11 : FVec Ideal S128 .f32)
    (w12 : FVec Ideal S128x128 .f32) (b12 : FVec Ideal S128 .f32) : FVec Ideal S50000x128 .f32 :=
  segSum (srcOf e) (curvPre H e w11 b11 w12 b12)

/-- The damped message of every edge. -/
def message (H : FVec Ideal S50000x128 .f32) (e : IVec S2x800000 32) (w11 : FVec Ideal S256x128 .f32) (b11 : FVec Ideal S128 .f32)
    (w12 : FVec Ideal S128x128 .f32) (b12 : FVec Ideal S128 .f32) (w21 : FVec Ideal S256x128 .f32) (b21 : FVec Ideal S128 .f32)
    (w22 : FVec Ideal S128x1 .f32) (b22 : FVec Ideal S1 .f32) : FVec Ideal S800000x128 .f32 :=
  edgeRows (n := 800000) (takeRows (curvSum H e w11 b11 w12 b12) (srcOf e)) (takeRows (curvSum H e w11 b11 w12 b12) (dstOf e))
    (takeRows (nodes H) (srcOf e)) (takeRows (nodes H) (dstOf e)) (topHalf w21) (botHalf w21) (asRow b21) w22 (asOne b22)

/-- The program's result: each node's mean incoming message, made a unit row. -/
def result (H : FVec Ideal S50000x128 .f32) (e : IVec S2x800000 32) (w11 : FVec Ideal S256x128 .f32) (b11 : FVec Ideal S128 .f32)
    (w12 : FVec Ideal S128x128 .f32) (b12 : FVec Ideal S128 .f32) (w21 : FVec Ideal S256x128 .f32) (b21 : FVec Ideal S128 .f32)
    (w22 : FVec Ideal S128x1 .f32) (b22 : FVec Ideal S1 .f32) : FVec Ideal S50000x128 .f32 :=
  meanUnitRows (n := 50000) (segSum (srcOf e) (message H e w11 b11 w12 b12 w21 b21 w22 b22)) (segCount (F := Ideal) (srcOf e))

end Cert.KernelIdeal.Term

end
-- ==== Proof.KernelValueA.lean ====
/-
  The first half of the walk through @main: from the launch to the exit of the first curvature pallas_call. At that
  boundary the curvature rows of all edges are the curvature stage of the rows fetched from the normalized nodes; the
  fetched rows, the edges' source and target nodes and the arguments still to be read hold what they held.
-/
import proofs.«420050_j76647986365056_1_alg».proof.Proof.Gen.KernelIdeal.Frame
import proofs.«420050_j76647986365056_1_alg».proof.Proof.Region0
import proofs.«420050_j76647986365056_1_alg».proof.Proof.Region1
import proofs.«420050_j76647986365056_1_alg».proof.Proof.KernelTerm
import Idealize.ShloMosaic.Lib.StableHlo.Run

set_option maxRecDepth 16384

noncomputable section

namespace Cert.KernelIdeal.Chain

open Cert.KernelIdeal Cert.KernelIdeal.Gen Cert.Curv
open Idealize.ShloMosaic Idealize.ShloMosaic.TcCoe Idealize.SL.Sem

/-! ## Reading a typed reference

The operations of an inlined function are stated over references that carry the type of the value they hold; each moves
its function's arguments and value between that type and the buffer's own along an equation of types. Read at the
value's type, an operation's result is its function of its operands read the same way, and the transports cancel. -/

section TypedRead

variable {T Ta Tb Tc Tx Ty : BufTy}

/-- The contents of a typed reference's buffer, at the type of the value it holds. -/
private def rd (V : Valuation τ sig (Elt Ideal)) (x : StableHlo.TRef sig T) : T.Contents (Elt Ideal) :=
  x.ofBuf (V (Proc.devRef .tc x.ref))

private theorem ofBuf_toBuf (y : StableHlo.TRef sig T) (v : T.Contents (Elt Ideal)) : y.ofBuf (y.toBuf v) = v := by
  obtain ⟨r, rfl, _, _⟩ := y; rfl

private theorem rd_nullary' (y : StableHlo.TRef sig Ty) (v : Ty.Contents (Elt Ideal)) (V : Valuation τ sig (Elt Ideal)) :
    rd ((StableHlo.TRef.nullary y v).result V) y = v := by
  unfold rd; rw [StableHlo.nullary_result]; exact ofBuf_toBuf y v

private theorem rd_unary' (x : StableHlo.TRef sig Tx) (y : StableHlo.TRef sig Ty) (f : Tx.Contents (Elt Ideal) → Ty.Contents (Elt Ideal))
    (V : Valuation τ sig (Elt Ideal)) :
    rd ((StableHlo.TRef.unary x y f).result V) y = f (rd V x) := by
  unfold rd; rw [StableHlo.unary_result]; exact ofBuf_toBuf y _

private theorem rd_binary' (a : StableHlo.TRef sig Ta) (b : StableHlo.TRef sig Tb) (y : StableHlo.TRef sig Ty)
    (f : Ta.Contents (Elt Ideal) → Tb.Contents (Elt Ideal) → Ty.Contents (Elt Ideal)) (V : Valuation τ sig (Elt Ideal)) :
    rd ((StableHlo.TRef.binary a b y f).result V) y = f (rd V a) (rd V b) := by
  unfold rd; rw [StableHlo.binary_result]; exact ofBuf_toBuf y _

private theorem rd_ternary' (c : StableHlo.TRef sig Tc) (a : StableHlo.TRef sig Ta) (b : StableHlo.TRef sig Tb) (y : StableHlo.TRef sig Ty)
    (f : Tc.Contents (Elt Ideal) → Ta.Contents (Elt Ideal) → Tb.Contents (Elt Ideal) → Ty.Contents (Elt Ideal)) (V : Valuation τ sig (Elt Ideal)) :
    rd ((StableHlo.TRef.ternary c a b y f).result V) y = f (rd V c) (rd V a) (rd V b) := by
  unfold rd; rw [StableHlo.ternary_result]; exact ofBuf_toBuf y _

private theorem rd_nullary_ne' (r : StableHlo.TRef sig T) (y : StableHlo.TRef sig Ty) (v : Ty.Contents (Elt Ideal)) (V : Valuation τ sig (Elt Ideal))
    (h : r.ref ≠ y.ref) : rd ((StableHlo.TRef.nullary y v).result V) r = rd V r := by
  unfold rd; rw [StableHlo.nullary_result_ne]; exact h

private theorem rd_unary_ne' (r : StableHlo.TRef sig T) (x : StableHlo.TRef sig Tx) (y : StableHlo.TRef sig Ty) (f : Tx.Contents (Elt Ideal) → Ty.Contents (Elt Ideal))
    (V : Valuation τ sig (Elt Ideal)) (h : r.ref ≠ y.ref) : rd ((StableHlo.TRef.unary x y f).result V) r = rd V r := by
  unfold rd; rw [StableHlo.unary_result_ne]; exact h

private theorem rd_binary_ne' (r : StableHlo.TRef sig T) (a : StableHlo.TRef sig Ta) (b : StableHlo.TRef sig Tb) (y : StableHlo.TRef sig Ty)
    (f : Ta.Contents (Elt Ideal) → Tb.Contents (Elt Ideal) → Ty.Contents (Elt Ideal)) (V : Valuation τ sig (Elt Ideal)) (h : r.ref ≠ y.ref) :
    rd ((StableHlo.TRef.binary a b y f).result V) r = rd V r := by
  unfold rd; rw [StableHlo.binary_result_ne]; exact h

private theorem rd_ternary_ne' (r : StableHlo.TRef sig T) (c : StableHlo.TRef sig Tc) (a : StableHlo.TRef sig Ta) (b : StableHlo.TRef sig Tb) (y : StableHlo.TRef sig Ty)
    (f : Tc.Contents (Elt Ideal) → Ta.Contents (Elt Ideal) → Tb.Contents (Elt Ideal) → Ty.Contents (Elt Ideal)) (V : Valuation τ sig (Elt Ideal)) (h : r.ref ≠ y.ref) :
    rd ((StableHlo.TRef.ternary c a b y f).result V) r = rd V r := by
  unfold rd; rw [StableHlo.ternary_result_ne]; exact h

/-! The same statements in the form one rewriting pass applies: the operation and the reference read are matched whole. -/
private theorem rd_nullary (y : StableHlo.TRef sig Ty) (v : Ty.Contents (Elt Ideal)) (V : Valuation τ sig (Elt Ideal)) :
    rd ((no_index (StableHlo.TRef.nullary y v)).result V) (no_index y) = v := rd_nullary' y v V
private theorem rd_unary (x : StableHlo.TRef sig Tx) (y : StableHlo.TRef sig Ty) (f : Tx.Contents (Elt Ideal) → Ty.Contents (Elt Ideal))
    (V : Valuation τ sig (Elt Ideal)) :
    rd ((no_index (StableHlo.TRef.unary x y f)).result V) (no_index y) = f (rd V x) := rd_unary' x y f V
private theorem rd_binary (a : StableHlo.TRef sig Ta) (b : StableHlo.TRef sig Tb) (y : StableHlo.TRef sig Ty)
    (f : Ta.Contents (Elt Ideal) → Tb.Contents (Elt Ideal) → Ty.Contents (Elt Ideal)) (V : Valuation τ sig (Elt Ideal)) :
    rd ((no_index (StableHlo.TRef.binary a b y f)).result V) (no_index y) = f (rd V a) (rd V b) := rd_binary' a b y f V
private theorem rd_ternary (c : StableHlo.TRef sig Tc) (a : StableHlo.TRef sig Ta) (b : StableHlo.TRef sig Tb) (y : StableHlo.TRef sig Ty)
    (f : Tc.Contents (Elt Ideal) → Ta.Contents (Elt Ideal) → Tb.Contents (Elt Ideal) → Ty.Contents (Elt Ideal)) (V : Valuation τ sig (Elt Ideal)) :
    rd ((no_index (StableHlo.TRef.ternary c a b y f)).result V) (no_index y) = f (rd V c) (rd V a) (rd V b) := rd_ternary' c a b y f V
private theorem rd_nullary_ne (r : StableHlo.TRef sig T) (y : StableHlo.TRef sig Ty) (v : Ty.Contents (Elt Ideal)) (V : Valuation τ sig (Elt Ideal))
    (h : r.ref ≠ y.ref) : rd ((no_index (StableHlo.TRef.nullary y v)).result V) (no_index r) = rd V r := rd_nullary_ne' r y v V h
private theorem rd_unary_ne (r : StableHlo.TRef sig T) (x : StableHlo.TRef sig Tx) (y : StableHlo.TRef sig Ty) (f : Tx.Contents (Elt Ideal) → Ty.Contents (Elt Ideal))
    (V : Valuation τ sig (Elt Ideal)) (h : r.ref ≠ y.ref) : rd ((no_index (StableHlo.TRef.unary x y f)).result V) (no_index r) = rd V r :=
  rd_unary_ne' r x y f V h
private theorem rd_binary_ne (r : StableHlo.TRef sig T) (a : StableHlo.TRef sig Ta) (b : StableHlo.TRef sig Tb) (y : StableHlo.TRef sig Ty)
    (f : Ta.Contents (Elt Ideal) → Tb.Contents (Elt Ideal) → Ty.Contents (Elt Ideal)) (V : Valuation τ sig (Elt Ideal)) (h : r.ref ≠ y.ref) :
    rd ((no_index (StableHlo.TRef.binary a b y f)).result V) (no_index r) = rd V r := rd_binary_ne' r a b y f V h
private theorem rd_ternary_ne (r : StableHlo.TRef sig T) (c : StableHlo.TRef sig Tc) (a : StableHlo.TRef sig Ta) (b : StableHlo.TRef sig Tb) (y : StableHlo.TRef sig Ty)
    (f : Tc.Contents (Elt Ideal) → Ta.Contents (Elt Ideal) → Tb.Contents (Elt Ideal) → Ty.Contents (Elt Ideal)) (V : Valuation τ sig (Elt Ideal)) (h : r.ref ≠ y.ref) :
    rd ((no_index (StableHlo.TRef.ternary c a b y f)).result V) (no_index r) = rd V r := rd_ternary_ne' r c a b y f V h

end TypedRead

/-- A line of typed operations read at one typed reference: each operation's result at its own reference is its function
    of its operands, and at any other reference what was there. -/
local macro "typed_results" : tactic => `(tactic| (
  simp (disch := decide) only [StableHlo.after_cons, StableHlo.after_nil, rd_nullary, rd_unary, rd_binary, rd_ternary,
    rd_nullary_ne, rd_unary_ne, rd_binary_ne, rd_ternary_ne]))

variable (m : (ℓ : Loc nD τ sig) → Buf (Elt Ideal) ℓ) (ρ : Dev nD → PrngReg)

/-- No operation of a host stretch writes the buffer. -/
local macro "not_written" : tactic => `(tactic| (
  refine List.forall_iff_forall_mem.mp ?_
  simp only [hostOps0, hostOps1, hostOps1_1, hostOps1_2, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- Across a host stretch, a buffer none of its operations writes keeps its contents. -/
local macro "skip_host" : tactic => `(tactic| (
  refine StableHlo.after_of_forall_not_mem _ _ ?_
  not_written))

/-! ## The launch and the normalization -/

private theorem W1_v1 (c : Dev nD) : W1 m ρ c (Proc.devRef .tc main_v1) = Term.srcOf (m ((c : Thread nD τ).loc main_arg2)) := by
  show StableHlo.after hostOps0 (W0 m ρ c) (Proc.devRef .tc main_v1) = _
  after_results
  rfl

private theorem W1_v3 (c : Dev nD) : W1 m ρ c (Proc.devRef .tc main_v3) = Term.dstOf (m ((c : Thread nD τ).loc main_arg2)) := by
  show StableHlo.after hostOps0 (W0 m ρ c) (Proc.devRef .tc main_v3) = _
  after_results
  rfl

private theorem W1_arg1 (c : Dev nD) : W1 m ρ c (Proc.devRef .tc main_arg1) = m ((c : Thread nD τ).loc main_arg1) := by
  show StableHlo.after hostOps0 (W0 m ρ c) (Proc.devRef .tc main_arg1) = W0 m ρ c (Proc.devRef .tc main_arg1)
  skip_host

private theorem W2_v4 (c : Dev nD) : W2 m ρ c (Proc.devRef .tc main_v4) = Term.nodes (m ((c : Thread nD τ).loc main_arg1)) :=
  (W2_arr m ρ c 1).trans ((Region.region0 (V1 m ρ) c).trans (congrArg (unitRows (n := 50000)) (W1_arg1 m ρ c)))

private theorem W2_v1 (c : Dev nD) : W2 m ρ c (Proc.devRef .tc main_v1) = Term.srcOf (m ((c : Thread nD τ).loc main_arg2)) :=
  (W2_of_ne m ρ c main_v1 (by decide)).trans (W1_v1 m ρ c)

private theorem W2_v3 (c : Dev nD) : W2 m ρ c (Proc.devRef .tc main_v3) = Term.dstOf (m ((c : Thread nD τ).loc main_arg2)) :=
  (W2_of_ne m ρ c main_v3 (by decide)).trans (W1_v3 m ρ c)

/-! ## A buffer carried along

A buffer that neither the host stretches up to the second pallas_call nor the normalization write holds at each
boundary what it held at the one before. -/

private theorem W1_of_W0 (c : Dev nD) (b : Ref sig .tc)
    (h0 : ∀ op ∈ (hostOps0 : List (HloOp τ sig (Elt Ideal))), Proc.devRef (τ := τ) .tc b ∉ op.writes) :
    W1 m ρ c (Proc.devRef .tc b) = W0 m ρ c (Proc.devRef .tc b) :=
  StableHlo.after_of_forall_not_mem _ _ h0

private theorem W4_of_W1 (c : Dev nD) (b : Ref sig .tc) (hr : ∀ w, Pipeline.arrRef spec0 w ≠ b)
    (h1 : ∀ op ∈ (hostOps1 : List (HloOp τ sig (Elt Ideal))), Proc.devRef (τ := τ) .tc b ∉ op.writes)
    (h2 : ∀ op ∈ (hostOps1_1 : List (HloOp τ sig (Elt Ideal))), Proc.devRef (τ := τ) .tc b ∉ op.writes) :
    W4 m ρ c (Proc.devRef .tc b) = W1 m ρ c (Proc.devRef .tc b) :=
  (StableHlo.after_of_forall_not_mem _ _ h2).trans ((StableHlo.after_of_forall_not_mem _ _ h1).trans (W2_of_ne m ρ c b hr))

private theorem W5_of_W4 (c : Dev nD) (b : Ref sig .tc)
    (h3 : ∀ op ∈ (hostOps1_2 : List (HloOp τ sig (Elt Ideal))), Proc.devRef (τ := τ) .tc b ∉ op.writes) :
    W5 m ρ c (Proc.devRef .tc b) = W4 m ρ c (Proc.devRef .tc b) :=
  StableHlo.after_of_forall_not_mem _ _ h3

private theorem W4_arg3 (c : Dev nD) : W4 m ρ c (Proc.devRef .tc main_arg3) = m ((c : Thread nD τ).loc main_arg3) :=
  (W4_of_W1 m ρ c main_arg3 (by decide) (by not_written) (by not_written)).trans (W1_of_W0 m ρ c main_arg3 (by not_written))
private theorem W4_arg4 (c : Dev nD) : W4 m ρ c (Proc.devRef .tc main_arg4) = m ((c : Thread nD τ).loc main_arg4) :=
  (W4_of_W1 m ρ c main_arg4 (by decide) (by not_written) (by not_written)).trans (W1_of_W0 m ρ c main_arg4 (by not_written))
private theorem W4_arg5 (c : Dev nD) : W4 m ρ c (Proc.devRef .tc main_arg5) = m ((c : Thread nD τ).loc main_arg5) :=
  (W4_of_W1 m ρ c main_arg5 (by decide) (by not_written) (by not_written)).trans (W1_of_W0 m ρ c main_arg5 (by not_written))
private theorem W4_arg6 (c : Dev nD) : W4 m ρ c (Proc.devRef .tc main_arg6) = m ((c : Thread nD τ).loc main_arg6) :=
  (W4_of_W1 m ρ c main_arg6 (by decide) (by not_written) (by not_written)).trans (W1_of_W0 m ρ c main_arg6 (by not_written))
private theorem W4_arg7 (c : Dev nD) : W4 m ρ c (Proc.devRef .tc main_arg7) = m ((c : Thread nD τ).loc main_arg7) :=
  (W4_of_W1 m ρ c main_arg7 (by decide) (by not_written) (by not_written)).trans (W1_of_W0 m ρ c main_arg7 (by not_written))
private theorem W4_arg8 (c : Dev nD) : W4 m ρ c (Proc.devRef .tc main_arg8) = m ((c : Thread nD τ).loc main_arg8) :=
  (W4_of_W1 m ρ c main_arg8 (by decide) (by not_written) (by not_written)).trans (W1_of_W0 m ρ c main_arg8 (by not_written))
private theorem W4_arg9 (c : Dev nD) : W4 m ρ c (Proc.devRef .tc main_arg9) = m ((c : Thread nD τ).loc main_arg9) :=
  (W4_of_W1 m ρ c main_arg9 (by decide) (by not_written) (by not_written)).trans (W1_of_W0 m ρ c main_arg9 (by not_written))
private theorem W4_arg10 (c : Dev nD) : W4 m ρ c (Proc.devRef .tc main_arg10) = m ((c : Thread nD τ).loc main_arg10) :=
  (W4_of_W1 m ρ c main_arg10 (by decide) (by not_written) (by not_written)).trans (W1_of_W0 m ρ c main_arg10 (by not_written))

private theorem W4_v1 (c : Dev nD) : W4 m ρ c (Proc.devRef .tc main_v1) = Term.srcOf (m ((c : Thread nD τ).loc main_arg2)) :=
  (W4_of_W1 m ρ c main_v1 (by decide) (by not_written) (by not_written)).trans (W1_v1 m ρ c)
private theorem W4_v3 (c : Dev nD) : W4 m ρ c (Proc.devRef .tc main_v3) = Term.dstOf (m ((c : Thread nD τ).loc main_arg2)) :=
  (W4_of_W1 m ρ c main_v3 (by decide) (by not_written) (by not_written)).trans (W1_v3 m ρ c)

/-! ## The two fetches -/

/-- The first fetch, from any contents: the rows of the table at the index list. -/
private theorem take0 (V : Valuation τ sig (Elt Ideal)) :
    StableHlo.after hostOps1 V (Proc.devRef .tc main_v5)
      = Term.takeRows (F := Ideal) (V (Proc.devRef .tc main_v4)) (V (Proc.devRef .tc main_v1)) := by
  show rd (StableHlo.after hostOps1 V) (.of main_v5 : StableHlo.TRef sig ⟨S800000x128, .f32⟩) = _
  typed_results
  rfl

/-- The second fetch, from any contents. -/
private theorem take1 (V : Valuation τ sig (Elt Ideal)) :
    StableHlo.after hostOps1_1 V (Proc.devRef .tc main_v6)
      = Term.takeRows (F := Ideal) (V (Proc.devRef .tc main_v4)) (V (Proc.devRef .tc main_v3)) := by
  show rd (StableHlo.after hostOps1_1 V) (.of main_v6 : StableHlo.TRef sig ⟨S800000x128, .f32⟩) = _
  typed_results
  rfl

private theorem W3_v5 (c : Dev nD) : W3 m ρ c (Proc.devRef .tc main_v5)
    = Term.takeRows (Term.nodes (m ((c : Thread nD τ).loc main_arg1))) (Term.srcOf (m ((c : Thread nD τ).loc main_arg2))) :=
  (take0 (W2 m ρ c)).trans (congrArg₂ (Term.takeRows (F := Ideal)) (W2_v4 m ρ c) (W2_v1 m ρ c))

private theorem W3_v4 (c : Dev nD) : W3 m ρ c (Proc.devRef .tc main_v4) = Term.nodes (m ((c : Thread nD τ).loc main_arg1)) :=
  (StableHlo.after_of_forall_not_mem _ _ (by not_written)).trans (W2_v4 m ρ c)

private theorem W3_v3 (c : Dev nD) : W3 m ρ c (Proc.devRef .tc main_v3) = Term.dstOf (m ((c : Thread nD τ).loc main_arg2)) :=
  (StableHlo.after_of_forall_not_mem _ _ (by not_written)).trans (W2_v3 m ρ c)

private theorem W4_v6 (c : Dev nD) : W4 m ρ c (Proc.devRef .tc main_v6)
    = Term.takeRows (Term.nodes (m ((c : Thread nD τ).loc main_arg1))) (Term.dstOf (m ((c : Thread nD τ).loc main_arg2))) :=
  (take1 (W3 m ρ c)).trans (congrArg₂ (Term.takeRows (F := Ideal)) (W3_v4 m ρ c) (W3_v3 m ρ c))

private theorem W4_v5 (c : Dev nD) : W4 m ρ c (Proc.devRef .tc main_v5)
    = Term.takeRows (Term.nodes (m ((c : Thread nD τ).loc main_arg1))) (Term.srcOf (m ((c : Thread nD τ).loc main_arg2))) :=
  (StableHlo.after_of_forall_not_mem _ _ (by not_written)).trans (W3_v5 m ρ c)

/-! ## The weights cut and the biases laid out -/

private theorem cut_v7 (V : Valuation τ sig (Elt Ideal)) :
    (StableHlo.after hostOps1_2 V (Proc.devRef .tc main_v7) : FVec Ideal S128x128 .f32) = Term.topHalf (F := Ideal) (V (Proc.devRef .tc main_arg3)) := by
  after_results
  rfl
private theorem cut_v8 (V : Valuation τ sig (Elt Ideal)) :
    (StableHlo.after hostOps1_2 V (Proc.devRef .tc main_v8) : FVec Ideal S128x128 .f32) = Term.botHalf (F := Ideal) (V (Proc.devRef .tc main_arg3)) := by
  after_results
  rfl
private theorem cut_v9 (V : Valuation τ sig (Elt Ideal)) :
    (StableHlo.after hostOps1_2 V (Proc.devRef .tc main_v9) : FVec Ideal S1x128 .f32) = Term.asRow (F := Ideal) (V (Proc.devRef .tc main_arg4)) := by
  after_results
  rfl
private theorem cut_v10 (V : Valuation τ sig (Elt Ideal)) :
    (StableHlo.after hostOps1_2 V (Proc.devRef .tc main_v10) : FVec Ideal S1x128 .f32) = Term.asRow (F := Ideal) (V (Proc.devRef .tc main_arg6)) := by
  after_results
  rfl

private theorem W5_v7 (c : Dev nD) : W5 m ρ c (Proc.devRef .tc main_v7) = Term.topHalf (F := Ideal) (m ((c : Thread nD τ).loc main_arg3)) :=
  (cut_v7 (W4 m ρ c)).trans (congrArg (Term.topHalf (F := Ideal)) (W4_arg3 m ρ c))
private theorem W5_v8 (c : Dev nD) : W5 m ρ c (Proc.devRef .tc main_v8) = Term.botHalf (F := Ideal) (m ((c : Thread nD τ).loc main_arg3)) :=
  (cut_v8 (W4 m ρ c)).trans (congrArg (Term.botHalf (F := Ideal)) (W4_arg3 m ρ c))
private theorem W5_v9 (c : Dev nD) : W5 m ρ c (Proc.devRef .tc main_v9) = Term.asRow (F := Ideal) (m ((c : Thread nD τ).loc main_arg4)) :=
  (cut_v9 (W4 m ρ c)).trans (congrArg (Term.asRow (F := Ideal)) (W4_arg4 m ρ c))
private theorem W5_v10 (c : Dev nD) : W5 m ρ c (Proc.devRef .tc main_v10) = Term.asRow (F := Ideal) (m ((c : Thread nD τ).loc main_arg6)) :=
  (cut_v10 (W4 m ρ c)).trans (congrArg (Term.asRow (F := Ideal)) (W4_arg6 m ρ c))

private theorem W5_v5 (c : Dev nD) : W5 m ρ c (Proc.devRef .tc main_v5)
    = Term.takeRows (Term.nodes (m ((c : Thread nD τ).loc main_arg1))) (Term.srcOf (m ((c : Thread nD τ).loc main_arg2))) :=
  (W5_of_W4 m ρ c main_v5 (by not_written)).trans (W4_v5 m ρ c)
private theorem W5_v6 (c : Dev nD) : W5 m ρ c (Proc.devRef .tc main_v6)
    = Term.takeRows (Term.nodes (m ((c : Thread nD τ).loc main_arg1))) (Term.dstOf (m ((c : Thread nD τ).loc main_arg2))) :=
  (W5_of_W4 m ρ c main_v6 (by not_written)).trans (W4_v6 m ρ c)
private theorem W5_arg5 (c : Dev nD) : W5 m ρ c (Proc.devRef .tc main_arg5) = m ((c : Thread nD τ).loc main_arg5) :=
  (W5_of_W4 m ρ c main_arg5 (by not_written)).trans (W4_arg5 m ρ c)

/-! ## The exit of the first curvature pallas_call -/

/-- The curvature rows of all edges. -/
theorem W6_v11 (c : Dev nD) : W6 m ρ c (Proc.devRef .tc main_v11) = Term.curvPre (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W6_arr m ρ c 7).trans ((Region.region1 (V5 m ρ) c).trans ?_)
  show curvRows (n := 800000) (W5 m ρ c (Proc.devRef .tc main_v5)) (W5 m ρ c (Proc.devRef .tc main_v6)) (W5 m ρ c (Proc.devRef .tc main_v7))
    (W5 m ρ c (Proc.devRef .tc main_v8)) (W5 m ρ c (Proc.devRef .tc main_v9)) (W5 m ρ c (Proc.devRef .tc main_arg5))
    (W5 m ρ c (Proc.devRef .tc main_v10)) = _
  rw [W5_v5 m ρ c, W5_v6 m ρ c, W5_v7 m ρ c, W5_v8 m ρ c, W5_v9 m ρ c, W5_arg5 m ρ c, W5_v10 m ρ c]
  rfl

/-- The rows of the edges' source nodes. -/
theorem W6_v5 (c : Dev nD) : W6 m ρ c (Proc.devRef .tc main_v5) = Term.takeRows (Term.nodes (m ((c : Thread nD τ).loc main_arg1))) (Term.srcOf (m ((c : Thread nD τ).loc main_arg2))) :=
  (W6_arr m ρ c 0).trans (((dat1 (V5 m ρ) c).arrAt_in 0 rfl _).trans ((A_eq1 (V5 m ρ) c 0).trans (W5_v5 m ρ c)))

/-- The rows of the edges' target nodes. -/
theorem W6_v6 (c : Dev nD) : W6 m ρ c (Proc.devRef .tc main_v6) = Term.takeRows (Term.nodes (m ((c : Thread nD τ).loc main_arg1))) (Term.dstOf (m ((c : Thread nD τ).loc main_arg2))) :=
  (W6_arr m ρ c 1).trans (((dat1 (V5 m ρ) c).arrAt_in 1 rfl _).trans ((A_eq1 (V5 m ρ) c 1).trans (W5_v6 m ρ c)))

/-- The edges' source nodes. -/
theorem W6_v1 (c : Dev nD) : W6 m ρ c (Proc.devRef .tc main_v1) = Term.srcOf (m ((c : Thread nD τ).loc main_arg2)) :=
  (W6_of_ne m ρ c main_v1 (by decide)).trans ((W5_of_W4 m ρ c main_v1 (by not_written)).trans (W4_v1 m ρ c))

/-- The edges' target nodes. -/
theorem W6_v3 (c : Dev nD) : W6 m ρ c (Proc.devRef .tc main_v3) = Term.dstOf (m ((c : Thread nD τ).loc main_arg2)) :=
  (W6_of_ne m ρ c main_v3 (by decide)).trans ((W5_of_W4 m ρ c main_v3 (by not_written)).trans (W4_v3 m ρ c))

/-- The arguments the second half reads are as launched. -/
theorem W6_arg7 (c : Dev nD) : W6 m ρ c (Proc.devRef .tc main_arg7) = (m ((c : Thread nD τ).loc main_arg7)) :=
  (W6_of_ne m ρ c main_arg7 (by decide)).trans ((W5_of_W4 m ρ c main_arg7 (by not_written)).trans (W4_arg7 m ρ c))
theorem W6_arg8 (c : Dev nD) : W6 m ρ c (Proc.devRef .tc main_arg8) = (m ((c : Thread nD τ).loc main_arg8)) :=
  (W6_of_ne m ρ c main_arg8 (by decide)).trans ((W5_of_W4 m ρ c main_arg8 (by not_written)).trans (W4_arg8 m ρ c))
theorem W6_arg9 (c : Dev nD) : W6 m ρ c (Proc.devRef .tc main_arg9) = (m ((c : Thread nD τ).loc main_arg9)) :=
  (W6_of_ne m ρ c main_arg9 (by decide)).trans ((W5_of_W4 m ρ c main_arg9 (by not_written)).trans (W4_arg9 m ρ c))
theorem W6_arg10 (c : Dev nD) : W6 m ρ c (Proc.devRef .tc main_arg10) = (m ((c : Thread nD τ).loc main_arg10)) :=
  (W6_of_ne m ρ c main_arg10 (by decide)).trans ((W5_of_W4 m ρ c main_arg10 (by not_written)).trans (W4_arg10 m ρ c))

end Cert.KernelIdeal.Chain

end
-- ==== Proof.Body2.lean ====
/-
  The message kernel's body on a block of 4000 edges: the edge's curvature (a rectified layer, then one output column)
  times the target row minus the source row scaled by the two rows' inner product.
-/
import proofs.«420050_j76647986365056_1_alg».proof.Proof.Gen.KernelIdeal.Skeleton
import proofs.«420050_j76647986365056_1_alg».proof.Proof.Rows
import proofs.«420050_j76647986365056_1_alg».proof.Proof.LibDenseLayer
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Cert.Curv Idealize.ShloMosaic Idealize.ShloMosaic.ValueIdx
open scoped BigOperators

/-! ## The two matrix products at an index

Both contract the one lane axis of the left operand with the first axis of the right one: entry `(r, j)` of the
product accumulated into the zero splat is `Σ_k x (r, k) · w (k, j)`. -/

private theorem sq_l0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
private theorem sq_l1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
private theorem sq_r0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
private theorem sq_r1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

private theorem sq_apply {φ₁ φ₂ : FTy} (x : FVec Ideal S4000x128 φ₁) (w : FVec Ideal S128x128 φ₂) (r : Fin 4000) (j : Fin 128) :
    matmul dot_S4000x128_S128x128_S4000x128_1_0_0_1_n_n none x w (constant (F := Ideal) S4000x128 .f32 0x00000000#32) (ix2 r j)
      = ∑ k : Fin 128, x (ix2 r k) * w (ix2 k j) := by
  show FloatOps.matmul dot_S4000x128_S128x128_S4000x128_1_0_0_1_n_n none x w (constant S4000x128 .f32 0x00000000#32) (ix2 r j) = _
  rw [Ideal.matmul_constant_zero_apply]
  exact Cert.Lib.contraction_sum dot_S4000x128_S128x128_S4000x128_1_0_0_1_n_n 128 rfl rfl x w (ix2 r j)
    (fun k => x (ix2 r k)) (fun k => w (ix2 k j))
    (fun q => congrArg x (funext fun a => Fin.ext (by
      match a with
      | ⟨0, _⟩ => exact sq_l0 _ _
      | ⟨1, _⟩ => exact sq_l1 _ _)))
    (fun q => congrArg w (funext fun a => Fin.ext (by
      match a with
      | ⟨0, _⟩ => exact sq_r0 _ _
      | ⟨1, _⟩ => exact sq_r1 _ _)))

private theorem col_l0 (i : S4000x1.Idx) (q : dot_S4000x128_S128x1_S4000x1_1_0_0_1_n_n.contr.Idx) :
    (dot_S4000x128_S128x1_S4000x1_1_0_0_1_n_n.lhsIdx i q 0).val = (i 0).val := by
  unfold DotDims.lhsIdx
  rw [dif_neg (show ¬(0 : Fin S4000x128.rank) ∈ dot_S4000x128_S128x1_S4000x1_1_0_0_1_n_n.lhsBatch by decide), dif_pos (show (0 : Fin S4000x128.rank) ∈ dot_S4000x128_S128x1_S4000x1_1_0_0_1_n_n.lhsNonContracting by decide)]
  rfl
private theorem col_l1 (i : S4000x1.Idx) (q : dot_S4000x128_S128x1_S4000x1_1_0_0_1_n_n.contr.Idx) :
    (dot_S4000x128_S128x1_S4000x1_1_0_0_1_n_n.lhsIdx i q 1).val = (q ⟨0, by decide⟩).val :=
  dot_S4000x128_S128x1_S4000x1_1_0_0_1_n_n.lhsIdx_val_of_single rfl i q
private theorem col_r0 (i : S4000x1.Idx) (q : dot_S4000x128_S128x1_S4000x1_1_0_0_1_n_n.contr.Idx) :
    (dot_S4000x128_S128x1_S4000x1_1_0_0_1_n_n.rhsIdx i q 0).val = (q ⟨0, by decide⟩).val :=
  dot_S4000x128_S128x1_S4000x1_1_0_0_1_n_n.rhsIdx_val_of_single rfl i q
private theorem col_r1 (i : S4000x1.Idx) (q : dot_S4000x128_S128x1_S4000x1_1_0_0_1_n_n.contr.Idx) :
    (dot_S4000x128_S128x1_S4000x1_1_0_0_1_n_n.rhsIdx i q 1).val = (i 1).val := by
  unfold DotDims.rhsIdx
  rw [dif_neg (show ¬(1 : Fin S128x1.rank) ∈ dot_S4000x128_S128x1_S4000x1_1_0_0_1_n_n.rhsBatch by decide), dif_pos (show (1 : Fin S128x1.rank) ∈ dot_S4000x128_S128x1_S4000x1_1_0_0_1_n_n.rhsNonContracting by decide)]
  rfl

private theorem col_apply {φ₁ φ₂ : FTy} (x : FVec Ideal S4000x128 φ₁) (w : FVec Ideal S128x1 φ₂) (r : Fin 4000) (j : Fin 1) :
    matmul dot_S4000x128_S128x1_S4000x1_1_0_0_1_n_n none x w (constant (F := Ideal) S4000x1 .f32 0x00000000#32) (ix2 r j)
      = ∑ k : Fin 128, x (ix2 r k) * w (ix2 k j) := by
  show FloatOps.matmul dot_S4000x128_S128x1_S4000x1_1_0_0_1_n_n none x w (constant S4000x1 .f32 0x00000000#32) (ix2 r j) = _
  rw [Ideal.matmul_constant_zero_apply]
  exact Cert.Lib.contraction_sum dot_S4000x128_S128x1_S4000x1_1_0_0_1_n_n 128 rfl rfl x w (ix2 r j)
    (fun k => x (ix2 r k)) (fun k => w (ix2 k j))
    (fun q => congrArg x (funext fun a => Fin.ext (by
      match a with
      | ⟨0, _⟩ => exact col_l0 _ _
      | ⟨1, _⟩ => exact col_l1 _ _)))
    (fun q => congrArg w (funext fun a => Fin.ext (by
      match a with
      | ⟨0, _⟩ => exact col_r0 _ _
      | ⟨1, _⟩ => exact col_r1 _ _)))

/-! ## The column forms of the layout operations -/

/-- A vector of `a` numbers cast to an `a × 1` column reads, at `(i, u)`, the vector at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along the lanes to `a × b` reads, at `(p, c)`, the column at row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index over row `r` with lane `k` put back is `(r, k)`. -/
private theorem lift_lane (h : S4000x128.Reduces [1] S4000) (r : Fin 4000) (k : Fin 128) :
    h.lift (ix1 r) k = ix2 r k := by
  funext c
  match c with
  | ⟨0, _⟩ => exact Fin.ext rfl
  | ⟨1, _⟩ => exact Fin.ext rfl

/-! ## The four values the body reads, at an index -/

/-- The two node-row blocks pass through unchanged. -/
private theorem pay3_eq (x : Vec Ideal S4000x128 .f32) : k2_pay3 (F := Ideal) x = x := by
  unfold k2_pay3
  exact shapeCast_self _ _

private theorem pay4_eq (x : Vec Ideal S4000x128 .f32) : k2_pay4 (F := Ideal) x = x := by
  unfold k2_pay4
  exact shapeCast_self _ _

/-- The column of row-wise inner products. -/
private theorem pay5_apply (x2 x3 : Vec Ideal S4000x128 .f32) (r : Fin 4000) (u : Fin 1) :
    k2_pay5 (F := Ideal) x2 x3 (ix2 r u) = ∑ k : Fin 128, x2 (ix2 r k) * x3 (ix2 r k) := by
  unfold k2_pay5
  rw [pay3_eq, pay4_eq]
  refine (shapeCast_a_a1_apply _ _ r u).trans ?_
  refine (Ideal.multiReduction_add_single _ _ _ _ _ _).trans ?_
  refine Finset.sum_congr rfl fun k _ => ?_
  exact congrArg (fun i => x2 i * x3 i) (lift_lane reduces_S4000x128_S4000 r k)

/-- The column of curvatures: a rectified layer over the two curvature rows, one output column, plus the bias. -/
private theorem pay2_apply (x0 x1 : Vec Ideal S4000x128 .f32) (x4 x5 : Vec Ideal S128x128 .f32) (x6 : Vec Ideal S1x128 .f32)
    (x7 : Vec Ideal S128x1 .f32) (x8 : Vec Ideal S1x1 .f32) (r : Fin 4000) :
    k2_pay2 (F := Ideal) x0 x1 x4 x5 x6 x7 x8 (ix2 r (0 : Fin 1))
      = curvScalar (mat x4) (mat x5) (row1 x6) (col1 x7) (x8 (ix2 (0 : Fin 1) (0 : Fin 1))) (rowOf x0 r) (rowOf x1 r) := by
  unfold k2_pay2
  simp only [shapeCast_self]
  rw [addf_apply, col_apply, broadcastTo_1b_ab_apply]
  unfold curvScalar
  refine congrArg (· + x8 (ix2 (0 : Fin 1) (0 : Fin 1))) (Finset.sum_congr rfl fun k _ => ?_)
  refine congrArg (· * x7 (ix2 k (0 : Fin 1))) ?_
  rw [truncf_apply, maximumf_apply, addf_apply, addf_apply, sq_apply, sq_apply, broadcastTo_1b_ab_apply, broadcast_apply]
  unfold hiddenRow
  show max _ (Ideal.ofBits .f32 0x00000000#32) = _
  rw [Ideal.ofBits_zero_f32]
  rfl

/-- The body's one stored value is the block of damped messages. -/
theorem pay2_eq (x0 x1 x2 x3 : Vec Ideal S4000x128 .f32) (x4 x5 : Vec Ideal S128x128 .f32) (x6 : Vec Ideal S1x128 .f32)
    (x7 : Vec Ideal S128x1 .f32) (x8 : Vec Ideal S1x1 .f32) :
    k2_pay1 (F := Ideal) (k2_pay2 x0 x1 x4 x5 x6 x7 x8) (k2_pay3 x2) (k2_pay4 x3) (k2_pay5 x2 x3)
      = edgeRows (n := 4000) x0 x1 x2 x3 x4 x5 x6 x7 x8 := by
  funext i
  obtain ⟨r, d, rfl⟩ : ∃ (r : Fin 4000) (d : Fin 128), i = ix2 r d := ⟨i 0, i 1, eq_ix2 i⟩
  rw [edgeRows_apply, pay3_eq, pay4_eq]
  unfold k2_pay1
  show broadcastTo S4000x128 (k2_pay2 x0 x1 x4 x5 x6 x7 x8) broadcasts_S4000x1_S4000x128 (ix2 r d)
      * (x3 (ix2 r d) - broadcastTo S4000x128 (k2_pay5 x2 x3) broadcasts_S4000x1_S4000x128 (ix2 r d) * x2 (ix2 r d)) = _
  rw [broadcastTo_a1_ab_apply, broadcastTo_a1_ab_apply, pay2_apply, pay5_apply]
  rfl

end Cert.KernelIdeal.Body

end
-- ==== Proof.Region2.lean ====
/-
  The message pallas_call over its grid of 200 blocks of 4000 edges: the four edge arrays move block by block with the
  result, the five weight and bias arrays are whole at every point, and the body is row-wise — so the array after the run
  is the damped messages of all 800000 edges.
-/
import proofs.«420050_j76647986365056_1_alg».proof.Proof.Gen.KernelIdeal.Frame
import proofs.«420050_j76647986365056_1_alg».proof.Proof.Body2
import proofs.«420050_j76647986365056_1_alg».proof.Proof.Rows
import Idealize.ShloMosaic.PureOps.Ideal
import Idealize.ShloMosaic.Lib.ValueIdx
import Idealize.ShloMosaic.Lib.Pipeline.Value

set_option maxRecDepth 16384

noncomputable section

namespace Cert.KernelIdeal.Region

open Cert.KernelIdeal Cert.KernelIdeal.Gen Cert.Curv
open Idealize.ShloMosaic Idealize.ShloMosaic.TcCoe Idealize.ShloMosaic.ValueIdx Idealize.SL.Sem

/- The TensorCore's buffer contents when the region is entered, whatever they are. -/
variable (V : (c : Dev nD) → (b : Ref sig .tc) → Buf (Elt Ideal) ((c : Thread nD τ).loc b))

/-- The zero offsets of a whole-buffer access. -/
private theorem zero_off2 : (![0, 0] : Fin 2 → Nat) = fun _ => 0 := funext fun a => by fin_cases a <;> rfl

private theorem point_lt2 (t : Fin cfg2.N) : t.val < 200 := t.isLt.trans_eq N_2

/-- The printed index maps over the grid: the four edge arrays and the result move with the point along the rows,
    the weights and biases stay at block (0, 0). -/
private theorem index_maps2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

/-- Row `y` of window 0's block at point `t` is row `4000 t + y` of its array. -/
private theorem blk2_0 (c : Dev nD) (t : Fin cfg2.N) (y : Fin 4000) (k : Fin 128) :
    (iblk2 V c 0 t : Vec Ideal S4000x128 .f32) (ix2 y k)
      = (V c main_v15 : S800000x128.Idx → EReal) (ix2 ⟨t.val * 4000 + y.val, by have := point_lt2 t; omega⟩ k) := by
  obtain ⟨e0, e1, -⟩ := index_maps2 t
  show V c main_v15 (((cfg2.win 0).blk t).view.emb (ix2 y k)) = _
  congr 1
  funext a
  apply Fin.ext
  match a with
  | ⟨0, _⟩ => show win2_0.index t (0 : Fin 2) * 4000 + 1 * y.val = t.val * 4000 + y.val; omega
  | ⟨1, _⟩ => show win2_0.index t (1 : Fin 2) * 128 + 1 * k.val = k.val; omega

/-- Row `y` of window 1's block at point `t` is row `4000 t + y` of its array. -/
private theorem blk2_1 (c : Dev nD) (t : Fin cfg2.N) (y : Fin 4000) (k : Fin 128) :
    (iblk2 V c 1 t : Vec Ideal S4000x128 .f32) (ix2 y k)
      = (V c main_v16 : S800000x128.Idx → EReal) (ix2 ⟨t.val * 4000 + y.val, by have := point_lt2 t; omega⟩ k) := by
  obtain ⟨-, -, e0, e1, -⟩ := index_maps2 t
  show V c main_v16 (((cfg2.win 1).blk t).view.emb (ix2 y k)) = _
  congr 1
  funext a
  apply Fin.ext
  match a with
  | ⟨0, _⟩ => show win2_1.index t (0 : Fin 2) * 4000 + 1 * y.val = t.val * 4000 + y.val; omega
  | ⟨1, _⟩ => show win2_1.index t (1 : Fin 2) * 128 + 1 * k.val = k.val; omega

/-- Row `y` of window 2's block at point `t` is row `4000 t + y` of its array. -/
private theorem blk2_2 (c : Dev nD) (t : Fin cfg2.N) (y : Fin 4000) (k : Fin 128) :
    (iblk2 V c 2 t : Vec Ideal S4000x128 .f32) (ix2 y k)
      = (V c main_v5 : S800000x128.Idx → EReal) (ix2 ⟨t.val * 4000 + y.val, by have := point_lt2 t; omega⟩ k) := by
  obtain ⟨-, -, -, -, e0, e1, -⟩ := index_maps2 t
  show V c main_v5 (((cfg2.win 2).blk t).view.emb (ix2 y k)) = _
  congr 1
  funext a
  apply Fin.ext
  match a with
  | ⟨0, _⟩ => show win2_2.index t (0 : Fin 2) * 4000 + 1 * y.val = t.val * 4000 + y.val; omega
  | ⟨1, _⟩ => show win2_2.index t (1 : Fin 2) * 128 + 1 * k.val = k.val; omega

/-- Row `y` of window 3's block at point `t` is row `4000 t + y` of its array. -/
private theorem blk2_3 (c : Dev nD) (t : Fin cfg2.N) (y : Fin 4000) (k : Fin 128) :
    (iblk2 V c 3 t : Vec Ideal S4000x128 .f32) (ix2 y k)
      = (V c main_v6 : S800000x128.Idx → EReal) (ix2 ⟨t.val * 4000 + y.val, by have := point_lt2 t; omega⟩ k) := by
  obtain ⟨-, -, -, -, -, -, e0, e1, -⟩ := index_maps2 t
  show V c main_v6 (((cfg2.win 3).blk t).view.emb (ix2 y k)) = _
  congr 1
  funext a
  apply Fin.ext
  match a with
  | ⟨0, _⟩ => show win2_3.index t (0 : Fin 2) * 4000 + 1 * y.val = t.val * 4000 + y.val; omega
  | ⟨1, _⟩ => show win2_3.index t (1 : Fin 2) * 128 + 1 * k.val = k.val; omega

/-- Window 4 is whole: its block at any point is its array. -/
private theorem blk2_4 (c : Dev nD) (t : Fin cfg2.N) :
    (iblk2 V c 4 t : Vec Ideal S128x128 .f32) = (V c main_v17 : S128x128.Idx → EReal) := by
  obtain ⟨-, -, -, -, -, -, -, -, e0, e1, -⟩ := index_maps2 t
  funext j
  show V c main_v17 (((cfg2.win 4).blk t).view.emb j) = _
  congr 1
  funext a
  apply Fin.ext
  match a with
  | ⟨0, _⟩ => show win2_4.index t (0 : Fin 2) * 128 + 1 * (j 0).val = (j 0).val; omega
  | ⟨1, _⟩ => show win2_4.index t (1 : Fin 2) * 128 + 1 * (j 1).val = (j 1).val; omega

/-- Window 5 is whole: its block at any point is its array. -/
private theorem blk2_5 (c : Dev nD) (t : Fin cfg2.N) :
    (iblk2 V c 5 t : Vec Ideal S128x128 .f32) = (V c main_v18 : S128x128.Idx → EReal) := by
  obtain ⟨-, -, -, -, -, -, -, -, -, -, e0, e1, -⟩ := index_maps2 t
  funext j
  show V c main_v18 (((cfg2.win 5).blk t).view.emb j) = _
  congr 1
  funext a
  apply Fin.ext
  match a with
  | ⟨0, _⟩ => show win2_5.index t (0 : Fin 2) * 128 + 1 * (j 0).val = (j 0).val; omega
  | ⟨1, _⟩ => show win2_5.index t (1 : Fin 2) * 128 + 1 * (j 1).val = (j 1).val; omega

/-- Window 6 is whole: its block at any point is its array. -/
private theorem blk2_6 (c : Dev nD) (t : Fin cfg2.N) :
    (iblk2 V c 6 t : Vec Ideal S1x128 .f32) = (V c main_v19 : S1x128.Idx → EReal) := by
  obtain ⟨-, -, -, -, -, -, -, -, -, -, -, -, e0, e1, -⟩ := index_maps2 t
  funext j
  show V c main_v19 (((cfg2.win 6).blk t).view.emb j) = _
  congr 1
  funext a
  apply Fin.ext
  match a with
  | ⟨0, _⟩ => show win2_6.index t (0 : Fin 2) * 1 + 1 * (j 0).val = (j 0).val; omega
  | ⟨1, _⟩ => show win2_6.index t (1 : Fin 2) * 128 + 1 * (j 1).val = (j 1).val; omega

/-- Window 7 is whole: its block at any point is its array. -/
private theorem blk2_7 (c : Dev nD) (t : Fin cfg2.N) :
    (iblk2 V c 7 t : Vec Ideal S128x1 .f32) = (V c main_arg9 : S128x1.Idx → EReal) := by
  obtain ⟨-, -, -, -, -, -, -, -, -, -, -, -, -, -, e0, e1, -⟩ := index_maps2 t
  funext j
  show V c main_arg9 (((cfg2.win 7).blk t).view.emb j) = _
  congr 1
  funext a
  apply Fin.ext
  match a with
  | ⟨0, _⟩ => show win2_7.index t (0 : Fin 2) * 128 + 1 * (j 0).val = (j 0).val; omega
  | ⟨1, _⟩ => show win2_7.index t (1 : Fin 2) * 1 + 1 * (j 1).val = (j 1).val; omega

/-- Window 8 is whole: its block at any point is its array. -/
private theorem blk2_8 (c : Dev nD) (t : Fin cfg2.N) :
    (iblk2 V c 8 t : Vec Ideal S1x1 .f32) = (V c main_v20 : S1x1.Idx → EReal) := by
  obtain ⟨-, -, -, -, -, -, -, -, -, -, -, -, -, -, -, -, e0, e1, -⟩ := index_maps2 t
  funext j
  show V c main_v20 (((cfg2.win 8).blk t).view.emb j) = _
  congr 1
  funext a
  apply Fin.ext
  match a with
  | ⟨0, _⟩ => show win2_8.index t (0 : Fin 2) * 1 + 1 * (j 0).val = (j 0).val; omega
  | ⟨1, _⟩ => show win2_8.index t (1 : Fin 2) * 1 + 1 * (j 1).val = (j 1).val; omega

/-- Where the result window's block at point `t` puts its row `y`: at row `4000 t + y` of the array. -/
private theorem emb2_9 (t : Fin cfg2.N) (y : Fin 4000) (k : Fin 128) :
    (((cfg2.win 9).blk t).view.emb (ix2 y k) : S800000x128.Idx)
      = ix2 ⟨t.val * 4000 + y.val, by have := point_lt2 t; omega⟩ k := by
  obtain ⟨-, -, -, -, -, -, -, -, -, -, -, -, -, -, -, -, -, -, e0, e1⟩ := index_maps2 t
  funext a
  apply Fin.ext
  match a with
  | ⟨0, _⟩ => show win2_9.index t (0 : Fin 2) * 4000 + 1 * y.val = t.val * 4000 + y.val; omega
  | ⟨1, _⟩ => show win2_9.index t (1 : Fin 2) * 128 + 1 * k.val = k.val; omega

/-- What point `t` writes back is block `t` of the damped messages of the whole arrays. -/
private theorem flushed2_9 (c : Dev nD) (t : Fin cfg2.N) :
    (dat2 V c).flushed 9 t = ((cfg2.win 9).blk t).view.read (Elt Ideal)
      (edgeRows (n := 800000) (V c main_v15) (V c main_v16) (V c main_v5) (V c main_v6) (V c main_v17) (V c main_v18) (V c main_v19)
        (V c main_arg9) (V c main_v20)) := by
  show (cfg2.win 9).cut (grid2.coords t) ((dat2 V c).after 9 t) = _
  rw [after2_9]
  unfold out2_9
  rw [View.canon_unit_zero zero_off2]
  simp only [View.ld_unit_zero (S := S4000x128) zero_off2, View.ld_unit_zero (S := S128x128) zero_off2,
    View.ld_unit_zero (S := S1x128) zero_off2, View.ld_unit_zero (S := S128x1) zero_off2,
    View.ld_unit_zero (S := S1x1) zero_off2]
  rw [Body.pay2_eq]
  funext y
  obtain ⟨p, q, rfl⟩ : ∃ (p : Fin 4000) (q : Fin 128), (y : S4000x128.Idx) = ix2 p q := ⟨_, _, eq_ix2 y⟩
  show edgeRows (n := 4000) (iblk2 V c 0 t) (iblk2 V c 1 t) (iblk2 V c 2 t) (iblk2 V c 3 t) (iblk2 V c 4 t) (iblk2 V c 5 t)
      (iblk2 V c 6 t) (iblk2 V c 7 t) (iblk2 V c 8 t) (ix2 p q)
    = edgeRows (n := 800000) (V c main_v15) (V c main_v16) (V c main_v5) (V c main_v6) (V c main_v17) (V c main_v18) (V c main_v19)
        (V c main_arg9) (V c main_v20) (((cfg2.win 9).blk t).view.emb (ix2 p q))
  rw [emb2_9, edgeRows_apply, edgeRows_apply, blk2_4 V c t, blk2_5 V c t, blk2_6 V c t, blk2_7 V c t, blk2_8 V c t]
  have r0 : rowOf (n := 4000) (iblk2 V c 0 t) p
      = rowOf (n := 800000) (V c main_v15) ⟨t.val * 4000 + p.val, by have := point_lt2 t; omega⟩ :=
    funext fun k => blk2_0 V c t p k
  have r1 : rowOf (n := 4000) (iblk2 V c 1 t) p
      = rowOf (n := 800000) (V c main_v16) ⟨t.val * 4000 + p.val, by have := point_lt2 t; omega⟩ :=
    funext fun k => blk2_1 V c t p k
  have r2 : rowOf (n := 4000) (iblk2 V c 2 t) p
      = rowOf (n := 800000) (V c main_v5) ⟨t.val * 4000 + p.val, by have := point_lt2 t; omega⟩ :=
    funext fun k => blk2_2 V c t p k
  have r3 : rowOf (n := 4000) (iblk2 V c 3 t) p
      = rowOf (n := 800000) (V c main_v6) ⟨t.val * 4000 + p.val, by have := point_lt2 t; omega⟩ :=
    funext fun k => blk2_3 V c t p k
  rw [r0, r1, r2, r3]

/-- An index of the result array is in point `t`'s block iff each coordinate is in the block's range on its axis. -/
private theorem mem_blk2_9 (t : Fin cfg2.N) (i : S800000x128.Idx) :
    i ∈ ((cfg2.win 9).blk t).view.set ↔ ∀ a : Fin 2, win2_9.index t a * S4000x128.size a ≤ (i a).val
      ∧ (i a).val < win2_9.index t a * S4000x128.size a + S4000x128.size a := by
  show i ∈ ((View.whole main_v21).slice (win2_9.rect t)).set ↔ _
  rw [View.set_slice_whole, Rect.mem_set_unit]
  exact Iff.rfl

/-- Every index of the result array is in the block of the point its row falls in, row `r` in point `r / 4000`. -/
private theorem all_covered2 (i : S800000x128.Idx) :
    ∃ t : Fin cfg2.N, (cfg2.win 9).flush t = true ∧ i ∈ ((cfg2.win 9).blk t).view.set := by
  have hi0 : (i 0).val < 800000 := (i 0).isLt
  have hi1 : (i 1).val < 128 := (i 1).isLt
  have ht : (i 0).val / 4000 < cfg2.N := by rw [show cfg2.N = 200 from N_2]; omega
  obtain ⟨-, -, -, -, -, -, -, -, -, -, -, -, -, -, -, -, -, -, e0, e1⟩ := index_maps2 ⟨(i 0).val / 4000, ht⟩
  refine ⟨⟨(i 0).val / 4000, ht⟩, flush2_9 _, ?_⟩
  rw [mem_blk2_9]
  intro a
  match a with
  | ⟨0, _⟩ =>
    show win2_9.index ⟨(i 0).val / 4000, ht⟩ (0 : Fin 2) * 4000 ≤ (i 0).val
      ∧ (i 0).val < win2_9.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win2_9.index ⟨(i 0).val / 4000, ht⟩ (1 : Fin 2) * 128 ≤ (i 1).val
      ∧ (i 1).val < win2_9.index ⟨(i 0).val / 4000, ht⟩ (1 : Fin 2) * 128 + 128
    rw [e1]; omega

/-- The result array after the region. -/
theorem region2 (c : Dev nD) : (dat2 V c).arrAt 9 cfg2.N
    = edgeRows (n := 800000) (V c main_v15) (V c main_v16) (V c main_v5) (V c main_v6) (V c main_v17) (V c main_v18) (V c main_v19)
        (V c main_arg9) (V c main_v20) :=
  (dat2 V c).arrAt_eq_of_cover 9 _ (fun t _ => flushed2_9 V c t) all_covered2

end Cert.KernelIdeal.Region

end
-- ==== Proof.Body3.lean ====
/-
  The finishing kernel's body on a block of 5000 nodes: every summed row divided by the larger of the node's edge count
  and one, then made a unit row.
-/
import proofs.«420050_j76647986365056_1_alg».proof.Proof.Gen.KernelIdeal.Skeleton
import proofs.«420050_j76647986365056_1_alg».proof.Proof.Rows
import proofs.«420050_j76647986365056_1_alg».proof.Proof.LibDenseLayer
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Cert.Curv Idealize.ShloMosaic Idealize.ShloMosaic.ValueIdx
open scoped BigOperators

/-- A column `[a, 1]` broadcast to `[a, b]` reads, at `(p, c)`, the column's entry of row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`, whatever the unit coordinate. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the lanes of a `5000 × 128` block, at row `r`, is the sum of that row's 128 entries. -/
private theorem laneSum_apply (src : FVec Ideal S5000x128 .f32) (h : S5000x128.Reduces [1] S5000)
    (hφ : FKind.Formats .f32) (hacc : (0x00000000#32 : BitVec 32) = FKind.add.neutral .f32 hφ) (r : Fin 5000) :
    multiReduction .add [1] S5000 src 0x00000000#32 h hφ hacc (ix1 r) = ∑ k : Fin 128, src (ix2 r k) := by
  refine (Ideal.multiReduction_add_single src 0x00000000#32 h hφ hacc (ix1 r)).trans ?_
  show (∑ k : Fin 128, src (h.lift (ix1 r) k)) = _
  refine Finset.sum_congr rfl fun k _ => congrArg src ?_
  funext c
  refine Fin.ext ?_
  match c with
  | ⟨0, _⟩ => rfl
  | ⟨1, _⟩ => rfl

/-- The mean step of the body: every summed row divided by the larger of the node's edge count and one. -/
private def meanBlock (x0 : Vec Ideal S5000x128 .f32) (x1 : Vec Ideal S5000x1 .f32) : FVec Ideal S5000x128 .f32 :=
  divf (shapeCast S5000x128 x0 shapeCasts_S5000x128_S5000x128 : FVec Ideal S5000x128 .f32)
    (broadcastTo S5000x128
      (maximumf (shapeCast S5000x1 x1 shapeCasts_S5000x1_S5000x1 : FVec Ideal S5000x1 .f32)
        (broadcast S5000x1 (Scalar.ofBits (F := Ideal) .f32 0x3F800000#32)))
      broadcasts_S5000x1_S5000x128)

/-- The mean step at an index: the summed entry divided by `max count 1`. -/
private theorem meanBlock_apply (x0 : Vec Ideal S5000x128 .f32) (x1 : Vec Ideal S5000x1 .f32) (r : Fin 5000) (k : Fin 128) :
    meanBlock x0 x1 (ix2 r k) = Ideal.div (x0 (ix2 r k)) (max (x1 (ix2 r (0 : Fin 1))) one) := by
  have e0 : shapeCast S5000x128 x0 shapeCasts_S5000x128_S5000x128 = x0 := shapeCast_self x0 _
  have e1 : shapeCast S5000x1 x1 shapeCasts_S5000x1_S5000x1 = x1 := shapeCast_self x1 _
  unfold meanBlock
  rw [e0, e1]
  show Ideal.div (x0 (ix2 r k)) (broadcastTo S5000x128 _ broadcasts_S5000x1_S5000x128 (ix2 r k)) = _
  refine congrArg (Ideal.div (x0 (ix2 r k))) ?_
  exact broadcastTo_a1_ab_apply _ _ r k

/-- The normalization step of the body on an arbitrary block: every row made a unit row. (The finishing kernel's
    operations after the mean step are, operation for operation, the row-normalizing kernel's body.) -/
private theorem unitBlock_eq (y : FVec Ideal S5000x128 .f32) : k0_pay1 (F := Ideal) y = unitRows (n := 5000) y := by
  funext i
  obtain ⟨r, d, rfl⟩ : ∃ (r : Fin 5000) (d : Fin 128), i = ix2 r d := ⟨i 0, i 1, eq_ix2 i⟩
  rw [unitRows_apply]
  unfold unitRow k0_pay1
  show Ideal.div (y (ix2 r d)) (broadcastTo S5000x128 _ broadcasts_S5000x1_S5000x128 (ix2 r d)) = _
  refine congrArg (Ideal.div (y (ix2 r d))) ?_
  refine (broadcastTo_a1_ab_apply _ _ r d).trans ?_
  show Ideal.sqrt (shapeCast S5000x1 _ shapeCasts_S5000_S5000x1 (ix2 r (0 : Fin 1))) + eps = _
  refine congrArg (fun t => Ideal.sqrt t + eps) ?_
  refine (shapeCast_a_a1_apply _ _ r 0).trans ?_
  refine (laneSum_apply _ _ _ _ r).trans ?_
  rfl

/-- The body's one stored value is the block of mean rows made unit rows. -/
theorem pay3_eq (x0 : Vec Ideal S5000x128 .f32) (x1 : Vec Ideal S5000x1 .f32) :
    k3_pay1 (F := Ideal) x0 x1 = meanUnitRows (n := 5000) x0 x1 := by
  funext i
  obtain ⟨r, d, rfl⟩ : ∃ (r : Fin 5000) (d : Fin 128), i = ix2 r d := ⟨i 0, i 1, eq_ix2 i⟩
  rw [meanUnitRows_apply]
  unfold meanUnitRow
  show k0_pay1 (F := Ideal) (meanBlock x0 x1) (ix2 r d) = _
  refine (congrFun (unitBlock_eq (meanBlock x0 x1)) (ix2 r d)).trans ?_
  rw [unitRows_apply]
  refine congrFun (congrArg unitRow (funext fun k => ?_)) d
  exact meanBlock_apply x0 x1 r k

end Cert.KernelIdeal.Body

end
-- ==== Proof.Region3.lean ====
/-
  The finishing pallas_call over its grid of 10 blocks of 5000 nodes: the summed rows and the edge counts move block by
  block with the result, and the body is row-wise — so the array after the run is every node's mean row made a unit row.
-/
import proofs.«420050_j76647986365056_1_alg».proof.Proof.Gen.KernelIdeal.Frame
import proofs.«420050_j76647986365056_1_alg».proof.Proof.Body3
import proofs.«420050_j76647986365056_1_alg».proof.Proof.Rows
import Idealize.ShloMosaic.PureOps.Ideal
import Idealize.ShloMosaic.Lib.ValueIdx
import Idealize.ShloMosaic.Lib.Pipeline.Value

set_option maxRecDepth 16384

noncomputable section

namespace Cert.KernelIdeal.Region

open Cert.KernelIdeal Cert.KernelIdeal.Gen Cert.Curv
open Idealize.ShloMosaic Idealize.ShloMosaic.TcCoe Idealize.ShloMosaic.ValueIdx Idealize.SL.Sem

/- The TensorCore's buffer contents when the region is entered, whatever they are. -/
variable (V : (c : Dev nD) → (b : Ref sig .tc) → Buf (Elt Ideal) ((c : Thread nD τ).loc b))

/-- The offsets of an access to a whole staging buffer are zero on both axes. -/
private theorem zero_offsets : (![0, 0] : Fin 2 → Nat) = fun _ => 0 := funext fun a => by fin_cases a <;> rfl

/-- At point `t` all three windows sit at block `t` of rows and at the one block of columns. -/
private theorem block_index : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- Row `y` of the block of summed rows at point `t` is row `5000 t + y` of the array of summed rows. -/
private theorem sums_read (c : Dev nD) (t : Fin cfg3.N) (y : Fin 5000) (k : Fin 128) (h : t.val * 5000 + y.val < 50000) :
    iblk3 V c 0 t (ix2 y k) = (V c main_v24 : S50000x128.Idx → EReal) (ix2 ⟨t.val * 5000 + y.val, h⟩ k) := by
  obtain ⟨e0, e1, -, -, -, -⟩ := block_index t
  show (V c main_v24 : S50000x128.Idx → EReal) (((cfg3.win 0).blk t).view.emb (ix2 y k)) = _
  congr 1
  funext a
  apply Fin.ext
  match a with
  | ⟨0, _⟩ => show win3_0.index t (0 : Fin 2) * 5000 + 1 * y.val = t.val * 5000 + y.val; rw [e0]; omega
  | ⟨1, _⟩ => show win3_0.index t (1 : Fin 2) * 128 + 1 * k.val = k.val; rw [e1]; omega

/-- Entry `y` of the block of edge counts at point `t` is entry `5000 t + y` of the array of edge counts. -/
private theorem counts_read (c : Dev nD) (t : Fin cfg3.N) (y : Fin 5000) (k : Fin 1) (h : t.val * 5000 + y.val < 50000) :
    iblk3 V c 1 t (ix2 y k) = (V c main_v28 : S50000x1.Idx → EReal) (ix2 ⟨t.val * 5000 + y.val, h⟩ k) := by
  obtain ⟨-, -, e0, e1, -, -⟩ := block_index t
  show (V c main_v28 : S50000x1.Idx → EReal) (((cfg3.win 1).blk t).view.emb (ix2 y k)) = _
  congr 1
  funext a
  apply Fin.ext
  match a with
  | ⟨0, _⟩ => show win3_1.index t (0 : Fin 2) * 5000 + 1 * y.val = t.val * 5000 + y.val; rw [e0]; omega
  | ⟨1, _⟩ => show win3_1.index t (1 : Fin 2) * 1 + 1 * k.val = k.val; rw [e1]; omega

/-- What point `t` writes back is block `t` of the array of mean rows made unit rows. -/
private theorem flushed_eq (c : Dev nD) (t : Fin cfg3.N) :
    (dat3 V c).flushed 2 t
      = ((cfg3.win 2).blk t).view.read (Elt Ideal) (meanUnitRows (n := 50000) (V c main_v24) (V c main_v28)) := by
  show (cfg3.win 2).cut (grid3.coords t) ((dat3 V c).after 2 t) = _
  rw [after3_2]
  unfold out3_2
  rw [View.canon_unit_zero zero_offsets]
  simp only [View.ld_unit_zero (S := S5000x128) zero_offsets, View.ld_unit_zero (S := S5000x1) zero_offsets]
  rw [Body.pay3_eq]
  funext y
  obtain ⟨r, d, rfl⟩ : ∃ (r : Fin 5000) (d : Fin 128), y = ix2 r d := ⟨y 0, y 1, eq_ix2 y⟩
  have ht : t.val < 10 := t.isLt
  have hr : t.val * 5000 + r.val < 50000 := by have := r.isLt; omega
  have hemb : ((cfg3.win 2).blk t).view.emb (ix2 r d) = (ix2 ⟨t.val * 5000 + r.val, hr⟩ d : S50000x128.Idx) := by
    obtain ⟨-, -, -, -, e0, e1⟩ := block_index t
    funext a
    apply Fin.ext
    match a with
    | ⟨0, _⟩ => show win3_2.index t (0 : Fin 2) * 5000 + 1 * r.val = t.val * 5000 + r.val; rw [e0]; omega
    | ⟨1, _⟩ => show win3_2.index t (1 : Fin 2) * 128 + 1 * d.val = d.val; rw [e1]; omega
  show meanUnitRows (n := 5000) (iblk3 V c 0 t) (iblk3 V c 1 t) (ix2 r d)
    = meanUnitRows (n := 50000) (V c main_v24) (V c main_v28) (((cfg3.win 2).blk t).view.emb (ix2 r d))
  rw [hemb, meanUnitRows_apply, meanUnitRows_apply]
  have hrow : rowOf (n := 5000) (iblk3 V c 0 t) r = rowOf (n := 50000) (V c main_v24) ⟨t.val * 5000 + r.val, hr⟩ :=
    funext fun k => sums_read V c t r k hr
  rw [hrow, counts_read V c t r (0 : Fin 1) hr]

/-- An index of the array is in point `t`'s block iff each coordinate is in the block's range on its axis. -/
private theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v29).slice (win3_2.rect t)).set ↔ _
  rw [View.set_slice_whole, Rect.mem_set_unit]
  exact Iff.rfl

/-- Every row of the array lies in the block of the point `row / 5000`. -/
private theorem covered (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨-, -, -, -, e0, e1⟩ := block_index t
  have ht : t.val = (i 0).val / 5000 := rfl
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; rw [e0, ht]; omega
  | ⟨1, _⟩ => show win3_2.index t (1 : Fin 2) * 128 ≤ (i 1).val ∧ (i 1).val < win3_2.index t (1 : Fin 2) * 128 + 128; rw [e1]; omega

/-- The result array after the region. -/
theorem region3 (c : Dev nD) : (dat3 V c).arrAt 2 cfg3.N = meanUnitRows (n := 50000) (V c main_v24) (V c main_v28) :=
  (dat3 V c).arrAt_eq_of_cover 2 (meanUnitRows (n := 50000) (V c main_v24) (V c main_v28))
    (fun t _ => flushed_eq V c t) covered

end Cert.KernelIdeal.Region

end
-- ==== Proof.KernelValueB.lean ====
/-
  The second half of the walk through @main: from the exit of the first curvature pallas_call to the result. Given what
  the buffers hold at that boundary, the result is the finishing stage of the edge messages summed at their source nodes
  and of the edge counts, the messages the message stage of rows fetched from the summed curvature rows and of the
  node rows fetched before.
-/
import proofs.«420050_j76647986365056_1_alg».proof.Proof.Gen.KernelIdeal.Frame
import proofs.«420050_j76647986365056_1_alg».proof.Proof.Region2
import proofs.«420050_j76647986365056_1_alg».proof.Proof.Region3
import proofs.«420050_j76647986365056_1_alg».proof.Proof.KernelTerm
import Idealize.ShloMosaic.Lib.StableHlo.Run

set_option maxRecDepth 16384

noncomputable section

namespace Cert.KernelIdeal.Chain

open Cert.KernelIdeal Cert.KernelIdeal.Gen Cert.Curv
open Idealize.ShloMosaic Idealize.ShloMosaic.TcCoe Idealize.SL.Sem

/-! ## Reading a typed reference

The operations of an inlined function are stated over references that carry the type of the value they hold; each moves
its function's arguments and value between that type and the buffer's own along an equation of types. Read at the
value's type, an operation's result is its function of its operands read the same way, and the transports cancel. -/

section TypedRead

variable {T Ta Tb Tc Tx Ty : BufTy}

/-- The contents of a typed reference's buffer, at the type of the value it holds. -/
private def rd (V : Valuation τ sig (Elt Ideal)) (x : StableHlo.TRef sig T) : T.Contents (Elt Ideal) :=
  x.ofBuf (V (Proc.devRef .tc x.ref))

private theorem ofBuf_toBuf (y : StableHlo.TRef sig T) (v : T.Contents (Elt Ideal)) : y.ofBuf (y.toBuf v) = v := by
  obtain ⟨r, rfl, _, _⟩ := y; rfl

private theorem rd_nullary' (y : StableHlo.TRef sig Ty) (v : Ty.Contents (Elt Ideal)) (V : Valuation τ sig (Elt Ideal)) :
    rd ((StableHlo.TRef.nullary y v).result V) y = v := by
  unfold rd; rw [StableHlo.nullary_result]; exact ofBuf_toBuf y v

private theorem rd_unary' (x : StableHlo.TRef sig Tx) (y : StableHlo.TRef sig Ty) (f : Tx.Contents (Elt Ideal) → Ty.Contents (Elt Ideal))
    (V : Valuation τ sig (Elt Ideal)) :
    rd ((StableHlo.TRef.unary x y f).result V) y = f (rd V x) := by
  unfold rd; rw [StableHlo.unary_result]; exact ofBuf_toBuf y _

private theorem rd_binary' (a : StableHlo.TRef sig Ta) (b : StableHlo.TRef sig Tb) (y : StableHlo.TRef sig Ty)
    (f : Ta.Contents (Elt Ideal) → Tb.Contents (Elt Ideal) → Ty.Contents (Elt Ideal)) (V : Valuation τ sig (Elt Ideal)) :
    rd ((StableHlo.TRef.binary a b y f).result V) y = f (rd V a) (rd V b) := by
  unfold rd; rw [StableHlo.binary_result]; exact ofBuf_toBuf y _

private theorem rd_ternary' (c : StableHlo.TRef sig Tc) (a : StableHlo.TRef sig Ta) (b : StableHlo.TRef sig Tb) (y : StableHlo.TRef sig Ty)
    (f : Tc.Contents (Elt Ideal) → Ta.Contents (Elt Ideal) → Tb.Contents (Elt Ideal) → Ty.Contents (Elt Ideal)) (V : Valuation τ sig (Elt Ideal)) :
    rd ((StableHlo.TRef.ternary c a b y f).result V) y = f (rd V c) (rd V a) (rd V b) := by
  unfold rd; rw [StableHlo.ternary_result]; exact ofBuf_toBuf y _

private theorem rd_nullary_ne' (r : StableHlo.TRef sig T) (y : StableHlo.TRef sig Ty) (v : Ty.Contents (Elt Ideal)) (V : Valuation τ sig (Elt Ideal))
    (h : r.ref ≠ y.ref) : rd ((StableHlo.TRef.nullary y v).result V) r = rd V r := by
  unfold rd; rw [StableHlo.nullary_result_ne]; exact h

private theorem rd_unary_ne' (r : StableHlo.TRef sig T) (x : StableHlo.TRef sig Tx) (y : StableHlo.TRef sig Ty) (f : Tx.Contents (Elt Ideal) → Ty.Contents (Elt Ideal))
    (V : Valuation τ sig (Elt Ideal)) (h : r.ref ≠ y.ref) : rd ((StableHlo.TRef.unary x y f).result V) r = rd V r := by
  unfold rd; rw [StableHlo.unary_result_ne]; exact h

private theorem rd_binary_ne' (r : StableHlo.TRef sig T) (a : StableHlo.TRef sig Ta) (b : StableHlo.TRef sig Tb) (y : StableHlo.TRef sig Ty)
    (f : Ta.Contents (Elt Ideal) → Tb.Contents (Elt Ideal) → Ty.Contents (Elt Ideal)) (V : Valuation τ sig (Elt Ideal)) (h : r.ref ≠ y.ref) :
    rd ((StableHlo.TRef.binary a b y f).result V) r = rd V r := by
  unfold rd; rw [StableHlo.binary_result_ne]; exact h

private theorem rd_ternary_ne' (r : StableHlo.TRef sig T) (c : StableHlo.TRef sig Tc) (a : StableHlo.TRef sig Ta) (b : StableHlo.TRef sig Tb) (y : StableHlo.TRef sig Ty)
    (f : Tc.Contents (Elt Ideal) → Ta.Contents (Elt Ideal) → Tb.Contents (Elt Ideal) → Ty.Contents (Elt Ideal)) (V : Valuation τ sig (Elt Ideal)) (h : r.ref ≠ y.ref) :
    rd ((StableHlo.TRef.ternary c a b y f).result V) r = rd V r := by
  unfold rd; rw [StableHlo.ternary_result_ne]; exact h

/-! The same statements in the form one rewriting pass applies: the operation and the reference read are matched whole. -/
private theorem rd_nullary (y : StableHlo.TRef sig Ty) (v : Ty.Contents (Elt Ideal)) (V : Valuation τ sig (Elt Ideal)) :
    rd ((no_index (StableHlo.TRef.nullary y v)).result V) (no_index y) = v := rd_nullary' y v V
private theorem rd_unary (x : StableHlo.TRef sig Tx) (y : StableHlo.TRef sig Ty) (f : Tx.Contents (Elt Ideal) → Ty.Contents (Elt Ideal))
    (V : Valuation τ sig (Elt Ideal)) :
    rd ((no_index (StableHlo.TRef.unary x y f)).result V) (no_index y) = f (rd V x) := rd_unary' x y f V
private theorem rd_binary (a : StableHlo.TRef sig Ta) (b : StableHlo.TRef sig Tb) (y : StableHlo.TRef sig Ty)
    (f : Ta.Contents (Elt Ideal) → Tb.Contents (Elt Ideal) → Ty.Contents (Elt Ideal)) (V : Valuation τ sig (Elt Ideal)) :
    rd ((no_index (StableHlo.TRef.binary a b y f)).result V) (no_index y) = f (rd V a) (rd V b) := rd_binary' a b y f V
private theorem rd_ternary (c : StableHlo.TRef sig Tc) (a : StableHlo.TRef sig Ta) (b : StableHlo.TRef sig Tb) (y : StableHlo.TRef sig Ty)
    (f : Tc.Contents (Elt Ideal) → Ta.Contents (Elt Ideal) → Tb.Contents (Elt Ideal) → Ty.Contents (Elt Ideal)) (V : Valuation τ sig (Elt Ideal)) :
    rd ((no_index (StableHlo.TRef.ternary c a b y f)).result V) (no_index y) = f (rd V c) (rd V a) (rd V b) := rd_ternary' c a b y f V
private theorem rd_nullary_ne (r : StableHlo.TRef sig T) (y : StableHlo.TRef sig Ty) (v : Ty.Contents (Elt Ideal)) (V : Valuation τ sig (Elt Ideal))
    (h : r.ref ≠ y.ref) : rd ((no_index (StableHlo.TRef.nullary y v)).result V) (no_index r) = rd V r := rd_nullary_ne' r y v V h
private theorem rd_unary_ne (r : StableHlo.TRef sig T) (x : StableHlo.TRef sig Tx) (y : StableHlo.TRef sig Ty) (f : Tx.Contents (Elt Ideal) → Ty.Contents (Elt Ideal))
    (V : Valuation τ sig (Elt Ideal)) (h : r.ref ≠ y.ref) : rd ((no_index (StableHlo.TRef.unary x y f)).result V) (no_index r) = rd V r :=
  rd_unary_ne' r x y f V h
private theorem rd_binary_ne (r : StableHlo.TRef sig T) (a : StableHlo.TRef sig Ta) (b : StableHlo.TRef sig Tb) (y : StableHlo.TRef sig Ty)
    (f : Ta.Contents (Elt Ideal) → Tb.Contents (Elt Ideal) → Ty.Contents (Elt Ideal)) (V : Valuation τ sig (Elt Ideal)) (h : r.ref ≠ y.ref) :
    rd ((no_index (StableHlo.TRef.binary a b y f)).result V) (no_index r) = rd V r := rd_binary_ne' r a b y f V h
private theorem rd_ternary_ne (r : StableHlo.TRef sig T) (c : StableHlo.TRef sig Tc) (a : StableHlo.TRef sig Ta) (b : StableHlo.TRef sig Tb) (y : StableHlo.TRef sig Ty)
    (f : Tc.Contents (Elt Ideal) → Ta.Contents (Elt Ideal) → Tb.Contents (Elt Ideal) → Ty.Contents (Elt Ideal)) (V : Valuation τ sig (Elt Ideal)) (h : r.ref ≠ y.ref) :
    rd ((no_index (StableHlo.TRef.ternary c a b y f)).result V) (no_index r) = rd V r := rd_ternary_ne' r c a b y f V h

end TypedRead

/-- A line of typed operations read at one typed reference: each operation's result at its own reference is its function
    of its operands, and at any other reference what was there. -/
local macro "typed_results" : tactic => `(tactic| (
  simp (disch := decide) only [StableHlo.after_cons, StableHlo.after_nil, rd_nullary, rd_unary, rd_binary, rd_ternary,
    rd_nullary_ne, rd_unary_ne, rd_binary_ne, rd_ternary_ne]))

variable (m : (ℓ : Loc nD τ sig) → Buf (Elt Ideal) ℓ) (ρ : Dev nD → PrngReg)

/-- Across a host stretch, a buffer none of its operations writes keeps its contents. -/
local macro "skip_host" : tactic => `(tactic| (
  refine StableHlo.after_of_forall_not_mem _ _ (List.forall_iff_forall_mem.mp ?_)
  simp only [hostOps2, hostOps2_1, hostOps2_2, hostOps2_3, hostOps3, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ### The host stretches, from any contents -/

/-- The first sum: every edge's curvature row added into the row of its source node. -/
private theorem sum2 (V : Valuation τ sig (Elt Ideal)) :
    StableHlo.after hostOps2 V (Proc.devRef .tc main_v14)
      = Term.segSum (F := Ideal) (V (Proc.devRef .tc main_v1)) (V (Proc.devRef .tc main_v11)) := by
  after_results
  rfl

/-- The fetch of the summed rows at the source nodes. -/
private theorem take2 (V : Valuation τ sig (Elt Ideal)) :
    StableHlo.after hostOps2_1 V (Proc.devRef .tc main_v15)
      = Term.takeRows (F := Ideal) (V (Proc.devRef .tc main_v14)) (V (Proc.devRef .tc main_v1)) := by
  show rd (StableHlo.after hostOps2_1 V) (.of main_v15 : StableHlo.TRef sig ⟨S800000x128, .f32⟩) = _
  typed_results
  rfl

/-- The fetch of the summed rows at the target nodes. -/
private theorem take3 (V : Valuation τ sig (Elt Ideal)) :
    StableHlo.after hostOps2_2 V (Proc.devRef .tc main_v16)
      = Term.takeRows (F := Ideal) (V (Proc.devRef .tc main_v14)) (V (Proc.devRef .tc main_v3)) := by
  show rd (StableHlo.after hostOps2_2 V) (.of main_v16 : StableHlo.TRef sig ⟨S800000x128, .f32⟩) = _
  typed_results
  rfl

/-- The message layer's weight cut into its halves, its biases re-laid. -/
private theorem cut_top (V : Valuation τ sig (Elt Ideal)) :
    StableHlo.after hostOps2_3 V (Proc.devRef .tc main_v17) = Term.topHalf (F := Ideal) (V (Proc.devRef .tc main_arg7)) := by
  after_results
  rfl
private theorem cut_bot (V : Valuation τ sig (Elt Ideal)) :
    StableHlo.after hostOps2_3 V (Proc.devRef .tc main_v18) = Term.botHalf (F := Ideal) (V (Proc.devRef .tc main_arg7)) := by
  after_results
  rfl
private theorem cut_row (V : Valuation τ sig (Elt Ideal)) :
    StableHlo.after hostOps2_3 V (Proc.devRef .tc main_v19) = Term.asRow (F := Ideal) (V (Proc.devRef .tc main_arg8)) := by
  after_results
  rfl
private theorem cut_one (V : Valuation τ sig (Elt Ideal)) :
    StableHlo.after hostOps2_3 V (Proc.devRef .tc main_v20) = Term.asOne (F := Ideal) (V (Proc.devRef .tc main_arg10)) := by
  after_results
  rfl

/-- The second sum: every edge's message added into the row of its source node. -/
private theorem sum3 (V : Valuation τ sig (Elt Ideal)) :
    StableHlo.after hostOps3 V (Proc.devRef .tc main_v24)
      = Term.segSum (F := Ideal) (V (Proc.devRef .tc main_v1)) (V (Proc.devRef .tc main_v21)) := by
  after_results
  rfl

/-- The number of edges of each source node. -/
private theorem count3 (V : Valuation τ sig (Elt Ideal)) :
    StableHlo.after hostOps3 V (Proc.devRef .tc main_v28) = Term.segCount (F := Ideal) (V (Proc.devRef .tc main_v1)) := by
  after_results
  rfl

/-! ### The buffers a host stretch leaves alone, between the boundaries where they are written and read -/

private theorem keep_7_6_v1 (c : Dev nD) : W7 m ρ c (Proc.devRef .tc main_v1) = W6 m ρ c (Proc.devRef .tc main_v1) :=
  calc W7 m ρ c (Proc.devRef .tc main_v1)
    _ = W6 m ρ c (Proc.devRef .tc main_v1) := by skip_host

private theorem keep_10_7_v1 (c : Dev nD) : W10 m ρ c (Proc.devRef .tc main_v1) = W7 m ρ c (Proc.devRef .tc main_v1) :=
  calc W10 m ρ c (Proc.devRef .tc main_v1)
    _ = W9 m ρ c (Proc.devRef .tc main_v1) := by skip_host
    _ = W8 m ρ c (Proc.devRef .tc main_v1) := by skip_host
    _ = W7 m ρ c (Proc.devRef .tc main_v1) := by skip_host

private theorem keep_8_6_v3 (c : Dev nD) : W8 m ρ c (Proc.devRef .tc main_v3) = W6 m ρ c (Proc.devRef .tc main_v3) :=
  calc W8 m ρ c (Proc.devRef .tc main_v3)
    _ = W7 m ρ c (Proc.devRef .tc main_v3) := by skip_host
    _ = W6 m ρ c (Proc.devRef .tc main_v3) := by skip_host

private theorem keep_10_6_v5 (c : Dev nD) : W10 m ρ c (Proc.devRef .tc main_v5) = W6 m ρ c (Proc.devRef .tc main_v5) :=
  calc W10 m ρ c (Proc.devRef .tc main_v5)
    _ = W9 m ρ c (Proc.devRef .tc main_v5) := by skip_host
    _ = W8 m ρ c (Proc.devRef .tc main_v5) := by skip_host
    _ = W7 m ρ c (Proc.devRef .tc main_v5) := by skip_host
    _ = W6 m ρ c (Proc.devRef .tc main_v5) := by skip_host

private theorem keep_10_6_v6 (c : Dev nD) : W10 m ρ c (Proc.devRef .tc main_v6) = W6 m ρ c (Proc.devRef .tc main_v6) :=
  calc W10 m ρ c (Proc.devRef .tc main_v6)
    _ = W9 m ρ c (Proc.devRef .tc main_v6) := by skip_host
    _ = W8 m ρ c (Proc.devRef .tc main_v6) := by skip_host
    _ = W7 m ρ c (Proc.devRef .tc main_v6) := by skip_host
    _ = W6 m ρ c (Proc.devRef .tc main_v6) := by skip_host

private theorem keep_9_6_arg7 (c : Dev nD) : W9 m ρ c (Proc.devRef .tc main_arg7) = W6 m ρ c (Proc.devRef .tc main_arg7) :=
  calc W9 m ρ c (Proc.devRef .tc main_arg7)
    _ = W8 m ρ c (Proc.devRef .tc main_arg7) := by skip_host
    _ = W7 m ρ c (Proc.devRef .tc main_arg7) := by skip_host
    _ = W6 m ρ c (Proc.devRef .tc main_arg7) := by skip_host

private theorem keep_9_6_arg8 (c : Dev nD) : W9 m ρ c (Proc.devRef .tc main_arg8) = W6 m ρ c (Proc.devRef .tc main_arg8) :=
  calc W9 m ρ c (Proc.devRef .tc main_arg8)
    _ = W8 m ρ c (Proc.devRef .tc main_arg8) := by skip_host
    _ = W7 m ρ c (Proc.devRef .tc main_arg8) := by skip_host
    _ = W6 m ρ c (Proc.devRef .tc main_arg8) := by skip_host

private theorem keep_10_6_arg9 (c : Dev nD) : W10 m ρ c (Proc.devRef .tc main_arg9) = W6 m ρ c (Proc.devRef .tc main_arg9) :=
  calc W10 m ρ c (Proc.devRef .tc main_arg9)
    _ = W9 m ρ c (Proc.devRef .tc main_arg9) := by skip_host
    _ = W8 m ρ c (Proc.devRef .tc main_arg9) := by skip_host
    _ = W7 m ρ c (Proc.devRef .tc main_arg9) := by skip_host
    _ = W6 m ρ c (Proc.devRef .tc main_arg9) := by skip_host

private theorem keep_9_6_arg10 (c : Dev nD) : W9 m ρ c (Proc.devRef .tc main_arg10) = W6 m ρ c (Proc.devRef .tc main_arg10) :=
  calc W9 m ρ c (Proc.devRef .tc main_arg10)
    _ = W8 m ρ c (Proc.devRef .tc main_arg10) := by skip_host
    _ = W7 m ρ c (Proc.devRef .tc main_arg10) := by skip_host
    _ = W6 m ρ c (Proc.devRef .tc main_arg10) := by skip_host

private theorem keep_8_7_v14 (c : Dev nD) : W8 m ρ c (Proc.devRef .tc main_v14) = W7 m ρ c (Proc.devRef .tc main_v14) :=
  calc W8 m ρ c (Proc.devRef .tc main_v14)
    _ = W7 m ρ c (Proc.devRef .tc main_v14) := by skip_host

private theorem keep_10_8_v15 (c : Dev nD) : W10 m ρ c (Proc.devRef .tc main_v15) = W8 m ρ c (Proc.devRef .tc main_v15) :=
  calc W10 m ρ c (Proc.devRef .tc main_v15)
    _ = W9 m ρ c (Proc.devRef .tc main_v15) := by skip_host
    _ = W8 m ρ c (Proc.devRef .tc main_v15) := by skip_host

private theorem keep_10_9_v16 (c : Dev nD) : W10 m ρ c (Proc.devRef .tc main_v16) = W9 m ρ c (Proc.devRef .tc main_v16) :=
  calc W10 m ρ c (Proc.devRef .tc main_v16)
    _ = W9 m ρ c (Proc.devRef .tc main_v16) := by skip_host

/-! ### The two regions -/

/-- The message region's output: the message stage of what its input buffers hold at its entry. -/
private theorem W11_v21 (c : Dev nD) {ci cj hi hj : FVec Ideal S800000x128 .f32} {wa wb : FVec Ideal S128x128 .f32}
    {b1 : FVec Ideal S1x128 .f32} {w2 : FVec Ideal S128x1 .f32} {b2 : FVec Ideal S1x1 .f32}
    (h15 : W10 m ρ c (Proc.devRef .tc main_v15) = ci) (h16 : W10 m ρ c (Proc.devRef .tc main_v16) = cj)
    (h5 : W10 m ρ c (Proc.devRef .tc main_v5) = hi) (h6 : W10 m ρ c (Proc.devRef .tc main_v6) = hj)
    (h17 : W10 m ρ c (Proc.devRef .tc main_v17) = wa) (h18 : W10 m ρ c (Proc.devRef .tc main_v18) = wb)
    (h19 : W10 m ρ c (Proc.devRef .tc main_v19) = b1) (h9 : W10 m ρ c (Proc.devRef .tc main_arg9) = w2)
    (h20 : W10 m ρ c (Proc.devRef .tc main_v20) = b2) :
    W11 m ρ c (Proc.devRef .tc main_v21) = edgeRows (n := 800000) ci cj hi hj wa wb b1 w2 b2 := by
  subst h15 h16 h5 h6 h17 h18 h19 h9 h20
  exact (W11_arr m ρ c 9).trans (Region.region2 (V10 m ρ) c)

/-- The finishing region's output: the finishing stage of the sums and the counts at its entry. -/
private theorem W13_v29 (c : Dev nD) {s : FVec Ideal S50000x128 .f32} {n : FVec Ideal S50000x1 .f32}
    (h24 : W12 m ρ c (Proc.devRef .tc main_v24) = s) (h28 : W12 m ρ c (Proc.devRef .tc main_v28) = n) :
    W13 m ρ c (Proc.devRef .tc main_v29) = meanUnitRows (n := 50000) s n := by
  subst h24 h28
  exact (W13_arr m ρ c 2).trans (Region.region3 (V12 m ρ) c)

variable (x1 : FVec Ideal S50000x128 .f32) (x2 : IVec S2x800000 32) (x3 : FVec Ideal S256x128 .f32) (x4 : FVec Ideal S128 .f32)
  (x5 : FVec Ideal S128x128 .f32) (x6 : FVec Ideal S128 .f32) (x7 : FVec Ideal S256x128 .f32) (x8 : FVec Ideal S128 .f32)
  (x9 : FVec Ideal S128x1 .f32) (x10 : FVec Ideal S1 .f32)

/-- From the contents at the first curvature region's exit to the result buffer at the end. -/
theorem result_value_of (c : Dev nD)
    (h11 : W6 m ρ c (Proc.devRef .tc main_v11) = Term.curvPre x1 x2 x3 x4 x5 x6)
    (h5 : W6 m ρ c (Proc.devRef .tc main_v5) = Term.takeRows (Term.nodes x1) (Term.srcOf x2))
    (h6 : W6 m ρ c (Proc.devRef .tc main_v6) = Term.takeRows (Term.nodes x1) (Term.dstOf x2))
    (h1 : W6 m ρ c (Proc.devRef .tc main_v1) = Term.srcOf x2) (h3 : W6 m ρ c (Proc.devRef .tc main_v3) = Term.dstOf x2)
    (h7 : W6 m ρ c (Proc.devRef .tc main_arg7) = x7) (h8 : W6 m ρ c (Proc.devRef .tc main_arg8) = x8)
    (h9 : W6 m ρ c (Proc.devRef .tc main_arg9) = x9) (h10 : W6 m ρ c (Proc.devRef .tc main_arg10) = x10) :
    W13 m ρ c (Proc.devRef .tc main_v29) = Term.result x1 x2 x3 x4 x5 x6 x7 x8 x9 x10 := by
  -- after the first sum: the source nodes, and the curvature rows summed at them
  have s1 : W7 m ρ c (Proc.devRef .tc main_v1) = Term.srcOf x2 := (keep_7_6_v1 m ρ c).trans h1
  have s14 : W7 m ρ c (Proc.devRef .tc main_v14) = Term.curvSum x1 x2 x3 x4 x5 x6 :=
    (sum2 (W6 m ρ c)).trans (congrArg₂ (Term.segSum (F := Ideal)) h1 h11)
  -- the summed rows fetched at the source and at the target nodes
  have t15 : W8 m ρ c (Proc.devRef .tc main_v15) = Term.takeRows (Term.curvSum x1 x2 x3 x4 x5 x6) (Term.srcOf x2) :=
    (take2 (W7 m ρ c)).trans (congrArg₂ (Term.takeRows (F := Ideal)) s14 s1)
  have t16 : W9 m ρ c (Proc.devRef .tc main_v16) = Term.takeRows (Term.curvSum x1 x2 x3 x4 x5 x6) (Term.dstOf x2) :=
    (take3 (W8 m ρ c)).trans (congrArg₂ (Term.takeRows (F := Ideal)) ((keep_8_7_v14 m ρ c).trans s14) ((keep_8_6_v3 m ρ c).trans h3))
  -- the message layer's parameters
  have p17 : W10 m ρ c (Proc.devRef .tc main_v17) = Term.topHalf x7 :=
    (cut_top (W9 m ρ c)).trans (congrArg (Term.topHalf (F := Ideal)) ((keep_9_6_arg7 m ρ c).trans h7))
  have p18 : W10 m ρ c (Proc.devRef .tc main_v18) = Term.botHalf x7 :=
    (cut_bot (W9 m ρ c)).trans (congrArg (Term.botHalf (F := Ideal)) ((keep_9_6_arg7 m ρ c).trans h7))
  have p19 : W10 m ρ c (Proc.devRef .tc main_v19) = Term.asRow x8 :=
    (cut_row (W9 m ρ c)).trans (congrArg (Term.asRow (F := Ideal)) ((keep_9_6_arg8 m ρ c).trans h8))
  have p20 : W10 m ρ c (Proc.devRef .tc main_v20) = Term.asOne x10 :=
    (cut_one (W9 m ρ c)).trans (congrArg (Term.asOne (F := Ideal)) ((keep_9_6_arg10 m ρ c).trans h10))
  -- the messages, and the source nodes past the message region
  have e21 : W11 m ρ c (Proc.devRef .tc main_v21) = Term.message x1 x2 x3 x4 x5 x6 x7 x8 x9 x10 :=
    W11_v21 m ρ c ((keep_10_8_v15 m ρ c).trans t15) ((keep_10_9_v16 m ρ c).trans t16) ((keep_10_6_v5 m ρ c).trans h5)
      ((keep_10_6_v6 m ρ c).trans h6) p17 p18 p19 ((keep_10_6_arg9 m ρ c).trans h9) p20
  have s1' : W11 m ρ c (Proc.devRef .tc main_v1) = Term.srcOf x2 :=
    (W11_of_ne m ρ c main_v1 (by decide)).trans ((keep_10_7_v1 m ρ c).trans s1)
  -- the messages summed at the source nodes, the edges counted, and the finishing stage of the two
  have e24 : W12 m ρ c (Proc.devRef .tc main_v24)
      = Term.segSum (Term.srcOf x2) (Term.message x1 x2 x3 x4 x5 x6 x7 x8 x9 x10) :=
    (sum3 (W11 m ρ c)).trans (congrArg₂ (Term.segSum (F := Ideal)) s1' e21)
  have e28 : W12 m ρ c (Proc.devRef .tc main_v28) = Term.segCount (F := Ideal) (Term.srcOf x2) :=
    (count3 (W11 m ρ c)).trans (congrArg (Term.segCount (F := Ideal)) s1')
  exact W13_v29 m ρ c e24 e28

end Cert.KernelIdeal.Chain

end
-- ==== Proof.KernelValue.lean ====
/-
  The kernel program's result buffer at the end of the run, walked back through @main to the argument arrays: the two
  halves of the walk joined at the exit of the first curvature pallas_call.
-/
import proofs.«420050_j76647986365056_1_alg».proof.Proof.KernelValueA
import proofs.«420050_j76647986365056_1_alg».proof.Proof.KernelValueB

noncomputable section

namespace Cert.KernelIdeal.Chain

open Cert.KernelIdeal Cert.KernelIdeal.Gen Cert.Curv
open Idealize.ShloMosaic Idealize.ShloMosaic.TcCoe Idealize.SL.Sem

variable (m : (ℓ : Loc nD τ sig) → Buf (Elt Ideal) ℓ) (ρ : Dev nD → PrngReg)

/-- The result buffer at the last segment boundary is the program's composed function of the argument arrays. -/
theorem result_value (c : Dev nD) :
    W13 m ρ c (Proc.devRef .tc main_v29) = Term.result (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  result_value_of m ρ _ _ _ _ _ _ _ _ _ _ c (W6_v11 m ρ c) (W6_v5 m ρ c) (W6_v6 m ρ c) (W6_v1 m ρ c) (W6_v3 m ρ c)
    (W6_arg7 m ρ c) (W6_arg8 m ρ c) (W6_arg9 m ρ c) (W6_arg10 m ρ c)

end Cert.KernelIdeal.Chain

end
-- ==== Proof.LibReduceAndAll.lean ====
/-
  The converse of reading a `jnp.all` back: a `stablehlo.reduce` by `and` over `i1` words is 1 at a result index
  as soon as its initial value is 1 and every operand element that reduces into that index is 1 — a left fold of `and`
  that starts at 1 and meets only 1s stays at 1.
-/
import Idealize.ShloMosaic.Lib.ReduceAll

namespace Cert.Gcn

open Idealize.ShloMosaic

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have ha : f a = 1#1 := h a (List.mem_cons_self ..)
    have h11 : IntOp.andi (1#1 : BitVec 1) 1#1 = 1#1 := by decide
    rw [List.foldl_cons, ha, h11]
    exact foldl_andi_one f l fun n hn => h n (List.mem_cons_of_mem _ hn)

variable {s t u : Shape} {axes : List (Fin s.rank)}

/-- A reduce by `and` from 1 whose operand is 1 at every index reducing into `j` is 1 at `j`. -/
theorem reduce_andi_of_all (x : s.Idx → BitVec 1) (init : u.Idx → BitVec 1) (h : s.ReducesTo axes t) (hu : 0 < u.numel)
    (j : t.Idx) (hinit : init (Shape.Idx.first hu) = 1#1) (hx : ∀ i, h.drop i = j → x i = 1#1) :
    Host.reduce IntOp.andi x init h hu j = 1#1 := by
  rw [Host.reduce_eq_foldl, hinit]
  refine foldl_andi_one x _ fun i hi => hx i ?_
  rw [List.mem_filter] at hi
  simpa using hi.2

end Cert.Gcn
-- ==== Proof.Take.lean ====
/-
  Fetching rows by node index when every index names a row.

  `takeRows` replaces a row by a fill value where the (end-counted) index falls outside `0 … 49999`. When every index
  is already in that range nothing is counted from the end and nothing is replaced: it is the plain gather at the same
  start indices. The precondition says every entry of the edge list is such an index; the source and target rows of the
  list inherit it. Also here: the cut halves of a concatenated layer's weight and the re-laid biases, read at an entry.
-/
import proofs.«420050_j76647986365056_1_alg».proof.Proof.KernelTerm
import proofs.«420050_j76647986365056_1_alg».proof.Proof.LibReduceAndAll
import proofs.«420050_j76647986365056_1_alg».proof.Pre_finite_inputs
import proofs.«420050_j76647986365056_1_alg».proof.Proof.Gen.Pre_finite_inputs
import Idealize.ShloMosaic.Lib.ValueIdx
import Idealize.ShloMosaic.Lib.ValueLayout
import Idealize.ShloMosaic.Lib.Pipeline.Value
import Idealize.ShloMosaic.Lib.ReduceAll
import Idealize.ShloMosaic.Lib.StableHlo.Predicate

noncomputable section

namespace Cert.KernelIdeal.Term

open Cert.KernelIdeal Cert.KernelIdeal.Gen Cert.Curv Idealize.ShloMosaic Idealize.ShloMosaic.ValueIdx

/-- The signed "less than" of two words is 1 exactly when their integer values compare so. -/
private theorem cmpi_slt_iff (a b : BitVec 32) : IntOp.cmpi .slt a b = 1#1 ↔ a.toInt < b.toInt := by
  show BitVec.ofBool (a.slt b) = 1#1 ↔ _
  rw [StableHlo.Predicate.ofBool_eq_one_iff]
  exact BitVec.slt_iff_toInt_lt

/-- The signed "at most". -/
private theorem cmpi_sle_iff (a b : BitVec 32) : IntOp.cmpi .sle a b = 1#1 ↔ a.toInt ≤ b.toInt := by
  show BitVec.ofBool (a.sle b) = 1#1 ↔ _
  rw [StableHlo.Predicate.ofBool_eq_one_iff]
  exact BitVec.sle_iff_toInt_le

/-- The signed "at least". -/
private theorem cmpi_sge_iff (a b : BitVec 32) : IntOp.cmpi .sge a b = 1#1 ↔ b.toInt ≤ a.toInt := by
  show BitVec.ofBool (b.sle a) = 1#1 ↔ _
  rw [StableHlo.Predicate.ofBool_eq_one_iff]
  exact BitVec.sle_iff_toInt_le

-- The integer values of the three literal words the compares are taken against.
private theorem toInt_lit0 : (0#32 : BitVec 32).toInt = 0 := by decide
private theorem toInt_lit49999 : (49999#32 : BitVec 32).toInt = 49999 := by decide
private theorem toInt_lit50000 : (50000#32 : BitVec 32).toInt = 50000 := by decide

/-- A non-negative index is not counted from the end: the start index is the index itself. -/
private theorem wrapIdx_apply (i : IVec S800000 32) (q : S800000x1.Idx) (h0 : 0 ≤ (i (ix1 (q 0 : Fin 800000))).toInt) :
    wrapIdx i q = i (ix1 (q 0 : Fin 800000)) := by
  unfold wrapIdx
  refine (broadcastInDim_apply _ bcast_S800000_S800000x1_0 _ q (ix1 (q 0 : Fin 800000)) fun a => ?_).trans ?_
  · match a with
    | ⟨0, _⟩ => rfl
  · rw [select_apply]
    have hc : cmpi .slt i (broadcastInDim S800000 ![] bcast_S_S800000 (constantI S_ 32 0#32)) (ix1 (q 0 : Fin 800000)) = 0#1 := by
      show IntOp.cmpi .slt (i (ix1 (q 0 : Fin 800000))) 0#32 = 0#1
      refine eq_zero_of_ne_one fun hlt => ?_
      have := (cmpi_slt_iff _ _).1 hlt
      rw [toInt_lit0] at this
      omega
    rw [hc, select_zero]

/-- With every index a row of the table, fetching with the fill is the plain gather at the same start indices. -/
theorem takeRows_eq_gather (X : FVec Ideal S50000x128 .f32) (i : IVec S800000 32)
    (h : ∀ e : S800000.Idx, 0 ≤ (i e).toInt ∧ (i e).toInt < 50000) :
    takeRows X i = Host.gather gather_S50000x128_S800000x1_S800000x128_1_0_n_n_0_1_1128 X (wrapIdx i) := by
  funext j
  unfold takeRows
  rw [select_apply]
  have hm : broadcastInDim S800000x128 ![0] bcast_S800000_S800000x128_0 (inRange (wrapIdx i)) j = 1#1 := by
    refine (broadcastInDim_apply _ bcast_S800000_S800000x128_0 _ j (ix1 (j 0 : Fin 800000)) fun a => ?_).trans ?_
    · match a with
      | ⟨0, _⟩ => rfl
    · unfold inRange
      refine Cert.Gcn.reduce_andi_of_all _ _ _ _ _ rfl fun q _ => ?_
      show IntOp.andi (IntOp.cmpi .sge (wrapIdx i q) 0#32) (IntOp.cmpi .sle (wrapIdx i q) 49999#32) = 1#1
      obtain ⟨h0, h1⟩ := h (ix1 (q 0 : Fin 800000))
      rw [wrapIdx_apply i q h0, (cmpi_sge_iff _ _).2 (by rw [toInt_lit0]; exact h0),
        (cmpi_sle_iff _ _).2 (by rw [toInt_lit49999]; omega)]
      decide
  rw [hm, select_one]

/-- The source nodes are entries of the edge list. -/
theorem srcOf_apply (e : IVec S2x800000 32) (k : Fin 800000) : srcOf e (ix1 k) = e (ix2 (0 : Fin 2) k) := by
  unfold srcOf
  refine (shapeCast_apply _ shapeCasts_S1x800000_S800000 (ix1 k) (ix2 (0 : Fin 1) k) ?_).trans ?_
  · rw [Shape.rowMajor_val_two, Shape.rowMajor_val_one]
    show (0 : Nat) * 800000 + k.val = k.val
    omega
  · refine extractStridedSlice_apply _ e _ _ (ix2 (0 : Fin 2) k) fun a => ?_
    match a with
    | ⟨0, _⟩ => rfl
    | ⟨1, _⟩ => show k.val = 0 + k.val; omega

/-- The target nodes are entries of the edge list. -/
theorem dstOf_apply (e : IVec S2x800000 32) (k : Fin 800000) : dstOf e (ix1 k) = e (ix2 (1 : Fin 2) k) := by
  unfold dstOf
  refine (shapeCast_apply _ shapeCasts_S1x800000_S800000 (ix1 k) (ix2 (0 : Fin 1) k) ?_).trans ?_
  · rw [Shape.rowMajor_val_two, Shape.rowMajor_val_one]
    show (0 : Nat) * 800000 + k.val = k.val
    omega
  · refine extractStridedSlice_apply _ e _ _ (ix2 (1 : Fin 2) k) fun a => ?_
    match a with
    | ⟨0, _⟩ => rfl
    | ⟨1, _⟩ => show k.val = 0 + k.val; omega

/-- The top half of a concatenated layer's weight, at an entry. -/
theorem topHalf_apply (w : FVec Ideal S256x128 .f32) (l k : Fin 128) : topHalf w (ix2 l k) = w (ix2 (Fin.castAdd 128 l) k) := by
  unfold topHalf
  refine extractStridedSlice_apply _ w _ _ (ix2 (Fin.castAdd 128 l) k) fun a => ?_
  match a with
  | ⟨0, _⟩ => show l.val = 0 + l.val; omega
  | ⟨1, _⟩ => show k.val = 0 + k.val; omega

/-- The bottom half, at an entry. -/
theorem botHalf_apply (w : FVec Ideal S256x128 .f32) (l k : Fin 128) : botHalf w (ix2 l k) = w (ix2 (Fin.natAdd 128 l) k) := by
  unfold botHalf
  refine extractStridedSlice_apply _ w _ _ (ix2 (Fin.natAdd 128 l) k) fun a => ?_
  match a with
  | ⟨0, _⟩ => show 128 + l.val = 128 + l.val; rfl
  | ⟨1, _⟩ => show k.val = 0 + k.val; omega

/-- A bias laid out as one row, at an entry. -/
theorem asRow_apply (b : FVec Ideal S128 .f32) (k : Fin 128) : asRow b (ix2 (0 : Fin 1) k) = b (ix1 k) := by
  unfold asRow
  refine shapeCast_apply _ shapeCasts_S128_S1x128 (ix2 (0 : Fin 1) k) (ix1 k) ?_
  rw [Shape.rowMajor_val_two, Shape.rowMajor_val_one]
  show k.val = (0 : Nat) * 128 + k.val
  omega

/-- The one-number bias laid out as 1 × 1, at its entry. -/
theorem asOne_apply (b : FVec Ideal S1 .f32) : asOne b (ix2 (0 : Fin 1) (0 : Fin 1)) = b (ix1 (0 : Fin 1)) := by
  unfold asOne
  refine shapeCast_apply _ shapeCasts_S1_S1x1 (ix2 (0 : Fin 1) (0 : Fin 1)) (ix1 (0 : Fin 1)) ?_
  rw [Shape.rowMajor_val_two, Shape.rowMajor_val_one]
  rfl

/-- The precondition holds only where every entry of the edge list is a node index. -/
theorem idx_of_pre (x0 : FVec Ideal Cert.Pre_finite_inputs.S_ .f32) (x1 : FVec Ideal Cert.Pre_finite_inputs.S50000x128 .f32)
    (x2 : IVec Cert.Pre_finite_inputs.S2x800000 32) (x3 : FVec Ideal Cert.Pre_finite_inputs.S256x128 .f32)
    (x4 : FVec Ideal Cert.Pre_finite_inputs.S128 .f32) (x5 : FVec Ideal Cert.Pre_finite_inputs.S128x128 .f32)
    (x6 : FVec Ideal Cert.Pre_finite_inputs.S128 .f32) (x7 : FVec Ideal Cert.Pre_finite_inputs.S256x128 .f32)
    (x8 : FVec Ideal Cert.Pre_finite_inputs.S128 .f32) (x9 : FVec Ideal Cert.Pre_finite_inputs.S128x1 .f32)
    (x10 : FVec Ideal Cert.Pre_finite_inputs.S1 .f32)
    (h : Cert.Pre_finite_inputs.fn (F := Ideal) x0 x1 x2 x3 x4 x5 x6 x7 x8 x9 x10 = fun _ => 1#1) :
    ∀ i : S2x800000.Idx, 0 ≤ (x2 i).toInt ∧ (x2 i).toInt < 50000 := by
  intro i
  have h0 := congrFun h ValueIdx.ix0
  dsimp only [Cert.Pre_finite_inputs.fn, Cert.Pre_finite_inputs.fn_part1, Cert.Pre_finite_inputs.fn_part2,
    Cert.Pre_finite_inputs.fn_part3] at h0
  -- the last conjunct of the chain is the "all" over the edge list
  have h1 := (IntOp.andi_eq_one.1 h0).2
  haveI : Subsingleton Cert.Pre_finite_inputs.S_.Idx := ⟨fun a b => funext fun d => d.elim0⟩
  have h2 := Host.reduce_andi_all _ _ _ _ _ h1 i
  -- at each entry: 0 ≤ the entry, and the entry < 50000
  obtain ⟨ha, hb⟩ := IntOp.andi_eq_one.1 h2
  have ha' : (0#32 : BitVec 32).toInt ≤ (x2 i).toInt := (cmpi_sge_iff _ _).1 ha
  have hb' : (x2 i).toInt < (50000#32 : BitVec 32).toInt := (cmpi_slt_iff _ _).1 hb
  rw [toInt_lit0] at ha'
  rw [toInt_lit50000] at hb'
  exact ⟨ha', hb'⟩

end Cert.KernelIdeal.Term

end
-- ==== Proof.RefNorm.lean ====
/-
  The reference's two normalizations, each read as a row function: the node array divided row by row by its length plus
  the small constant (the host's sum starts from zero, which adds nothing), and at the end the summed rows divided by
  `max count 1` and normalized the same way.
-/
import proofs.«420050_j76647986365056_1_alg».proof.Proof.RefRead
import proofs.«420050_j76647986365056_1_alg».proof.Proof.Rows
import proofs.«420050_j76647986365056_1_alg».proof.Proof.LibDenseLayer
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.Stages

open Cert.ReferenceIdeal Cert.ReferenceIdeal.ReadP Cert.Curv Idealize.ShloMosaic Idealize.ShloMosaic.ValueIdx
open scoped BigOperators

/-- Composed through the reference's broadcasts, the index the first row sum reads at lane `k` of row `r` is `(r, k)`. -/
private theorem laneIdx0 (r : Fin 50000) (d k : Fin 128) :
    idx_main_call0_v1 (idx_main_call0_v2 (idx_main_v7 (ix2 r d))) k = ix2 r k :=
  funext fun a => Fin.ext (by match a with | ⟨0, _⟩ => rfl | ⟨1, _⟩ => rfl)

/-- The reference's normalized node array is every row of the input made a unit row. -/
theorem ref_norm (x1 : FVec Ideal S50000x128 .f32) : val_main_v8 (F := Ideal) x1 = unitRows (n := 50000) x1 := by
  funext i
  obtain ⟨r, d, rfl⟩ : ∃ (r : Fin 50000) (d : Fin 128), i = ix2 r d := ⟨i 0, i 1, eq_ix2 i⟩
  rw [unitRows_apply]
  unfold unitRow
  rw [val_main_v8_apply, val_main_v7_apply, val_main_v6_apply, val_main_v4_apply, val_main_call0_v2_apply,
    val_main_call0_v1_apply, val_main_call0_cst_apply, val_main_v5_apply, val_main_cst_apply]
  simp only [val_main_call0_v0_apply, laneIdx0, Ideal.hostDivf_def, Ideal.addf_def, Ideal.hostUnary_sqrt_def,
    Ideal.ofBits_def, Ideal.mulf_def, Ideal.ofBits_zero_f32, zero_add]

/-- The same for the last row sum. -/
private theorem laneIdx4 (r : Fin 50000) (d k : Fin 128) :
    idx_main_call4_v1 (idx_main_call4_v2 (idx_main_v83 (ix2 r d))) k = ix2 r k :=
  funext fun a => Fin.ext (by match a with | ⟨0, _⟩ => rfl | ⟨1, _⟩ => rfl)

/-- The count column read under the broadcast along the lanes: row `r` reads `(r, 0)`. -/
private theorem colIdx (r : Fin 50000) (k : Fin 128) : idx_main_v78 (ix2 r k) = ix2 r (0 : Fin 1) :=
  funext fun a => Fin.ext (by match a with | ⟨0, _⟩ => rfl | ⟨1, _⟩ => rfl)

/-- The reference's mean step at an index: the summed entry divided by `max count 1`. -/
private theorem mean_apply (x1 : FVec Ideal S50000x128 .f32) (x2 : IVec S2x800000 32) (x3 : FVec Ideal S256x128 .f32) (x4 : FVec Ideal S128 .f32)
    (x5 : FVec Ideal S128x128 .f32) (x6 : FVec Ideal S128 .f32) (x7 : FVec Ideal S256x128 .f32) (x8 : FVec Ideal S128 .f32)
    (x9 : FVec Ideal S128x1 .f32) (x10 : FVec Ideal S1 .f32) (r : Fin 50000) (k : Fin 128) :
    val_main_v79 (F := Ideal) x1 x2 x3 x4 x5 x6 x7 x8 x9 x10 (ix2 r k)
      = Ideal.div (val_main_v71 (F := Ideal) x1 x2 x3 x4 x5 x6 x7 x8 x9 x10 (ix2 r k)) (max (val_main_v75 (F := Ideal) x2 (ix2 r (0 : Fin 1))) one) := by
  rw [val_main_v79_apply, val_main_v78_apply, val_main_v77_apply, val_main_v76_apply, val_main_cst_12_apply, colIdx]
  generalize val_main_v71 (F := Ideal) x1 x2 x3 x4 x5 x6 x7 x8 x9 x10 (ix2 r k) = s
  generalize val_main_v75 (F := Ideal) x2 (ix2 r (0 : Fin 1)) = c
  rfl

/-- The reference's last normalization at an index, the array of means left as it is: its row made a unit row. -/
private theorem final_apply (x1 : FVec Ideal S50000x128 .f32) (x2 : IVec S2x800000 32) (x3 : FVec Ideal S256x128 .f32) (x4 : FVec Ideal S128 .f32)
    (x5 : FVec Ideal S128x128 .f32) (x6 : FVec Ideal S128 .f32) (x7 : FVec Ideal S256x128 .f32) (x8 : FVec Ideal S128 .f32)
    (x9 : FVec Ideal S128x1 .f32) (x10 : FVec Ideal S1 .f32) (r : Fin 50000) (d : Fin 128) :
    val_main_v84 (F := Ideal) x1 x2 x3 x4 x5 x6 x7 x8 x9 x10 (ix2 r d)
      = unitRow (rowOf (n := 50000) (val_main_v79 (F := Ideal) x1 x2 x3 x4 x5 x6 x7 x8 x9 x10) r) d := by
  unfold unitRow
  rw [val_main_v84_apply, val_main_v83_apply, val_main_v82_apply, val_main_v80_apply, val_main_call4_v2_apply,
    val_main_call4_v1_apply, val_main_call4_cst_apply, val_main_v81_apply, val_main_cst_13_apply]
  simp only [laneIdx4]
  have hsq := Finset.sum_congr (s₁ := (Finset.univ : Finset (Fin 128))) rfl
    (fun (k : Fin 128) _ => val_main_call4_v0_apply (F := Ideal) x1 x2 x3 x4 x5 x6 x7 x8 x9 x10 (ix2 r k))
  rw [hsq]
  generalize val_main_v79 (F := Ideal) x1 x2 x3 x4 x5 x6 x7 x8 x9 x10 = y
  simp only [Ideal.hostDivf_def, Ideal.addf_def, Ideal.hostUnary_sqrt_def,
    Ideal.ofBits_def, Ideal.mulf_def, Ideal.ofBits_zero_f32, zero_add]

/-- The reference's result is every node's mean row (its summed row over `max count 1`) made a unit row. -/
theorem ref_final (x1 : FVec Ideal S50000x128 .f32) (x2 : IVec S2x800000 32) (x3 : FVec Ideal S256x128 .f32) (x4 : FVec Ideal S128 .f32)
    (x5 : FVec Ideal S128x128 .f32) (x6 : FVec Ideal S128 .f32) (x7 : FVec Ideal S256x128 .f32) (x8 : FVec Ideal S128 .f32)
    (x9 : FVec Ideal S128x1 .f32) (x10 : FVec Ideal S1 .f32) :
    val_main_v84 (F := Ideal) x1 x2 x3 x4 x5 x6 x7 x8 x9 x10
      = meanUnitRows (n := 50000) (val_main_v71 (F := Ideal) x1 x2 x3 x4 x5 x6 x7 x8 x9 x10) (val_main_v75 (F := Ideal) x2) := by
  funext i
  obtain ⟨r, d, rfl⟩ : ∃ (r : Fin 50000) (d : Fin 128), i = ix2 r d := ⟨i 0, i 1, eq_ix2 i⟩
  rw [meanUnitRows_apply]
  unfold meanUnitRow
  refine (final_apply x1 x2 x3 x4 x5 x6 x7 x8 x9 x10 r d).trans ?_
  refine congrFun (congrArg unitRow (funext fun k => ?_)) d
  exact mean_apply x1 x2 x3 x4 x5 x6 x7 x8 x9 x10 r k

end Cert.ReferenceIdeal.Stages

end
-- ==== Proof.RefCurv.lean ====
/-
  The reference's first curvature stage read as a row function: the two gathered rows are concatenated and meet the
  256 × 128 weight in ONE contraction, which is the sum over the first half against the weight's top half plus the sum
  over the second half against its bottom half; then the bias, the rectification, and the second rectified layer.
-/
import proofs.«420050_j76647986365056_1_alg».proof.Proof.RefRead
import proofs.«420050_j76647986365056_1_alg».proof.Proof.Rows
import proofs.«420050_j76647986365056_1_alg».proof.Proof.LibDenseLayer
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.Stages

open Cert.ReferenceIdeal Cert.ReferenceIdeal.ReadP Cert.Curv Idealize.ShloMosaic Idealize.ShloMosaic.ValueIdx
open scoped BigOperators

/-! ## Where each operation reads its operands

The reference reads a contraction's operands, and a broadcast's operand, at indices computed from the result's; at the
result index `(e, k)` they are the indices below. -/

/-- The first contraction's left operand at position `l`: row `e`, column `l` of the concatenated array. -/
private theorem left_first (e : Fin 800000) (k : Fin 128) (l : Fin 256) : lidx_main_v24 (ix2 e k) l = ix2 e l :=
  funext fun a => Fin.ext (by
    match a with
    | ⟨0, _⟩ => rfl
    | ⟨1, _⟩ => rfl)

/-- The first contraction's right operand at position `l`: row `l`, column `k` of the weight. -/
private theorem right_first (e : Fin 800000) (k : Fin 128) (l : Fin 256) : ridx_main_v24 (ix2 e k) l = ix2 l k :=
  funext fun a => Fin.ext (by
    match a with
    | ⟨0, _⟩ => rfl
    | ⟨1, _⟩ => rfl)

/-- The second contraction's left operand at position `k`: row `e`, column `k` of the hidden array. -/
private theorem left_second (e : Fin 800000) (d k : Fin 128) : lidx_main_v29 (ix2 e d) k = ix2 e k :=
  funext fun a => Fin.ext (by
    match a with
    | ⟨0, _⟩ => rfl
    | ⟨1, _⟩ => rfl)

/-- The second contraction's right operand at position `k`: row `k`, column `d` of the weight. -/
private theorem right_second (e : Fin 800000) (d k : Fin 128) : ridx_main_v29 (ix2 e d) k = ix2 k d :=
  funext fun a => Fin.ext (by
    match a with
    | ⟨0, _⟩ => rfl
    | ⟨1, _⟩ => rfl)

/-- The first bias, broadcast twice, is read at the column. -/
private theorem bias_first (e : Fin 800000) (k : Fin 128) : idx_main_v25 (idx_main_v26 (ix2 e k)) = ix1 k :=
  funext fun a => Fin.ext (by
    match a with
    | ⟨0, _⟩ => rfl)

/-- The second bias, broadcast twice, is read at the column. -/
private theorem bias_second (e : Fin 800000) (d : Fin 128) : idx_main_v30 (idx_main_v31 (ix2 e d)) = ix1 d :=
  funext fun a => Fin.ext (by
    match a with
    | ⟨0, _⟩ => rfl)

/-! ## The concatenated row against the whole weight -/

/-- The first half of a concatenated row is the first array's row. -/
private theorem cat_left (u v : FVec Ideal S800000x128 .f32) (h : Shape.Concatenates [S800000x128, S800000x128] S800000x256 1)
    (e : Fin 800000) (l : Fin 128) :
    concatenate S800000x256 1 [⟨S800000x128, u⟩, ⟨S800000x128, v⟩] h (ix2 e (Fin.castAdd 128 l)) = u (ix2 e l) :=
  concatenate_pair_apply_left 1 u v h (ix2 e (Fin.castAdd 128 l)) rfl (ix2 e l) (fun b => by
    match b with
    | ⟨0, _⟩ => rfl
    | ⟨1, _⟩ => rfl)

/-- The second half of a concatenated row is the second array's row. -/
private theorem cat_right (u v : FVec Ideal S800000x128 .f32) (h : Shape.Concatenates [S800000x128, S800000x128] S800000x256 1)
    (e : Fin 800000) (l : Fin 128) :
    concatenate S800000x256 1 [⟨S800000x128, u⟩, ⟨S800000x128, v⟩] h (ix2 e (Fin.natAdd 128 l)) = v (ix2 e l) :=
  concatenate_pair_apply_right 1 u v h (ix2 e (Fin.natAdd 128 l)) rfl rfl (ix2 e l) (fun b hne => by
    match b with
    | ⟨0, _⟩ => rfl
    | ⟨1, _⟩ => exact absurd rfl hne)
    (by show l.val + 128 = 128 + l.val; omega)

/-- ONE contraction of the concatenated row with the 256 × 128 weight is the first row against the weight's top half
    plus the second row against its bottom half. -/
private theorem cat_sum (u v : FVec Ideal S800000x128 .f32) (h : Shape.Concatenates [S800000x128, S800000x128] S800000x256 1)
    (x3 : FVec Ideal S256x128 .f32) (wa wb : FVec Ideal S128x128 .f32)
    (hwa : ∀ l k : Fin 128, wa (ix2 l k) = x3 (ix2 (Fin.castAdd 128 l) k))
    (hwb : ∀ l k : Fin 128, wb (ix2 l k) = x3 (ix2 (Fin.natAdd 128 l) k))
    (e : Fin 800000) (k : Fin 128) :
    ∑ l : Fin 256, concatenate S800000x256 1 [⟨S800000x128, u⟩, ⟨S800000x128, v⟩] h (ix2 e l) * x3 (ix2 l k)
      = (∑ l : Fin 128, u (ix2 e l) * wa (ix2 l k)) + ∑ l : Fin 128, v (ix2 e l) * wb (ix2 l k) := by
  refine (sum_halves fun l => concatenate S800000x256 1 [⟨S800000x128, u⟩, ⟨S800000x128, v⟩] h (ix2 e l) * x3 (ix2 l k)).trans ?_
  exact congrArg₂ (· + ·)
    (Finset.sum_congr rfl fun l _ => by rw [hwa l k, cat_left])
    (Finset.sum_congr rfl fun l _ => by rw [hwb l k, cat_right])

/-! ## The reference's operations at row `e` -/

section Ops
variable (x1 : FVec Ideal S50000x128 .f32) (x2 : IVec S2x800000 32) (x3 : FVec Ideal S256x128 .f32) (x4 : FVec Ideal S128 .f32)
  (x5 : FVec Ideal S128x128 .f32) (x6 : FVec Ideal S128 .f32)

/-- The first contraction at `(e, k)`. -/
private theorem first_product (e : Fin 800000) (k : Fin 128) :
    val_main_v24 (F := Ideal) x1 x2 x3 (ix2 e k)
      = ∑ l : Fin 256, val_main_v23 (F := Ideal) x1 x2 (ix2 e l) * x3 (ix2 l k) :=
  (val_main_v24_apply x1 x2 x3 (ix2 e k)).trans (Finset.sum_congr rfl fun l _ =>
    congrArg₂ (fun a b => val_main_v23 (F := Ideal) x1 x2 a * x3 b) (left_first e k l) (right_first e k l))

/-- The second contraction at `(e, d)`. -/
private theorem second_product (e : Fin 800000) (d : Fin 128) :
    val_main_v29 (F := Ideal) x1 x2 x3 x4 x5 (ix2 e d)
      = ∑ k : Fin 128, val_main_v28 (F := Ideal) x1 x2 x3 x4 (ix2 e k) * x5 (ix2 k d) :=
  (val_main_v29_apply x1 x2 x3 x4 x5 (ix2 e d)).trans (Finset.sum_congr rfl fun k _ =>
    congrArg₂ (fun a b => val_main_v28 (F := Ideal) x1 x2 x3 x4 a * x5 b) (left_second e d k) (right_second e d k))

/-- The first bias broadcast over the rows, at `(e, k)`. -/
private theorem first_bias (e : Fin 800000) (k : Fin 128) : val_main_v26 (F := Ideal) x4 (ix2 e k) = x4 (ix1 k) :=
  (val_main_v26_apply (F := Ideal) x4 (ix2 e k)).trans ((val_main_v25_apply (F := Ideal) x4 _).trans (congrArg x4 (bias_first e k)))

/-- The second bias broadcast over the rows, at `(e, d)`. -/
private theorem second_bias (e : Fin 800000) (d : Fin 128) : val_main_v31 (F := Ideal) x6 (ix2 e d) = x6 (ix1 d) :=
  (val_main_v31_apply (F := Ideal) x6 (ix2 e d)).trans ((val_main_v30_apply (F := Ideal) x6 _).trans (congrArg x6 (bias_second e d)))

/-- The first rectification's broadcast constant is zero. -/
private theorem first_zero (i : S800000x128.Idx) : val_main_call1_v0 (F := Ideal) i = 0 :=
  (val_main_call1_v0_apply i).trans ((val_main_call1_cst_apply _).trans Ideal.ofBits_zero_f32)

/-- The second rectification's broadcast constant is zero. -/
private theorem second_zero (i : S800000x128.Idx) : val_main_call2_v0 (F := Ideal) i = 0 :=
  (val_main_call2_v0_apply i).trans ((val_main_call2_cst_apply _).trans Ideal.ofBits_zero_f32)

/-- The first rectified layer at `(e, k)` is the hidden row of the two gathered rows. -/
private theorem hidden_ref (wa wb : FVec Ideal S128x128 .f32) (b1 : FVec Ideal S1x128 .f32)
    (hwa : ∀ l k : Fin 128, wa (ix2 l k) = x3 (ix2 (Fin.castAdd 128 l) k))
    (hwb : ∀ l k : Fin 128, wb (ix2 l k) = x3 (ix2 (Fin.natAdd 128 l) k))
    (hb1 : ∀ k : Fin 128, b1 (ix2 (0 : Fin 1) k) = x4 (ix1 k)) (e : Fin 800000) (k : Fin 128) :
    val_main_v28 (F := Ideal) x1 x2 x3 x4 (ix2 e k)
      = hiddenRow (mat wa) (mat wb) (row1 b1) (rowOf (val_main_v15 (F := Ideal) x1 x2) e)
          (rowOf (val_main_v22 (F := Ideal) x1 x2) e) k := by
  show max (val_main_v24 (F := Ideal) x1 x2 x3 (ix2 e k) + val_main_v26 (F := Ideal) x4 (ix2 e k))
        (val_main_call1_v0 (F := Ideal) (ix2 e k))
      = max (((∑ l : Fin 128, val_main_v15 (F := Ideal) x1 x2 (ix2 e l) * wa (ix2 l k))
          + ∑ l : Fin 128, val_main_v22 (F := Ideal) x1 x2 (ix2 e l) * wb (ix2 l k)) + b1 (ix2 (0 : Fin 1) k)) 0
  rw [first_product, first_bias, first_zero, hb1 k]
  exact congrArg (fun t => max (t + x4 (ix1 k)) 0)
    (cat_sum (val_main_v15 (F := Ideal) x1 x2) (val_main_v22 (F := Ideal) x1 x2) _ x3 wa wb hwa hwb e k)

end Ops

/-- The reference's pre-aggregation curvature rows, for any arrays `wa`, `wb`, `b1`, `b2` that hold the top and bottom
    halves of the first weight and the two biases laid out as rows. -/
theorem ref_curv (x1 : FVec Ideal S50000x128 .f32) (x2 : IVec S2x800000 32) (x3 : FVec Ideal S256x128 .f32) (x4 : FVec Ideal S128 .f32)
    (x5 : FVec Ideal S128x128 .f32) (x6 : FVec Ideal S128 .f32)
    (wa wb : FVec Ideal S128x128 .f32) (b1 b2 : FVec Ideal S1x128 .f32)
    (hwa : ∀ l k : Fin 128, wa (ix2 l k) = x3 (ix2 (Fin.castAdd 128 l) k))
    (hwb : ∀ l k : Fin 128, wb (ix2 l k) = x3 (ix2 (Fin.natAdd 128 l) k))
    (hb1 : ∀ k : Fin 128, b1 (ix2 (0 : Fin 1) k) = x4 (ix1 k)) (hb2 : ∀ k : Fin 128, b2 (ix2 (0 : Fin 1) k) = x6 (ix1 k)) :
    val_main_v33 (F := Ideal) x1 x2 x3 x4 x5 x6
      = curvRows (n := 800000) (val_main_v15 (F := Ideal) x1 x2) (val_main_v22 (F := Ideal) x1 x2) wa wb b1 x5 b2 := by
  funext i
  obtain ⟨e, d, rfl⟩ : ∃ (e : Fin 800000) (d : Fin 128), i = ix2 e d := ⟨i 0, i 1, eq_ix2 i⟩
  show max (val_main_v29 (F := Ideal) x1 x2 x3 x4 x5 (ix2 e d) + val_main_v31 (F := Ideal) x6 (ix2 e d))
        (val_main_call2_v0 (F := Ideal) (ix2 e d))
      = max ((∑ k : Fin 128, hiddenRow (mat wa) (mat wb) (row1 b1) (rowOf (val_main_v15 (F := Ideal) x1 x2) e)
          (rowOf (val_main_v22 (F := Ideal) x1 x2) e) k * x5 (ix2 k d)) + b2 (ix2 (0 : Fin 1) d)) 0
  rw [second_product, second_bias, second_zero, hb2 d]
  exact congrArg (fun t => max (t + x6 (ix1 d)) 0) (Finset.sum_congr rfl fun k _ =>
    congrArg (· * x5 (ix2 k d)) (hidden_ref x1 x2 x3 x4 wa wb b1 hwa hwb hb1 e k))

end Cert.ReferenceIdeal.Stages

end
-- ==== Proof.RefEdge.lean ====
/-
  The reference's message stage read as a row function: the curvature of an edge from the two gathered curvature sums
  (concatenated, one contraction against the 256 × 128 weight = top half plus bottom half; bias; rectification; one
  output column; its bias), times the target row minus the source row scaled by the two rows' inner product (the
  host's sum starts from zero, which adds nothing).
-/
import proofs.«420050_j76647986365056_1_alg».proof.Proof.RefRead
import proofs.«420050_j76647986365056_1_alg».proof.Proof.Rows
import proofs.«420050_j76647986365056_1_alg».proof.Proof.LibDenseLayer
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.Stages

open Cert.ReferenceIdeal Cert.ReferenceIdeal.ReadP Cert.Curv Idealize.ShloMosaic Idealize.ShloMosaic.ValueIdx
open scoped BigOperators

/-! ## The concatenation of two blocks of 128 lanes at an index -/

section Cat
variable {α : Type}

/-- Lane `l` of the first half of a row of the concatenation is lane `l` of the first block. -/
private theorem cat_left (y₁ y₂ : S800000x128.Idx → α) (h : Shape.Concatenates [S800000x128, S800000x128] S800000x256 1)
    (r : Fin 800000) (l : Fin 128) :
    concatenate S800000x256 1 [⟨S800000x128, y₁⟩, ⟨S800000x128, y₂⟩] h (ix2 r (Fin.castAdd 128 l)) = y₁ (ix2 r l) :=
  concatenate_pair_apply_left 1 y₁ y₂ h (ix2 r (Fin.castAdd 128 l)) rfl (ix2 r l) (fun b => by
    match b with
    | ⟨0, _⟩ => rfl
    | ⟨1, _⟩ => rfl)

/-- Lane `l` of the second half of a row of the concatenation is lane `l` of the second block. -/
private theorem cat_right (y₁ y₂ : S800000x128.Idx → α) (h : Shape.Concatenates [S800000x128, S800000x128] S800000x256 1)
    (r : Fin 800000) (l : Fin 128) :
    concatenate S800000x256 1 [⟨S800000x128, y₁⟩, ⟨S800000x128, y₂⟩] h (ix2 r (Fin.natAdd 128 l)) = y₂ (ix2 r l) :=
  concatenate_pair_apply_right 1 y₁ y₂ h (ix2 r (Fin.natAdd 128 l)) rfl rfl (ix2 r l)
    (fun b hb => by
      match b, hb with
      | ⟨0, _⟩, _ => rfl
      | ⟨1, _⟩, hb => exact absurd (Fin.ext rfl) hb)
    (by show l.val + 128 = 128 + l.val; exact Nat.add_comm _ _)

end Cat

/-! ## The operand indices of the stage, by coordinates -/

private theorem e67 (r : Fin 800000) (d : Fin 128) : idx_main_v67 (ix2 r d) = ix2 r (0 : Fin 1) :=
  funext fun a => Fin.ext (by match a with | ⟨0, _⟩ => rfl | ⟨1, _⟩ => rfl)

private theorem e64 (r : Fin 800000) (d : Fin 128) : idx_main_v64 (ix2 r d) = ix2 r (0 : Fin 1) :=
  funext fun a => Fin.ext (by match a with | ⟨0, _⟩ => rfl | ⟨1, _⟩ => rfl)

private theorem e63 (r : Fin 800000) (u : Fin 1) : idx_main_v63 (ix2 r u) = ix1 r :=
  funext fun a => Fin.ext (by match a with | ⟨0, _⟩ => rfl)

private theorem e62 (r : Fin 800000) (k : Fin 128) : idx_main_v62 (ix1 r) k = ix2 r k :=
  funext fun a => Fin.ext (by match a with | ⟨0, _⟩ => rfl | ⟨1, _⟩ => rfl)

private theorem e59 (r : Fin 800000) (u : Fin 1) : idx_main_v59 (ix2 r u) = ix2 (0 : Fin 1) (0 : Fin 1) :=
  funext fun a => Fin.ext (by match a with | ⟨0, _⟩ => rfl | ⟨1, _⟩ => rfl)

private theorem e58 (u v : Fin 1) : idx_main_v58 (ix2 u v) = ix1 (0 : Fin 1) :=
  funext fun a => Fin.ext (by match a with | ⟨0, _⟩ => rfl)

private theorem e57l (r : Fin 800000) (u : Fin 1) (k : Fin 128) : lidx_main_v57 (ix2 r u) k = ix2 r k :=
  funext fun a => Fin.ext (by match a with | ⟨0, _⟩ => rfl | ⟨1, _⟩ => rfl)

private theorem e57r (r : Fin 800000) (u : Fin 1) (k : Fin 128) : ridx_main_v57 (ix2 r u) k = ix2 k u :=
  funext fun a => Fin.ext (by match a with | ⟨0, _⟩ => rfl | ⟨1, _⟩ => rfl)

private theorem e54 (r : Fin 800000) (k : Fin 128) : idx_main_v54 (ix2 r k) = ix2 (0 : Fin 1) k :=
  funext fun a => Fin.ext (by match a with | ⟨0, _⟩ => rfl | ⟨1, _⟩ => rfl)

private theorem e53 (u : Fin 1) (k : Fin 128) : idx_main_v53 (ix2 u k) = ix1 k :=
  funext fun a => Fin.ext (by match a with | ⟨0, _⟩ => rfl)

private theorem e52l (r : Fin 800000) (k : Fin 128) (l : Fin 256) : lidx_main_v52 (ix2 r k) l = ix2 r l :=
  funext fun a => Fin.ext (by match a with | ⟨0, _⟩ => rfl | ⟨1, _⟩ => rfl)

private theorem e52r (r : Fin 800000) (k : Fin 128) (l : Fin 256) : ridx_main_v52 (ix2 r k) l = ix2 l k :=
  funext fun a => Fin.ext (by match a with | ⟨0, _⟩ => rfl | ⟨1, _⟩ => rfl)

/-! ## The stage's columns and rows at an index -/

/-- The concatenated row read in its first half … -/
private theorem v51_left (x1 : FVec Ideal S50000x128 .f32) (x2 : IVec S2x800000 32) (x3 : FVec Ideal S256x128 .f32) (x4 : FVec Ideal S128 .f32)
    (x5 : FVec Ideal S128x128 .f32) (x6 : FVec Ideal S128 .f32) (r : Fin 800000) (l : Fin 128) :
    val_main_v51 (F := Ideal) x1 x2 x3 x4 x5 x6 (ix2 r (Fin.castAdd 128 l)) = val_main_v43 (F := Ideal) x1 x2 x3 x4 x5 x6 (ix2 r l) := by
  unfold val_main_v51
  exact cat_left _ _ _ r l

/-- … and in its second. -/
private theorem v51_right (x1 : FVec Ideal S50000x128 .f32) (x2 : IVec S2x800000 32) (x3 : FVec Ideal S256x128 .f32) (x4 : FVec Ideal S128 .f32)
    (x5 : FVec Ideal S128x128 .f32) (x6 : FVec Ideal S128 .f32) (r : Fin 800000) (l : Fin 128) :
    val_main_v51 (F := Ideal) x1 x2 x3 x4 x5 x6 (ix2 r (Fin.natAdd 128 l)) = val_main_v50 (F := Ideal) x1 x2 x3 x4 x5 x6 (ix2 r l) := by
  unfold val_main_v51
  exact cat_right _ _ _ r l

/-- The column of inner products of the two gathered rows: the host's sum starts from zero. -/
private theorem inner_apply (x1 : FVec Ideal S50000x128 .f32) (x2 : IVec S2x800000 32) (r : Fin 800000) (d : Fin 128) :
    val_main_v64 (F := Ideal) x1 x2 (ix2 r d)
      = ∑ k : Fin 128, val_main_v15 (F := Ideal) x1 x2 (ix2 r k) * val_main_v22 (F := Ideal) x1 x2 (ix2 r k) := by
  rw [val_main_v64_apply, e64, val_main_v63_apply, e63, val_main_v62_apply, val_main_cst_8_apply]
  show Ideal.ofBits .f32 0x00000000#32 + _ = _
  rw [Ideal.ofBits_zero_f32, zero_add]
  refine Finset.sum_congr rfl fun k _ => ?_
  rw [e62]
  rfl

/-- The rectified layer: the contraction over the 256 concatenated lanes is the sum over the first block against the
    top half of the weight plus the sum over the second block against the bottom half. -/
private theorem hidden_apply (x1 : FVec Ideal S50000x128 .f32) (x2 : IVec S2x800000 32) (x3 : FVec Ideal S256x128 .f32) (x4 : FVec Ideal S128 .f32)
    (x5 : FVec Ideal S128x128 .f32) (x6 : FVec Ideal S128 .f32) (x7 : FVec Ideal S256x128 .f32) (x8 : FVec Ideal S128 .f32)
    (wa wb : FVec Ideal S128x128 .f32) (b1 : FVec Ideal S1x128 .f32)
    (hwa : ∀ l k : Fin 128, wa (ix2 l k) = x7 (ix2 (Fin.castAdd 128 l) k))
    (hwb : ∀ l k : Fin 128, wb (ix2 l k) = x7 (ix2 (Fin.natAdd 128 l) k))
    (hb1 : ∀ k : Fin 128, b1 (ix2 (0 : Fin 1) k) = x8 (ix1 k)) (r : Fin 800000) (k : Fin 128) :
    val_main_v56 (F := Ideal) x1 x2 x3 x4 x5 x6 x7 x8 (ix2 r k)
      = hiddenRow (mat wa) (mat wb) (row1 b1) (rowOf (val_main_v43 (F := Ideal) x1 x2 x3 x4 x5 x6) r)
          (rowOf (val_main_v50 (F := Ideal) x1 x2 x3 x4 x5 x6) r) k := by
  rw [val_main_v56_apply, val_main_v55_apply, val_main_v52_apply, val_main_v54_apply, e54, val_main_v53_apply, e53,
    val_main_call3_v0_apply, val_main_call3_cst_apply]
  unfold hiddenRow
  show max ((∑ l : Fin 256, val_main_v51 (F := Ideal) x1 x2 x3 x4 x5 x6 (lidx_main_v52 (ix2 r k) l) * x7 (ridx_main_v52 (ix2 r k) l))
      + x8 (ix1 k)) (Ideal.ofBits .f32 0x00000000#32) = _
  rw [Ideal.ofBits_zero_f32, ← hb1 k, sum_halves]
  refine congrArg (fun t => max (t + b1 (ix2 (0 : Fin 1) k)) 0)
    (congrArg₂ (· + ·) (Finset.sum_congr rfl fun l _ => ?_) (Finset.sum_congr rfl fun l _ => ?_))
  · show val_main_v51 (F := Ideal) x1 x2 x3 x4 x5 x6 (lidx_main_v52 (ix2 r k) (Fin.castAdd 128 l)) * x7 (ridx_main_v52 (ix2 r k) (Fin.castAdd 128 l)) = _
    rw [e52l, e52r, v51_left, ← hwa l k]
  · show val_main_v51 (F := Ideal) x1 x2 x3 x4 x5 x6 (lidx_main_v52 (ix2 r k) (Fin.natAdd 128 l)) * x7 (ridx_main_v52 (ix2 r k) (Fin.natAdd 128 l)) = _
    rw [e52l, e52r, v51_right, ← hwb l k]

/-- The column of curvatures. -/
private theorem curv_apply (x1 : FVec Ideal S50000x128 .f32) (x2 : IVec S2x800000 32) (x3 : FVec Ideal S256x128 .f32) (x4 : FVec Ideal S128 .f32)
    (x5 : FVec Ideal S128x128 .f32) (x6 : FVec Ideal S128 .f32) (x7 : FVec Ideal S256x128 .f32) (x8 : FVec Ideal S128 .f32)
    (x9 : FVec Ideal S128x1 .f32) (x10 : FVec Ideal S1 .f32)
    (wa wb : FVec Ideal S128x128 .f32) (b1 : FVec Ideal S1x128 .f32) (b2 : FVec Ideal S1x1 .f32)
    (hwa : ∀ l k : Fin 128, wa (ix2 l k) = x7 (ix2 (Fin.castAdd 128 l) k))
    (hwb : ∀ l k : Fin 128, wb (ix2 l k) = x7 (ix2 (Fin.natAdd 128 l) k))
    (hb1 : ∀ k : Fin 128, b1 (ix2 (0 : Fin 1) k) = x8 (ix1 k)) (hb2 : b2 (ix2 (0 : Fin 1) (0 : Fin 1)) = x10 (ix1 (0 : Fin 1)))
    (r : Fin 800000) :
    val_main_v60 (F := Ideal) x1 x2 x3 x4 x5 x6 x7 x8 x9 x10 (ix2 r (0 : Fin 1))
      = curvScalar (mat wa) (mat wb) (row1 b1) (col1 x9) (b2 (ix2 (0 : Fin 1) (0 : Fin 1)))
          (rowOf (val_main_v43 (F := Ideal) x1 x2 x3 x4 x5 x6) r) (rowOf (val_main_v50 (F := Ideal) x1 x2 x3 x4 x5 x6) r) := by
  rw [val_main_v60_apply, val_main_v57_apply, val_main_v59_apply, e59, val_main_v58_apply, e58, ← hb2]
  unfold curvScalar
  refine congrArg (· + b2 (ix2 (0 : Fin 1) (0 : Fin 1))) (Finset.sum_congr rfl fun k _ => ?_)
  rw [e57l, e57r, hidden_apply x1 x2 x3 x4 x5 x6 x7 x8 wa wb b1 hwa hwb hb1 r k]

/-- The reference's damped messages, for any arrays `wa`, `wb`, `b1`, `b2` that hold the top and bottom halves of the
    first weight, its bias laid out as a row and the one-number bias laid out as 1 × 1. -/
theorem ref_edge (x1 : FVec Ideal S50000x128 .f32) (x2 : IVec S2x800000 32) (x3 : FVec Ideal S256x128 .f32) (x4 : FVec Ideal S128 .f32)
    (x5 : FVec Ideal S128x128 .f32) (x6 : FVec Ideal S128 .f32) (x7 : FVec Ideal S256x128 .f32) (x8 : FVec Ideal S128 .f32)
    (x9 : FVec Ideal S128x1 .f32) (x10 : FVec Ideal S1 .f32)
    (wa wb : FVec Ideal S128x128 .f32) (b1 : FVec Ideal S1x128 .f32) (b2 : FVec Ideal S1x1 .f32)
    (hwa : ∀ l k : Fin 128, wa (ix2 l k) = x7 (ix2 (Fin.castAdd 128 l) k))
    (hwb : ∀ l k : Fin 128, wb (ix2 l k) = x7 (ix2 (Fin.natAdd 128 l) k))
    (hb1 : ∀ k : Fin 128, b1 (ix2 (0 : Fin 1) k) = x8 (ix1 k)) (hb2 : b2 (ix2 (0 : Fin 1) (0 : Fin 1)) = x10 (ix1 (0 : Fin 1))) :
    val_main_v68 (F := Ideal) x1 x2 x3 x4 x5 x6 x7 x8 x9 x10
      = edgeRows (n := 800000) (val_main_v43 (F := Ideal) x1 x2 x3 x4 x5 x6) (val_main_v50 (F := Ideal) x1 x2 x3 x4 x5 x6)
          (val_main_v15 (F := Ideal) x1 x2) (val_main_v22 (F := Ideal) x1 x2) wa wb b1 x9 b2 := by
  funext i
  obtain ⟨r, d, rfl⟩ : ∃ (r : Fin 800000) (d : Fin 128), i = ix2 r d := ⟨i 0, i 1, eq_ix2 i⟩
  rw [edgeRows_apply, val_main_v68_apply, val_main_v67_apply, e67, val_main_v66_apply, val_main_v65_apply,
    curv_apply x1 x2 x3 x4 x5 x6 x7 x8 x9 x10 wa wb b1 b2 hwa hwb hb1 hb2 r, inner_apply x1 x2 r d]
  rfl

end Cert.ReferenceIdeal.Stages

end
-- ==== Proof.Bridge.lean ====
/-
  The two programs compute one function of the arguments, wherever every entry of the edge list is a node index.

  Stage by stage: both normalize the node rows the same way; with indices in range the kernel program's row fetch is the
  reference's plain gather at the same start indices; the curvature stage's split weights are the halves of the
  reference's concatenated one; both sum the edge rows into their source nodes with the same scatter; the message stage
  and the finishing stage are the same row functions on both sides.
-/
import proofs.«420050_j76647986365056_1_alg».proof.Proof.KernelTerm
import proofs.«420050_j76647986365056_1_alg».proof.Proof.Take
import proofs.«420050_j76647986365056_1_alg».proof.Proof.RefNorm
import proofs.«420050_j76647986365056_1_alg».proof.Proof.RefCurv
import proofs.«420050_j76647986365056_1_alg».proof.Proof.RefEdge

noncomputable section

namespace Cert.Bridge

open Cert.Curv Idealize.ShloMosaic Idealize.ShloMosaic.ValueIdx
open Cert.KernelIdeal.Term Cert.ReferenceIdeal.ReadP Cert.ReferenceIdeal.Stages

section
variable (x1 : FVec Ideal Cert.KernelIdeal.S50000x128 .f32) (x2 : IVec Cert.KernelIdeal.S2x800000 32) (x3 : FVec Ideal Cert.KernelIdeal.S256x128 .f32)
    (x4 : FVec Ideal Cert.KernelIdeal.S128 .f32) (x5 : FVec Ideal Cert.KernelIdeal.S128x128 .f32) (x6 : FVec Ideal Cert.KernelIdeal.S128 .f32)
    (x7 : FVec Ideal Cert.KernelIdeal.S256x128 .f32) (x8 : FVec Ideal Cert.KernelIdeal.S128 .f32) (x9 : FVec Ideal Cert.KernelIdeal.S128x1 .f32)
    (x10 : FVec Ideal Cert.KernelIdeal.S1 .f32)

/-- The start indices of the two programs' source-row gathers are one term. -/
theorem src_idx : wrapIdx (srcOf x2) = val_main_v14 (F := Ideal) x2 := rfl

/-- And of their target-row gathers. -/
theorem dst_idx : wrapIdx (dstOf x2) = val_main_v21 (F := Ideal) x2 := rfl

/-- The same again where the summed curvature rows are fetched. -/
theorem src_idx' : wrapIdx (srcOf x2) = val_main_v42 (F := Ideal) x2 := rfl
theorem dst_idx' : wrapIdx (dstOf x2) = val_main_v49 (F := Ideal) x2 := rfl

variable (h : ∀ i : Cert.KernelIdeal.S2x800000.Idx, 0 ≤ (x2 i).toInt ∧ (x2 i).toInt < 50000)
include h

/-- Every source node is a node index. -/
theorem src_ok (e : Cert.KernelIdeal.S800000.Idx) : 0 ≤ (srcOf x2 e).toInt ∧ (srcOf x2 e).toInt < 50000 := by
  obtain ⟨k, rfl⟩ : ∃ k : Fin 800000, e = ix1 k := ⟨e 0, eq_ix1 e⟩
  rw [srcOf_apply]; exact h _

/-- Every target node is a node index. -/
theorem dst_ok (e : Cert.KernelIdeal.S800000.Idx) : 0 ≤ (dstOf x2 e).toInt ∧ (dstOf x2 e).toInt < 50000 := by
  obtain ⟨k, rfl⟩ : ∃ k : Fin 800000, e = ix1 k := ⟨e 0, eq_ix1 e⟩
  rw [dstOf_apply]; exact h _

/-- The rows of the edges' source nodes. -/
theorem src_rows : takeRows (nodes x1) (srcOf x2) = val_main_v15 (F := Ideal) x1 x2 := by
  rw [takeRows_eq_gather _ _ (src_ok x2 h), src_idx, show nodes x1 = val_main_v8 (F := Ideal) x1 from (ref_norm x1).symm]
  rfl

/-- The rows of the edges' target nodes. -/
theorem dst_rows : takeRows (nodes x1) (dstOf x2) = val_main_v22 (F := Ideal) x1 x2 := by
  rw [takeRows_eq_gather _ _ (dst_ok x2 h), dst_idx, show nodes x1 = val_main_v8 (F := Ideal) x1 from (ref_norm x1).symm]
  rfl

/-- The curvature rows of the edges. -/
theorem curv_rows : curvPre x1 x2 x3 x4 x5 x6 = val_main_v33 (F := Ideal) x1 x2 x3 x4 x5 x6 := by
  unfold curvPre
  rw [src_rows x1 x2 h, dst_rows x1 x2 h]
  exact (ref_curv x1 x2 x3 x4 x5 x6 _ _ _ _ (topHalf_apply x3) (botHalf_apply x3) (asRow_apply x4) (asRow_apply x6)).symm

/-- The curvature rows summed at the source nodes. -/
theorem curv_sum : curvSum x1 x2 x3 x4 x5 x6 = val_main_v36 (F := Ideal) x1 x2 x3 x4 x5 x6 := by
  unfold curvSum
  rw [curv_rows x1 x2 x3 x4 x5 x6 h]
  rfl

/-- The summed curvature rows fetched at the source and at the target nodes. -/
theorem src_curv : takeRows (curvSum x1 x2 x3 x4 x5 x6) (srcOf x2) = val_main_v43 (F := Ideal) x1 x2 x3 x4 x5 x6 := by
  rw [takeRows_eq_gather _ _ (src_ok x2 h), src_idx', curv_sum x1 x2 x3 x4 x5 x6 h]
  rfl
theorem dst_curv : takeRows (curvSum x1 x2 x3 x4 x5 x6) (dstOf x2) = val_main_v50 (F := Ideal) x1 x2 x3 x4 x5 x6 := by
  rw [takeRows_eq_gather _ _ (dst_ok x2 h), dst_idx', curv_sum x1 x2 x3 x4 x5 x6 h]
  rfl

/-- The damped messages of the edges. -/
theorem messages : message x1 x2 x3 x4 x5 x6 x7 x8 x9 x10 = val_main_v68 (F := Ideal) x1 x2 x3 x4 x5 x6 x7 x8 x9 x10 := by
  unfold message
  rw [src_curv x1 x2 x3 x4 x5 x6 h, dst_curv x1 x2 x3 x4 x5 x6 h, src_rows x1 x2 h, dst_rows x1 x2 h]
  exact (ref_edge x1 x2 x3 x4 x5 x6 x7 x8 x9 x10 _ _ _ _ (topHalf_apply x7) (botHalf_apply x7) (asRow_apply x8) (asOne_apply x10)).symm

/-- The kernel program's composed result is the reference's, for an edge list of node indices. -/
theorem result_eq :
    Cert.KernelIdeal.Term.result x1 x2 x3 x4 x5 x6 x7 x8 x9 x10
      = Cert.ReferenceIdeal.ReadP.val_main_v84 (F := Ideal) x1 x2 x3 x4 x5 x6 x7 x8 x9 x10 := by
  unfold Cert.KernelIdeal.Term.result
  rw [messages x1 x2 x3 x4 x5 x6 x7 x8 x9 x10 h, ref_final]
  rfl

end

end Cert.Bridge

end
-- ==== Proof.lean ====
/-
  Curvature-damped message passing over a graph of 50000 nodes and 800000 edges: four Pallas kernels (row normalization,
  two small edge-wise networks, the finishing mean and normalization) among gathers and scatter-sums by node index, against
  the same computation in plain jnp. Over the extended reals the two programs are one function of the arguments wherever
  every entry of the edge list is a node index (the added precondition: outside it the reference itself indexes out of
  range, and the two programs' gathers then read different rows).

  The two kernel frames are the generated ones, and the reference's is its run, read one stretch of host operations at a
  time, with the result dropped; nothing was rewritten by the ideal
  pass, so `preserves` is trivial; `algebraic` joins the kernel program's run, with its result buffer named and walked
  back to the arguments, to the reference's run through `Cert.Bridge.result_eq`.
-/
import proofs.«420050_j76647986365056_1_alg».proof.Defs
import proofs.«420050_j76647986365056_1_alg».proof.Proof.Gen.Kernel
import proofs.«420050_j76647986365056_1_alg».proof.Proof.Gen.Kernel.Skeleton
import proofs.«420050_j76647986365056_1_alg».proof.Proof.Gen.Kernel.Launch
import proofs.«420050_j76647986365056_1_alg».proof.Proof.Gen.Kernel.Points
import proofs.«420050_j76647986365056_1_alg».proof.Proof.Gen.Kernel.Frame
import proofs.«420050_j76647986365056_1_alg».proof.Proof.Gen.KernelIdeal
import proofs.«420050_j76647986365056_1_alg».proof.Proof.Gen.KernelIdeal.Skeleton
import proofs.«420050_j76647986365056_1_alg».proof.Proof.Gen.KernelIdeal.Launch
import proofs.«420050_j76647986365056_1_alg».proof.Proof.Gen.KernelIdeal.Points
import proofs.«420050_j76647986365056_1_alg».proof.Proof.Gen.KernelIdeal.Frame
import proofs.«420050_j76647986365056_1_alg».proof.Proof.Gen.ReferenceIdeal
import proofs.«420050_j76647986365056_1_alg».proof.Proof.RefRun
import proofs.«420050_j76647986365056_1_alg».proof.Proof.Gen.Pre_finite_inputs
import proofs.«420050_j76647986365056_1_alg».proof.Proof.KernelRun
import proofs.«420050_j76647986365056_1_alg».proof.Proof.KernelValue
import proofs.«420050_j76647986365056_1_alg».proof.Proof.Take
import proofs.«420050_j76647986365056_1_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does the idealized one. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunH.run (F := Ideal) m ρ)

/-- Both programs end with the kernel program's composed function of the arguments in their result buffers: the kernel
    program by its run walked back to the arguments, the reference by its run and the bridge, the arguments agreeing and
    the edge list holding node indices by the precondition. -/
theorem algebraic : Cert.algebraic_KernelIdeal_ReferenceIdeal := by
  intro m ρ m' ρ' hpre hagree
  refine ⟨fun c => Cert.KernelIdeal.Term.result
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Chain.result_value m ρ c), (h c).2⟩)
      (Cert.KernelIdeal.Named.run_named m ρ)
  · refine (θ_run Cert.ReferenceIdeal.defs _ _).mono (fun r h c => ⟨?_, (h c).2⟩)
      (Cert.ReferenceIdeal.RunH.run (F := Ideal) m' ρ')
    obtain ⟨_, a1, a2, a3, a4, a5, a6, a7, a8, a9, a10⟩ := hagree c
    rw [(h c).1, a1, a2, a3, a4, a5, a6, a7, a8, a9, a10]
    exact (Cert.Bridge.result_eq _ _ _ _ _ _ _ _ _ _
      (Cert.KernelIdeal.Term.idx_of_pre _ _ _ _ _ _ _ _ _ _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
